-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S2x10000x128 : Shape := ⟨3, ![2, 10000, 128]⟩
abbrev S1280x10000 : Shape := ⟨2, ![1280, 10000]⟩
abbrev S1x1280x128 : Shape := ⟨3, ![1, 1280, 128]⟩
abbrev S10240x128 : Shape := ⟨2, ![10240, 128]⟩
abbrev S1280x128 : Shape := ⟨2, ![1280, 128]⟩
abbrev S1x10000x128 : Shape := ⟨3, ![1, 10000, 128]⟩

abbrev nBuf : Space → Nat
  | .hbm => 19
  | .vmem => 20
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .bf16⟩
  | .hbm, ⟨9, _⟩ => ⟨S128x128, .bf16⟩
  | .hbm, ⟨10, _⟩ => ⟨S128x128, .bf16⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S10000x128, .bf16⟩
  | .hbm, ⟨15, _⟩ => ⟨S10000x10000, .bf16⟩
  | .hbm, ⟨16, _⟩ => ⟨S2x10000x128, .f32⟩
  | .hbm, ⟨17, _⟩ => ⟨S1x10000x128, .f32⟩
  | .hbm, ⟨18, _⟩ => ⟨S10000x128, .f32⟩
  | .local _ .vmem, ⟨0, _⟩ => ⟨S10000x128, .f32⟩
  | .local _ .vmem, ⟨1, _⟩ => ⟨S128x128, .bf16⟩
  | .local _ .vmem, ⟨2, _⟩ => ⟨S400x10000, .f32⟩
  | .local _ .vmem, ⟨3, _⟩ => ⟨S400x10000, .f32⟩
  | .local _ .vmem, ⟨4, _⟩ => ⟨S1x128, .f32⟩
  | .local _ .vmem, ⟨5, _⟩ => ⟨S128x128, .bf16⟩
  | .local _ .vmem, ⟨6, _⟩ => ⟨S400x128, .bf16⟩
  | .local _ .vmem, ⟨7, _⟩ => ⟨S400x128, .bf16⟩
  | .local _ .vmem, ⟨8, _⟩ => ⟨S400x10000, .bf16⟩
  | .local _ .vmem, ⟨9, _⟩ => ⟨S400x10000, .bf16⟩
  | .local _ .vmem, ⟨10, _⟩ => ⟨S10000x128, .bf16⟩
  | .local _ .vmem, ⟨11, _⟩ => ⟨S1280x10000, .bf16⟩
  | .local _ .vmem, ⟨12, _⟩ => ⟨S1280x10000, .bf16⟩
  | .local _ .vmem, ⟨13, _⟩ => ⟨S10000x128, .bf16⟩
  | .local _ .vmem, ⟨14, _⟩ => ⟨S1x128, .f32⟩
  | .local _ .vmem, ⟨15, _⟩ => ⟨S1x128, .f32⟩
  | .local _ .vmem, ⟨16, _⟩ => ⟨S128x128, .bf16⟩
  | .local _ .vmem, ⟨17, _⟩ => ⟨S1x1280x128, .f32⟩
  | .local _ .vmem, ⟨18, _⟩ => ⟨S1x1280x128, .f32⟩
  | .local _ .vmem, ⟨19, _⟩ => ⟨S10240x128, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 8], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c1280_i32 : BitVec 32 := 1280#32
  let v22 : BitVec 32 := Scalar.muli arg1 c1280_i32
  let v23 : Index := Scalar.indexCast v22
  let c0_11 : Index := 0#32
  ![v23.toNat, 0]
def k1_cond2 (i : grid1.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1280x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1280x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1280x10000_S1280x10000_0_0 : ∀ a, (![0, 0] : Fin 2 → Nat) a + S1280x10000.size a ≤ S1280x10000.size a
  h_S1280x10000 : 0 < S1280x10000.numel
  shapeCasts_S1280x10000_S1280x10000 : S1280x10000.ShapeCasts S1280x10000
  broadcasts_S1x128_S1280x128 : S1x128.Broadcasts S1280x128
  h_S1280x128 : 0 < S1280x128.numel
  shapeCasts_S1280x128_S1280x128 : S1280x128.ShapeCasts S1280x128
  inb_S1x1280x128_S1x1280x128_0_0_0 : ∀ a, (![0, 0, 0] : Fin 3 → Nat) a + S1x1280x128.size a ≤ S1x1280x128.size a
  h_S1x1280x128 : 0 < S1x1280x128.numel
  inb_S10240x128_S10000x128_0_0 : ∀ a, (![0, 0] : Fin 2 → Nat) a + S10000x128.size a ≤ S10240x128.size a
  shapeCasts_S1280x128_S1x1280x128 : S1280x128.ShapeCasts S1x1280x128
  slices_S2x10000x128_S1x10000x128_1_0_0 : S2x10000x128.Slices ![1, 0, 0] S1x10000x128
  shapeCasts_S1x10000x128_S10000x128 : S1x10000x128.ShapeCasts S10000x128
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1280x10000_S10000x128_S1280x128_1_0_0_1_n_n_wf : DotDims.WF S1280x10000 S10000x128 S1280x128 [1] [0] [0] [1] [] []
  dot_S1280x128_S128x128_S1280x128_1_0_0_1_n_n_wf : DotDims.WF S1280x128 S128x128 S1280x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .bf16 = 32 ∨ (Rect.block (s := S10000x128) S400x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x10000.size a ≤ S10000x10000.size a
  hwx0_6 : ∀ i : grid0.Coords, EltTy.bits .bf16 = 32 ∨ (Rect.block (s := S10000x10000) S400x10000.size (cc0_transform_6 i) (hinb0_6 i)).WholeWords (EltTy.packing .bf16)
  hrank1 : 0 < grid1.rank
  k1_off1_inb : ∀ i : grid1.Coords, ∀ (k1_h1 : k1_cond1 i = 1#1), ∀ a, (k1_off1 i) a + S1280x128.size a ≤ S10240x128.size a
  k1_off1_packedbf16 : ∀ i : grid1.Coords, ∀ (k1_h1 : k1_cond1 i = 1#1), (Rect.unit (s := S10240x128) (k1_off1 i) S1280x128.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S1280x10000.size a < S10000x10000.size a
  hwx1_0 : ∀ i : grid1.Coords, EltTy.bits .bf16 = 32 ∨ (Rect.unit (s := S10000x10000) (fun a => cc1_transform_0 i a * S1280x10000.size a) (fun a => (Pipeline.Clip.of (cc1_transform_0 i a) (S1280x10000.size a) (S10000x10000.size a)).extent (S1280x10000.size a)) fun a => Pipeline.Clip.inb (Pipeline.Clip.ok_of (hstart1_0 i a))).WholeWords (EltTy.packing .bf16)
  hwxs1_0 : ∀ i : grid1.Coords, EltTy.bits .bf16 = 32 ∨ (Rect.unit (s := S1280x10000) (fun _ => 0) (fun a => (Pipeline.Clip.of (cc1_transform_0 i a) (S1280x10000.size a) (S10000x10000.size a)).extent (S1280x10000.size a)) fun a => (Nat.zero_add _).trans_le (Pipeline.Clip.extent_le (Pipeline.Clip.ok_of (hstart1_0 i a)))).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S1x1280x128.size a < S2x10000x128.size a
  hwx1_5 : ∀ i : grid1.Coords, EltTy.bits .f32 = 32 ∨ (Rect.unit (s := S2x10000x128) (fun a => cc1_transform_5 i a * S1x1280x128.size a) (fun a => (Pipeline.Clip.of (cc1_transform_5 i a) (S1x1280x128.size a) (S2x10000x128.size a)).extent (S1x1280x128.size a)) fun a => Pipeline.Clip.inb (Pipeline.Clip.ok_of (hstart1_5 i a))).WholeWords (EltTy.packing .f32)
  hwxs1_5 : ∀ i : grid1.Coords, EltTy.bits .f32 = 32 ∨ (Rect.unit (s := S1x1280x128) (fun _ => 0) (fun a => (Pipeline.Clip.of (cc1_transform_5 i a) (S1x1280x128.size a) (S2x10000x128.size a)).extent (S1x1280x128.size a)) fun a => (Nat.zero_add _).trans_le (Pipeline.Clip.extent_le (Pipeline.Clip.ok_of (hstart1_5 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1280x10000_S10000x128_S1280x128_1_0_0_1_n_n : DotDims S1280x10000 S10000x128 S1280x128 where
  lhsContracting := [1]
  rhsContracting := [0]
  lhsNonContracting := [0]
  rhsNonContracting := [1]
  lhsBatch := []
  rhsBatch := []
  wf := dot_S1280x10000_S10000x128_S1280x128_1_0_0_1_n_n_wf
def dot_S1280x128_S128x128_S1280x128_1_0_0_1_n_n : DotDims S1280x128 S128x128 S1280x128 where
  lhsContracting := [1]
  rhsContracting := [0]
  lhsNonContracting := [0]
  rhsNonContracting := [1]
  lhsBatch := []
  rhsBatch := []
  wf := dot_S1280x128_S128x128_S1280x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S400x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpecClip (Memref.whole main_v6_1) S1280x10000.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v6_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpecClip (Memref.whole main_v7) S1x1280x128.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) | ⟨_ + 6, h⟩ => absurd h (Nat.not_lt.2 (Nat.le_add_left _ _))

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S1x128, .f32⟩
  | .hbm, ⟨27, _⟩ => ⟨S10000x128, .f32⟩
  | .hbm, ⟨28, _⟩ => ⟨S10000x128, .f32⟩
  | .hbm, ⟨29, _⟩ => ⟨S_, .f32⟩
  | .hbm, ⟨30, _⟩ => ⟨S10000x128, .f32⟩
  | .hbm, ⟨31, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibWhole.lean ====
/-
  Whole-buffer accesses, stated once for any shape.

  A store through the rectangle that starts at the origin and has the buffer's own extents overwrites
  every element, so reading the buffer back gives the stored value whatever was there before; and a
  load through that rectangle of a buffer that holds `x` reads `x`.  Both facts are independent of the
  shape, so they are proved here over an abstract shape and used at each buffer of a kernel body.
-/
import Idealize.ShloMosaic.Lib.Pipeline.FrameBody
import Idealize.ShloMosaic.Lib.Pipeline.Frame
import Idealize.ShloMosaic.Lib.Pipeline.Value

noncomputable section

namespace Cert.LibWhole

open Idealize.ShloMosaic

variable {Val : EltTy → Type} [∀ e, Nonempty (Val e)] {sig : RefSig} {κ : Kind} {sp : Space} {S : Shape} {e : EltTy}

/-- One store through the whole-shape rectangle, read back: the stored value. -/
theorem read_store_whole (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h]

/-- A load through the whole-shape rectangle of a whole buffer holding `x` reads `x`. -/
theorem readAt_unread_whole (m : Memref sig κ sp S e) (hm : m.IsWhole) {off : Fin S.rank → Nat} (h : off = fun _ => 0)
    (inb : ∀ a, off a + S.size a ≤ S.size a) (x : S.Idx → Val e) :
    m.view.readAt Val (Rect.unit off S.size inb).toLoadRect (hm.unread x) = x := by
  rw [View.readAt_eq_ld, hm.read_unread, View.ld_unit_zero h]

/-- The two-axis origin, however it is spelt. -/
theorem origin2 : (![0, 0] : Fin 2 → Nat) = fun _ => 0 := by funext a; fin_cases a <;> rfl
/-- The three-axis origin. -/
theorem origin3 : (![0, 0, 0] : Fin 3 → Nat) = fun _ => 0 := by funext a; fin_cases a <;> rfl

end Cert.LibWhole

end
-- ==== Proof.RunsK.lean ====
import proofs.«115004_g2345052143907_cont_sun_c4_577_23_alg».proof.Proof.Gen.Kernel.Launch
import proofs.«115004_g2345052143907_cont_sun_c4_577_23_alg».proof.Proof.Gen.Kernel.Skeleton
import proofs.«115004_g2345052143907_cont_sun_c4_577_23_alg».proof.Proof.Gen.Kernel.Points
import proofs.«115004_g2345052143907_cont_sun_c4_577_23_alg».proof.Proof.LibWhole
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

/-- The layer-one body computes the projected features into its scratch exactly at grid coordinate 0. -/
abbrev c0first (i : grid0.Coords) : Prop := (Scalar.cmpi .ne (Scalar.extui (Scalar.cmpi .eq (BitVec.ofNat 32 (i 0).val) 0#32)) 0#32) = 1#1

set_option maxHeartbeats 2000000 in
/-- The layer-one body at the first grid point. Whatever its scratch held, it now holds the features `x0` times the
    first weights `x1`; the adjacency block `x2` is stored narrowed into the second output, and the first output receives
    the block's product with that scratch, bias added, clamped at zero, times the next layer's weights. -/
theorem run0_first (c : Dev nD) (E : Set ℕ) (i : grid0.Coords) (hi : c0first i)
    (arg1 : Memref sig .tc .vmem S10000x128 .f32) (harg1 : arg1.IsWhole) (arg2 : Memref sig .tc .vmem S128x128 .bf16) (harg2 : arg2.IsWhole)
    (arg3 : Memref sig .tc .vmem S400x10000 .f32) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S400x128 .bf16) (harg6 : arg6.IsWhole)
    (arg7 : Memref sig .tc .vmem S400x10000 .bf16) (harg7 : arg7.IsWhole) (arg8 : Memref sig .tc .vmem S10000x128 .bf16) (harg8 : arg8.IsWhole)
    (x0 : Vec F S10000x128 .f32) (x1 : Vec F S128x128 .bf16) (x2 : Vec F S400x10000 .f32) (x3 : Vec F S1x128 .f32) (x4 : Vec F S128x128 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay3 x2 (k0_pay1 x0 x1) x3 x4) ∗ owns (c : Thread nD τ) arg7 fullShare (k0_pay2 x2)
            ∗ owns (c : Thread nD τ) arg8 fullShare (k0_pay1 x0 x1)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := exact hi)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    -- The first output is stored whole, so it reads the payload. The payload's scratch operand is a load that the one
    -- whole store before it covers: it reads what was stored, the features times the first weights.
    rw [read_store_whole _ _ origin2, readAt_unread_whole _ harg3 origin2,
      readAt_unread_whole _ harg4 origin2, readAt_unread_whole _ harg5 origin2]
    sl_unfold_run_names
    rw [View.readCov_unit_zero _ origin2, readAt_unread_whole _ harg1 origin2, readAt_unread_whole _ harg2 origin2]
  isplitl [H6]
  · iexists _; isplitr
    swap; · iexact H6
    ipureintro
    rw [read_store_whole _ _ origin2, readAt_unread_whole _ harg3 origin2]
  iexists _; isplitr
  swap; · iexact HS
  ipureintro
  -- The scratch was stored whole once: it reads that payload whatever it held before.
  sl_unfold_run_names
  rw [read_store_whole _ _ origin2, readAt_unread_whole _ harg1 origin2, readAt_unread_whole _ harg2 origin2]

set_option maxHeartbeats 2000000 in
/-- The layer-one body at a later grid point. Its scratch holds `xs` and is left alone; the adjacency block `x2` is
    stored narrowed into the second output, and the first output receives the block's product with the scratch,
    bias added, clamped at zero, times the next layer's weights. -/
theorem run0_later (c : Dev nD) (E : Set ℕ) (i : grid0.Coords) (hi : ¬ c0first i)
    (arg1 : Memref sig .tc .vmem S10000x128 .f32) (harg1 : arg1.IsWhole) (arg2 : Memref sig .tc .vmem S128x128 .bf16) (harg2 : arg2.IsWhole)
    (arg3 : Memref sig .tc .vmem S400x10000 .f32) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S400x128 .bf16) (harg6 : arg6.IsWhole)
    (arg7 : Memref sig .tc .vmem S400x10000 .bf16) (harg7 : arg7.IsWhole) (arg8 : Memref sig .tc .vmem S10000x128 .bf16) (harg8 : arg8.IsWhole)
    (x0 : Vec F S10000x128 .f32) (x1 : Vec F S128x128 .bf16) (x2 : Vec F S400x10000 .f32) (x3 : Vec F S1x128 .f32) (x4 : Vec F S128x128 .bf16)
    (xs : Vec F S10000x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay3 x2 xs x3 x4) ∗ owns (c : Thread nD τ) arg7 fullShare (k0_pay2 x2)
            ∗ owns (c : Thread nD τ) arg8 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hfs
  sl_exec (disch := exact hi)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_store_whole _ _ origin2, readAt_unread_whole _ harg3 origin2, readAt_unread_whole _ harg8 origin2,
      readAt_unread_whole _ harg4 origin2, readAt_unread_whole _ harg5 origin2]
  isplitl [H6]
  · iexists _; isplitr
    swap; · iexact H6
    ipureintro
    rw [read_store_whole _ _ origin2, readAt_unread_whole _ harg3 origin2]
  iexists _; isplitr; · ipureintro; exact hfs
  iexact HS

/-- The rows of the tail body's scratch that phase 0 writes at grid point `i`: 1280 rows from row `1280 · i₁`. -/
abbrev scrRect (i : grid1.Coords) (hc1 : k1_cond1 i = 1#1) : Rect S10240x128 :=
  Rect.unit (s := S10240x128) (k1_off1 i) S1280x128.size (k1_off1_inb i hc1)

/-- The first 10000 rows of the tail body's scratch: what phase 1 reads. -/
abbrev scrTop : Rect S10240x128 := Rect.unit (s := S10240x128) ![0, 0] S10000x128.size inb_S10240x128_S10000x128_0_0

set_option maxHeartbeats 2000000 in
/-- The tail body in phase 0 (first grid coordinate 0). The adjacency block `x0` times the projected features `x1`, bias `x2`
    added, clamped at zero, times the last weights `x4`, is stored into the scratch rows of this block (the other rows keep
    `xs`), and the output block is zeroed. -/
theorem run1_phase0 (c : Dev nD) (E : Set ℕ) (i : grid1.Coords) (hc1 : k1_cond1 i = 1#1) (hc2 : ¬ k1_cond2 i = 1#1)
    (arg2 : Memref sig .tc .vmem S1280x10000 .bf16) (harg2 : arg2.IsWhole) (arg3 : Memref sig .tc .vmem S10000x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S128x128 .bf16) (harg6 : arg6.IsWhole) (arg7 : Memref sig .tc .vmem S1x1280x128 .f32) (harg7 : arg7.IsWhole)
    (arg8 : Memref sig .tc .vmem S10240x128 .bf16) (harg8 : arg8.IsWhole)
    (x0 : Vec F S1280x10000 .bf16) (x1 : Vec F S10000x128 .bf16) (x2 : Vec F S1x128 .f32) (x3 : Vec F S1x128 .f32) (x4 : Vec F S128x128 .bf16)
    (xs : Vec F S10240x128 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay2 (F := F))
            ∗ owns (c : Thread nD τ) arg8 fullShare (arg8.view.read (Elt F) (arg8.view.writes (Elt F) (harg8.unread xs)
                [⟨scrRect i hc1, k1_pay1 x0 x1 x2 x4⟩]))) -∗ K ⟨⟩))
      ⊢ wp frame (wpE (defs₀ (F := F)) Variants.none c none) E (cc1__tail_kernel i arg2 harg2 arg3 harg3 arg4 harg4 arg5 harg5 arg6 harg6 arg7 harg7 arg8 harg8) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    -- The output block is stored whole: it reads the zero payload.
    rw [read_store_whole _ _ origin3]
  iexists _; isplitr
  swap; · iexact HS
  ipureintro
  -- The scratch keeps its contents except on this block's rows, which the one store overwrites with the payload; the
  -- payload's operands are whole loads of the inputs, each reading the input's contents.
  rw [readAt_unread_whole _ harg2 origin2, readAt_unread_whole _ harg3 origin2, readAt_unread_whole _ harg4 origin2,
    readAt_unread_whole _ harg6 origin2]

set_option maxHeartbeats 2000000 in
/-- The tail body in phase 1 (first grid coordinate 1). The output block receives the adjacency block `x0` times the first
    10000 rows of the scratch, bias `x3` added, clamped at zero; the scratch is left alone. -/
theorem run1_phase1 (c : Dev nD) (E : Set ℕ) (i : grid1.Coords) (hc1 : ¬ k1_cond1 i = 1#1) (hc2 : k1_cond2 i = 1#1)
    (arg2 : Memref sig .tc .vmem S1280x10000 .bf16) (harg2 : arg2.IsWhole) (arg3 : Memref sig .tc .vmem S10000x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S128x128 .bf16) (harg6 : arg6.IsWhole) (arg7 : Memref sig .tc .vmem S1x1280x128 .f32) (harg7 : arg7.IsWhole)
    (arg8 : Memref sig .tc .vmem S10240x128 .bf16) (harg8 : arg8.IsWhole)
    (x0 : Vec F S1280x10000 .bf16) (x1 : Vec F S10000x128 .bf16) (x2 : Vec F S1x128 .f32) (x3 : Vec F S1x128 .f32) (x4 : Vec F S128x128 .bf16)
    (xs : Vec F S10240x128 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay3 x0 (View.ld xs scrTop) x3)
            ∗ owns (c : Thread nD τ) arg8 fullShare xs) -∗ K ⟨⟩))
      ⊢ wp frame (wpE (defs₀ (F := F)) Variants.none c none) E (cc1__tail_kernel i arg2 harg2 arg3 harg3 arg4 harg4 arg5 harg5 arg6 harg6 arg7 harg7 arg8 harg8) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    -- The output block is stored whole, so it reads the payload; the payload's second operand is the load of the
    -- scratch's first 10000 rows, the others are whole loads of the inputs.
    rw [read_store_whole _ _ origin3, readAt_unread_whole _ harg2 origin2, readAt_unread_whole _ harg5 origin2,
      View.readAt_eq_ld, harg8.read_unread]
  iexists _; isplitr; · ipureintro; exact hfs
  iexact HS

end Cert.Kernel.Hand

end
-- ==== Proof.Region0K.lean ====
import proofs.«115004_g2345052143907_cont_sun_c4_577_23_alg».proof.Proof.Gen.Kernel.Launch
import proofs.«115004_g2345052143907_cont_sun_c4_577_23_alg».proof.Proof.Gen.Kernel.Skeleton
import proofs.«115004_g2345052143907_cont_sun_c4_577_23_alg».proof.Proof.Gen.Kernel.Points
import proofs.«115004_g2345052143907_cont_sun_c4_577_23_alg».proof.Proof.LibWhole
import proofs.«115004_g2345052143907_cont_sun_c4_577_23_alg».proof.Proof.RunsK
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

/-! # The first layer's region, at the contents `V` its core's buffers hold when it is entered -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first of the 25 grid points. -/
def t00 : Fin cfg0.N := ⟨0, lt_of_lt_of_eq (by decide : 0 < 25) N_0.symm⟩

/-- The projected features `x · W₁`, narrowed: what the scratch holds once the first point has run. The features and
    the weights are whole-array windows, so their blocks at the first point are the arrays. -/
def y1 (c : Dev nD) : Vec F S10000x128 .bf16 := k0_pay1 (iblk0 V c 0 t00) (iblk0 V c 1 t00)

/-- The first output's block at point `t`: the adjacency rows of the block times the projected features, bias added,
    clamped at zero, times the next layer's weights. -/
def out0_5 (c : Dev nD) (t : Fin cfg0.N) : Vec F S400x128 .bf16 :=
  k0_pay3 (iblk0 V c 2 t) (y1 V c) (iblk0 V c 3 t) (iblk0 V c 4 t)

/-- The second output's block at point `t`: the adjacency rows of the block, narrowed. -/
def out0_6 (c : Dev nD) (t : Fin cfg0.N) : Vec F S400x10000 .bf16 := k0_pay2 (iblk0 V c 2 t)

/-- The scratch the body carries from point to point, as a memref. -/
abbrev scM0 : Memref sig .tc .vmem S10000x128 .bf16 := Memref.whole cc0_scratch0

/-- The core's scoped buffers that this region neither stages through nor uses as scratch, each whole at some contents. -/
abbrev scOthers0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- The region's invariant before position `n`: before the first point every scoped buffer that is no staging buffer
    of the region is whole at some contents; from then on the scratch holds the projected features. -/
def Phi0 (c : Dev nD) : ℕ → sProp 𝕄
  | 0 => Pipeline.ΦA spec0 c
  | _ + 1 => iprop((owns (c : Thread nD τ) scM0 fullShare (y1 V c) ∗ scOthers0 (F := F) c) ∗ (∃ r, prngReg c r))

/-- The invariant before the first point, with the scratch as a memref owned at some contents. -/
theorem PhiA0_eq (c : Dev nD) :
    (Pipeline.ΦA spec0 c : sProp 𝕄)
      = iprop(((∃ d, owns (c : Thread nD τ) scM0 fullShare d) ∗ scOthers0 (F := F) c) ∗ (∃ r, prngReg c r)) := by
  unfold Pipeline.ΦA; rw [scopedRest0_eq]; simp only [scM0, owns_whole]; try rfl

theorem Phi0_zero (c : Dev nD) : Phi0 V c 0 = Pipeline.ΦA spec0 c := rfl

theorem Phi0_succ (c : Dev nD) (n : ℕ) :
    Phi0 V c (n + 1) = iprop((owns (c : Thread nD τ) scM0 fullShare (y1 V c) ∗ scOthers0 (F := F) c) ∗ (∃ r, prngReg c r)) := rfl

theorem Phi0_pos (c : Dev nD) (n : ℕ) (hn : n ≠ 0) :
    Phi0 V c n = iprop((owns (c : Thread nD τ) scM0 fullShare (y1 V c) ∗ scOthers0 (F := F) c) ∗ (∃ r, prngReg c r)) := by
  cases n with
  | zero => exact absurd rfl hn
  | succ n => rfl

/-- The region's proof data on core `c`: its arrays as the region finds them; after the body at point `t` every input's
    buffer still at its block, the outputs' at the blocks computed there; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
    | ⟨6, _⟩ => out0_6 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 V c t := by dsimp only [dat0]
theorem after0_6 (c : Dev nD) (t : Fin cfg0.N) : (dat0 V c).after 6 t = out0_6 V c t := by dsimp only [dat0]

/-- The body computes the projected features exactly at the first grid point. -/
theorem hc0 : ∀ t : Fin cfg0.N, c0first (grid0.coords t) ↔ t.val % 25 = 0 :=
  (by decide +kernel : ∀ t : Fin grid0.N, c0first (grid0.coords t) ↔ t.val % 25 = 0)

/-- The invariant at a point's start, restated at the point's position. -/
theorem Phi0_castSucc (c : Dev nD) (t : Fin cfg0.N) : (dat0 V c).Φ t.castSucc = Phi0 V c t.val := by
  dsimp only [dat0]; simp only [Fin.coe_castSucc]

theorem Phi0_of_zero (c : Dev nD) (n : ℕ) (hn : n = 0) : Phi0 V c n = Pipeline.ΦA spec0 c := by
  subst hn; rfl

/-! ## The inputs' staging buffers hold their blocks

An input window's staging buffer holds the window's block at every point, fetched there or not: where it is not
fetched the block index has not moved since the last fetch, and the body leaves every input's buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation -/

/-- What the body is called with at point `t`: the invariant, what the core owes, and every window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the invariant at the next position, the same dues, every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point. Every input's buffer holds its block. At the first point the scratch holds anything and the
    body fills it with the projected features, which the first output's block is computed from at once; at a later point
    the invariant says the scratch still holds them, and the body leaves it alone. What the outputs' buffers held is
    never read. The other scoped buffers, the generator register and the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = Phi0 V c (t.val + 1) from rfl, Phi0_succ, Phi0_castSucc,
    after0_0, after0_1, after0_2, after0_3, after0_4, after0_5, after0_6]
  have hN : t.val < 25 := lt_of_lt_of_eq t.isLt N_0
  by_cases hz : t.val = 0
  · rw [Phi0_of_zero V c _ hz, PhiA0_eq]
    have ht : t = t00 := Fin.ext hz
    subst ht
    unfold out0_5 out0_6 y1
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (run0_first c Set.univ (grid0.coords t00) ((hc0 t00).mpr (by rw [hz]))
      (win0_0.stage (cfg0.slots t00 0)) (hstage0_0 ((cfg0.slots t00 0).cast nbuf0_0))
      (win0_1.stage (cfg0.slots t00 1)) (hstage0_1 ((cfg0.slots t00 1).cast nbuf0_1))
      (win0_2.stage (cfg0.slots t00 2)) (hstage0_2 ((cfg0.slots t00 2).cast nbuf0_2))
      (win0_3.stage (cfg0.slots t00 3)) (hstage0_3 ((cfg0.slots t00 3).cast nbuf0_3))
      (win0_4.stage (cfg0.slots t00 4)) (hstage0_4 ((cfg0.slots t00 4).cast nbuf0_4))
      (win0_5.stage (cfg0.slots t00 5)) (hstage0_5 ((cfg0.slots t00 5).cast nbuf0_5))
      (win0_6.stage (cfg0.slots t00 6)) (hstage0_6 ((cfg0.slots t00 6).cast nbuf0_6))
      (Memref.whole cc0_scratch0) (Memref.isWhole_whole _)
      (iblk0 V c 0 t00) (iblk0 V c 1 t00) (iblk0 V c 2 t00) (iblk0 V c 3 t00) (iblk0 V c 4 t00) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c _ hz]
    unfold out0_5 out0_6
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (run0_later c Set.univ (grid0.coords t) (fun h => hz (by have := (hc0 t).mp h; omega))
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (win0_6.stage (cfg0.slots t 6)) (hstage0_6 ((cfg0.slots t 6).cast nbuf0_6))
      (Memref.whole cc0_scratch0) (Memref.isWhole_whole _)
      (iblk0 V c 0 t) (iblk0 V c 1 t) (iblk0 V c 2 t) (iblk0 V c 3 t) (iblk0 V c 4 t) (y1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero]

/-- After the last point the invariant gives it back: what the scratch holds is forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 25 := N_0; omega), PhiA0_eq]
  iintro ⟨⟨HS, Hoth⟩, Hg⟩
  isplitl [HS Hoth]
  · isplitl [HS]
    · iexists _; iexact HS
    iexact Hoth
  iexact Hg

end Cert.Kernel.Hand

end
-- ==== Proof.Region1FrameK.lean ====
import proofs.«115004_g2345052143907_cont_sun_c4_577_23_alg».proof.Proof.Gen.Kernel.Launch
import proofs.«115004_g2345052143907_cont_sun_c4_577_23_alg».proof.Proof.Gen.Kernel.Skeleton
import proofs.«115004_g2345052143907_cont_sun_c4_577_23_alg».proof.Proof.Gen.Kernel.Points
import proofs.«115004_g2345052143907_cont_sun_c4_577_23_alg».proof.Proof.LibWhole
import proofs.«115004_g2345052143907_cont_sun_c4_577_23_alg».proof.Proof.RunsK
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibWhole

/-! # The tail region's proof data for the frame claim

The tail region is entered with the core's buffers at contents `V`. Its adjacency window's last block overhangs the
array, so the rows of the staging buffer past the array's end hold values nothing names, and the products the body
forms from the whole buffer inherit them: neither the scratch nor the output block can be described before the run.
The frame claim needs neither. The output window is forgotten, and the invariant between points is the class's own:
every scoped buffer that is no staging buffer of this region, the scratch among them, at some contents. -/

variable (V : (c : Dev nD) → (b : Ref sig .tc) → Buf (Elt F) ((c : Thread nD τ).loc b))

/-- Window `w`'s block at point `t`, read off its array as the region finds it: the part of the block inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window is the one the certificate says nothing of. -/
def fgt1 : Fin cfg1.W → Bool := fun | 0 => false | 1 => false | 2 => false | 3 => false | 4 => false | 5 => true | ⟨_ + 6, h⟩ => absurd h (Nat.not_lt.2 (Nat.le_add_left _ _))

/-- The proof data of the tail region on core `c`: the arrays as the region finds them; after the body each input's
    staging buffer at its block (the cut adjacency block filled out past the array's end with values nothing reads),
    the forgotten output's at values nothing reads; the class invariant at every point; nothing owed; full shares. -/
def dat1F (c : Dev nD) : Dat τ (Elt F) Unit ℕ (UR sig nD τ) ℕ cfg1 c where
  A w := V c (Pipeline.arrRef spec1 w)
  after w t := match w with
    | ⟨0, _⟩ => win1_0.fill (grid1.coords t) (fun _ => Classical.arbitrary _) (iblk1 V c 0 t)
    | ⟨1, _⟩ => iblk1 V c 1 t
    | ⟨2, _⟩ => iblk1 V c 2 t
    | ⟨3, _⟩ => iblk1 V c 3 t
    | ⟨4, _⟩ => iblk1 V c 4 t
    | ⟨5, _⟩ => fun _ => Classical.arbitrary _
  Φ _ := Pipeline.ΦA spec1 c
  q _ := fullShare
  owed _ := 0

/-- The proof data's arrays are the region-entry contents. -/
theorem A_eq1F (c : Dev nD) (w : Fin cfg1.W) : (dat1F V c).A w = V c (Pipeline.arrRef spec1 w) := by
  dsimp only [dat1F]

/-! ## What the body leaves and finds, window by window -/

/-- What the body leaves: the proof data's `match` reduced, window by window. -/
theorem after1F_0 (c : Dev nD) (t : Fin cfg1.N) :
    (dat1F V c).after 0 t = win1_0.fill (grid1.coords t) (fun _ => Classical.arbitrary _) (iblk1 V c 0 t) := by dsimp only [dat1F]
theorem after1F_1 (c : Dev nD) (t : Fin cfg1.N) : (dat1F V c).after 1 t = iblk1 V c 1 t := by dsimp only [dat1F]
theorem after1F_2 (c : Dev nD) (t : Fin cfg1.N) : (dat1F V c).after 2 t = iblk1 V c 2 t := by dsimp only [dat1F]
theorem after1F_3 (c : Dev nD) (t : Fin cfg1.N) : (dat1F V c).after 3 t = iblk1 V c 3 t := by dsimp only [dat1F]
theorem after1F_4 (c : Dev nD) (t : Fin cfg1.N) : (dat1F V c).after 4 t = iblk1 V c 4 t := by dsimp only [dat1F]

/-- The adjacency window is fetched at every point: its buffer holds the block on the rows inside the array, and on the
    rows past the array's end whatever the buffer held (`d`, any). -/
theorem before1F_0 (c : Dev nD) (t : Fin cfg1.N) (d) :
    (dat1F V c).before 0 t d = win1_0.fill (grid1.coords t) d (iblk1 V c 0 t) := by
  unfold Dat.before; rw [if_pos (fetch1_0 t)]
  unfold Dat.fetched Dat.blockOf iblk1; rw [A_eq1F]

/-- The other four inputs have constant block index: fetched at the first point, and the body leaves each block in
    place, so at every point the buffer holds the (uncut) block. -/
theorem before1F_1 (c : Dev nD) (t : Fin cfg1.N) (d) : (dat1F V c).before 1 t d = iblk1 V c 1 t :=
  ((dat1F V c).before_in_eq_fetched 1 rfl (fun _ => rfl) (fun _ _ _ => rfl)
    (fun t => by rw [after1F_1]; unfold Dat.blockOf iblk1; rw [A_eq1F]) t d).trans
    (by unfold Dat.fetched Dat.blockOf iblk1; rw [A_eq1F]; try rfl)
theorem before1F_2 (c : Dev nD) (t : Fin cfg1.N) (d) : (dat1F V c).before 2 t d = iblk1 V c 2 t :=
  ((dat1F V c).before_in_eq_fetched 2 rfl (fun _ => rfl) (fun _ _ _ => rfl)
    (fun t => by rw [after1F_2]; unfold Dat.blockOf iblk1; rw [A_eq1F]) t d).trans
    (by unfold Dat.fetched Dat.blockOf iblk1; rw [A_eq1F]; try rfl)
theorem before1F_3 (c : Dev nD) (t : Fin cfg1.N) (d) : (dat1F V c).before 3 t d = iblk1 V c 3 t :=
  ((dat1F V c).before_in_eq_fetched 3 rfl (fun _ => rfl) (fun _ _ _ => rfl)
    (fun t => by rw [after1F_3]; unfold Dat.blockOf iblk1; rw [A_eq1F]) t d).trans
    (by unfold Dat.fetched Dat.blockOf iblk1; rw [A_eq1F]; try rfl)
theorem before1F_4 (c : Dev nD) (t : Fin cfg1.N) (d) : (dat1F V c).before 4 t d = iblk1 V c 4 t :=
  ((dat1F V c).before_in_eq_fetched 4 rfl (fun _ => rfl) (fun _ _ _ => rfl)
    (fun t => by rw [after1F_4]; unfold Dat.blockOf iblk1; rw [A_eq1F]) t d).trans
    (by unfold Dat.fetched Dat.blockOf iblk1; rw [A_eq1F]; try rfl)

/-! ## The two phases -/

/-- The grid is 2 × 8, the second coordinate fastest: the first coordinate is 0 at the first eight points and 1 at the
    last eight, so the body's first branch runs exactly at the first eight and its second exactly at the last eight. -/
theorem phase1 : ∀ t : Fin cfg1.N, (k1_cond1 (grid1.coords t) = 1#1 ↔ t.val < 8) ∧ (k1_cond2 (grid1.coords t) = 1#1 ↔ 8 ≤ t.val) :=
  (by decide +kernel : ∀ t : Fin grid1.N, (k1_cond1 (grid1.coords t) = 1#1 ↔ t.val < 8) ∧ (k1_cond2 (grid1.coords t) = 1#1 ↔ 8 ≤ t.val))

/-! ## The invariant, opened at the scratch -/

/-- The class invariant holds the region's scratch at some contents among the core's scoped buffers; taken out, the
    scratch may be put back at any contents and the invariant holds again. -/
theorem PhiA1_open (c : Dev nD) :
    (Pipeline.ΦA spec1 c : sProp 𝕄) ⊢ iprop(∃ xs, owns (c : Thread nD τ) (Memref.whole cc1_scratch0) fullShare xs
      ∗ (∀ ys, owns (c : Thread nD τ) (Memref.whole cc1_scratch0) fullShare ys -∗ Pipeline.ΦA spec1 c)) := by
  unfold Pipeline.ΦA; rw [scopedRest1_eq]; simp only [owns_whole]
  iintro ⟨⟨H0, H1, H2, H3, H4, H5, H6, H7, H8, H9, H10, ⟨%fs, HS⟩⟩, Hg⟩
  iexists fs
  isplitl [HS]; · iexact HS
  iintro %ys HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists ys; iexact HS
  iexact Hg

/-! ## The body obligation -/

set_option maxHeartbeats 1600000 in
/-- The body obligation of the tail region, the output window forgotten. At every point the five inputs' buffers hold
    their blocks (the cut one filled out with whatever it held), the output's buffer anything, the scratch whatever the
    invariant holds it at; the body runs in the phase the point's first coordinate selects; it leaves the inputs as it
    found them, which on the rows inside the array is all the cut window's obligation asks, the output's buffer at
    something, and the scratch at something, at which the invariant closes again. -/
theorem body_obligation1F (c : Dev nD) : BodyObligationLoose (dat1F (F := F) V c) (defs₀ (F := F)) Variants.none () Set.univ fgt1 := fun t => by
  rw [bigSep_W1, bigSep_W1]
  simp only [fgt1]
  rw [show (dat1F V c).Φ t.succ = Pipeline.ΦA spec1 c from rfl,
    show (dat1F V c).Φ t.castSucc = Pipeline.ΦA spec1 c from rfl,
    show (dat1F V c).owesAt () t.succ = (dat1F V c).owesAt () t.castSucc from rfl]
  iintro ⟨HΦ, Ho, ⟨%d0, H0⟩, ⟨%d1, H1⟩, ⟨%d2, H2⟩, ⟨%d3, H3⟩, ⟨%d4, H4⟩, H5⟩
  rw [before1F_0 V c t d0, before1F_1 V c t d1, before1F_2 V c t d2, before1F_3 V c t d3, before1F_4 V c t d4]
  ihave HΦ' := PhiA1_open (F := F) c $$ HΦ
  icases HΦ' with ⟨%xs, HS, Hclose⟩
  have hph := phase1 t
  by_cases h : t.val < 8
  · have hc1 : k1_cond1 (grid1.coords t) = 1#1 := hph.1.mpr h
    have hc2 : ¬ k1_cond2 (grid1.coords t) = 1#1 := fun e => absurd (hph.2.mp e) (Nat.not_le.mpr h)
    iapply (run1_phase0 (F := F) c Set.univ (grid1.coords t) hc1 hc2
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (win1_0.fill (grid1.coords t) d0 (iblk1 V c 0 t)) (iblk1 V c 1 t) (iblk1 V c 2 t) (iblk1 V c 3 t) (iblk1 V c 4 t) xs _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hclose HS]
    · iapply Hclose; iexact HS
    isplitl [Ho]; · iexact Ho
    isplitl [H0]
    · iexists d0; rw [after1F_0, Window.cut_fill]; iexact H0
    isplitl [H1]; · rw [after1F_1]; iexact H1
    isplitl [H2]; · rw [after1F_2]; iexact H2
    isplitl [H3]; · rw [after1F_3]; iexact H3
    isplitl [H4]; · rw [after1F_4]; iexact H4
    iexists _; iexact H5
  · have hc1 : ¬ k1_cond1 (grid1.coords t) = 1#1 := fun e => h (hph.1.mp e)
    have hc2 : k1_cond2 (grid1.coords t) = 1#1 := hph.2.mpr (Nat.le_of_not_lt h)
    iapply (run1_phase1 (F := F) c Set.univ (grid1.coords t) hc1 hc2
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (win1_0.fill (grid1.coords t) d0 (iblk1 V c 0 t)) (iblk1 V c 1 t) (iblk1 V c 2 t) (iblk1 V c 3 t) (iblk1 V c 4 t) xs _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hclose HS]
    · iapply Hclose; iexact HS
    isplitl [Ho]; · iexact Ho
    isplitl [H0]
    · iexists d0; rw [after1F_0, Window.cut_fill]; iexact H0
    isplitl [H1]; · rw [after1F_1]; iexact H1
    isplitl [H2]; · rw [after1F_2]; iexact H2
    isplitl [H3]; · rw [after1F_3]; iexact H3
    isplitl [H4]; · rw [after1F_4]; iexact H4
    iexists _; iexact H5

end Cert.Kernel.Hand

end
-- ==== Proof.LaunchK.lean ====
/-
  The run of the two-region program, once, for any float instance and any proof data of its two regions.

  @main is four segments: a stretch of host operations (the weights narrowed, the biases reshaped), region 0, region 1, and
  a last host stretch (plane 1 of region 1's output sliced out and reshaped).  Each region is entered from the core's
  unscoped buffers held at the contents the segment before left.  Region 0's outputs are named exactly, so region 1's entry
  contents are known before the run.  What region 1 leaves need not be nameable before the run (its output window may be
  forgotten), so its exit is "the arrays at SOME contents they may hold after the write-backs", and the last host stretch,
  which only slices and reshapes, is run at whatever those are.  The run's conclusion reads every unscoped buffer against
  that last valuation; the frame claim (each argument as launched) follows for any float instance.
-/
import proofs.«115004_g2345052143907_cont_sun_c4_577_23_alg».proof.Proof.Gen.Kernel.Launch
import proofs.«115004_g2345052143907_cont_sun_c4_577_23_alg».proof.Proof.Gen.Kernel.Points
import proofs.«115004_g2345052143907_cont_sun_c4_577_23_alg».proof.Proof.Gen.Kernel.Regions
import Idealize.ShloMosaic.Lib.Pipeline.FrameBody
import Idealize.ShloMosaic.Lib.Pipeline.FrameSuffix
import Idealize.ShloMosaic.Lib.Pipeline.RegionsLoop
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- Core `c`'s buffers at launch. -/
abbrev W0 : Dev nD → Valuation τ sig (Elt F) := fun c b => m (c, b)
/-- After the first host stretch (the weights narrowed, the biases reshaped): what region 0 is entered from. -/
abbrev W1 : Dev nD → Valuation τ sig (Elt F) := fun c => StableHlo.after hostOps0 (W0 m c)
/-- The same read at the TensorCore's references. -/
abbrev V1r : (c : Dev nD) → (b : Ref sig .tc) → Buf (Elt F) ((c : Thread nD τ).loc b) := fun c b => W1 m c b

-- Region 0's proof data: any exact data whose arrays are the entry contents.
variable (dat0 : (c : Dev nD) → Dat τ (Elt F) Unit ℕ (UR sig nD τ) ℕ cfg0 c)

/-- At region 0's exit: its arrays at what its write-backs leave, every other buffer as entered. -/
def W2 (c : Dev nD) : Valuation τ sig (Elt F) :=
  Pipeline.withArrays spec0 c (W1 m c) fun w => (dat0 c).arrAt w cfg0.N
theorem W2_arr (c : Dev nD) (w : Fin cfg0.W) :
    W2 m dat0 c (Proc.devRef .tc (Pipeline.arrRef spec0 w)) = (dat0 c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
/-- The same read at the TensorCore's references: what region 1 is entered from. -/
abbrev V2r : (c : Dev nD) → (b : Ref sig .tc) → Buf (Elt F) ((c : Thread nD τ).loc b) := fun c b => W2 m dat0 c b

/-- What region 1's arrays may hold at its exit: one buffer per window. -/
abbrev Arrs1 (c : Dev nD) : Type := (w : Fin cfg1.W) → Buf (Elt F) ((cfg1.win w).arr.view.loc (c : Thread nD τ))

/-- At region 1's exit, if its arrays hold `Fs`: those, every other buffer as entered. -/
def W3 (c : Dev nD) (Fs : Arrs1 (F := F) c) : Valuation τ sig (Elt F) := Pipeline.withArrays spec1 c (W2 m dat0 c) Fs
theorem W3_arr (c : Dev nD) (Fs : Arrs1 (F := F) c) (w : Fin cfg1.W) :
    W3 m dat0 c Fs (Proc.devRef .tc (Pipeline.arrRef spec1 w)) = Fs w := by
  unfold W3; exact Pipeline.withArrays_arr spec1 launch1.win.arr_inj c _ _ w
theorem W3_of_ne (c : Dev nD) (Fs : Arrs1 (F := F) c) (b : Ref sig .tc) (hb : ∀ w, Pipeline.arrRef spec1 w ≠ b) :
    W3 m dat0 c Fs (Proc.devRef .tc b) = W2 m dat0 c (Proc.devRef .tc b) := by
  unfold W3; exact Pipeline.withArrays_of_ne spec1 c _ _ b hb
/-- After the last host stretch (the slice of plane 1, reshaped): the program's end. -/
abbrev W4 (c : Dev nD) (Fs : Arrs1 (F := F) c) : Valuation τ sig (Elt F) := StableHlo.after hostOps2 (W3 m dat0 c Fs)

/-! ## The proof data family -/

variable (hA0 : ∀ c w, (dat0 c).A w = V1r m c (Pipeline.arrRef spec0 w))
  (hq0 : ∀ c w, (dat0 c).q w = fullShare) (howed0 : ∀ c t, (dat0 c).owed t = 0) (hrec0 : ∀ c t, (dat0 c).recorded t = Set.univ)
  (hbody0 : ∀ c, BodyObligationLoose (dat0 c) (defs₀ (F := F)) Variants.none () Set.univ)
  (hin0 : ∀ c, Pipeline.ΦA spec0 c ⊢ (dat0 c).Φ 0) (hout0 : ∀ c, (dat0 c).Φ (Fin.last cfg0.N) ⊢ Pipeline.ΦA spec0 c)

-- Region 1's proof data, and the windows of it the claim forgets.
variable (dat1 : (c : Dev nD) → Dat τ (Elt F) Unit ℕ (UR sig nD τ) ℕ cfg1 c) (fgt : Fin cfg1.W → Bool)
  (hA1 : ∀ c w, (dat1 c).A w = V2r m dat0 c (Pipeline.arrRef spec1 w))
  (hq1 : ∀ c w, (dat1 c).q w = fullShare) (howed1 : ∀ c t, (dat1 c).owed t = 0) (hrec1 : ∀ c t, (dat1 c).recorded t = Set.univ)
  (hbody1 : ∀ c, BodyObligationLoose (dat1 c) (defs₀ (F := F)) Variants.none () Set.univ fgt)
  (hin1 : ∀ c, Pipeline.ΦA spec1 c ⊢ (dat1 c).Φ 0) (hout1 : ∀ c, (dat1 c).Φ (Fin.last cfg1.N) ⊢ Pipeline.ΦA spec1 c)

/-- No pallas_call has a prefetched table. -/
abbrev adm : (p : Fin 2) → (pcfgs (F := F) p).Adm := fun p => (cfgs p).toPCfg_adm

/-- Both pipelines' proof data read relationally: region 0's exactly, region 1's with the forgotten windows saying nothing. -/
def rdats : (p : Fin 2) → (c : Dev nD) → RDat τ (Elt F) Unit ℕ (UR sig nD τ) ℕ (Pipeline.pin (pcfgs (F := F)) adm p) c
  | ⟨0, _⟩ => fun c => (dat0 c).toR
  | ⟨1, _⟩ => fun c => (dat1 c).toRForget fgt
/-- The same family as exact data (what the arrays' bookkeeping lemmas are stated over). -/
def pdatsD : (p : Fin 2) → (c : Dev nD) → Dat τ (Elt F) Unit ℕ (UR sig nD τ) ℕ (Pipeline.pin (pcfgs (F := F)) adm p) c
  | ⟨0, _⟩ => fun c => dat0 c
  | ⟨1, _⟩ => fun c => dat1 c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)

/-- What region 1's arrays may hold at its exit. -/
def Pfin (c : Dev nD) (Fs : Arrs1 (F := F) c) : Prop := ∀ w, (rdats dat0 dat1 fgt 1 c).ArrAt w cfg1.N (Fs w)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The segments -/

/-- The first host stretch, from the launch contents. -/
abbrev seg0 : HostSeg (Name := ℕ) (U := UR sig nD τ) (pcfgs (F := F)) defs₀ 𝒱₀ Lz lvz :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Rr

-- `iapply` of a library lemma stated over `pin pcs a p` unifies with the pinned configuration only when unification may
-- unfold plain definitions in a metavariable's type
set_option backward.isDefEq.respectTransparency.types false in
/-- REGION 0 over the thread state: entered from every unscoped buffer at `W1`, left at `W2`. Its arrays are split out of
    the unscoped buffers and put back at what the write-backs leave; the generator register goes into the invariant and
    comes back; nothing is owed; the kernel has no semaphore of its own. -/
def reg0 : Pipeline.RDat.RegionSeg (pcfgs (F := F)) adm (rdats dat0 dat1 fgt) () defs₀ 𝒱₀ Lz lvz 0 where
  win := launch0.win.to₀
  block_pos := launch0.block_pos
  stage_whole := launch0.stage_whole
  K := PEmpty
  osem k := k.elim
  ho := Pipeline.OwnSemFacts.none _
  hbody c := (hbody0 c).toR
  hwaits := Pipeline.RDat.hwaits_of_owed_zero _ _ _ _ Lz lvz 0 fun c t => howed0 c t
  pre c := iprop(StableHlo.held (c : Thread nD τ) (Pipeline.ucRefs τ sig) (W1 m c) ∗ Rr c)
  post c := iprop(StableHlo.held (c : Thread nD τ) (Pipeline.ucRefs τ sig) (W2 m dat0 c) ∗ Rr c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.RDat.arrays_of_unscopedBufs (p := 0) (pcfgs (F := F)) adm (rdats dat0 dat1 fgt) launch0.win launch0.arr_whole c
      ((dat0 c).share_full (hq0 c)) (V1r m c) (fun w => hA0 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdats dat0 dat1 fgt 0 c).owed 0 = 0 from howed0 c 0]
      icases HO with ⟨%W, HO⟩; iexists W; isplitr
      · ipureintro; exact fun x _ => Or.inl (by rw [show (rdats dat0 dat1 fgt 0 c).recorded 0 = Set.univ from hrec0 c 0]; trivial)
      iexact HO
    isplitl [Hp]; · iexact Hp
    iexact Hrest
  hin c := by
    refine .trans ?_ (hin0 c)
    unfold Pipeline.ΦA
    iintro ⟨Hp, -, Hr⟩
    isplitl [Hr]; · iexact Hr
    iexact Hp
  hout c := by
    rw [Pipeline.ownSems0_none]
    refine (hout0 c).trans ?_
    unfold Pipeline.ΦA
    iintro ⟨Hr, Hp⟩
    isplitl [Hp]; · iexact Hp
    isplitr; · iempintro
    iexact Hr
  hexit c := by
    have ho : (rdats dat0 dat1 fgt 0 c).owed (Fin.last (Pipeline.pin (pcfgs (F := F)) adm 0).N) = 0 := howed0 c _
    unfold Pipeline.RDat.owesAt Pipeline.owesWithin
    rw [ho]
    have harr : (rdats dat0 dat1 fgt 0 c).arraysAt cfg0.N = ((dat0 c).arrays ((dat0 c).arrAt · cfg0.N) : sProp 𝕄) :=
      (dat0 c).toR_arraysAt_eq cfg0.N
    have hjoin := Pipeline.unscopedBufs_of_arrays (p := 0) (pcfgs (F := F)) adm (Ix := Unit) (Name := ℕ) (U := UR sig nD τ) (Lvl := ℕ)
      launch0.win launch0.arr_whole c (pdatsD dat0 dat1) ((dat0 c).share_full (hq0 c))
      (V1r m c) (V2r m dat0 c) ((dat0 c).arrAt · cfg0.N) (fun w => (W2_arr m dat0 c w).symm)
      (fun b hb => W2_of_ne m dat0 c b fun w e => hb (Finset.mem_image.mpr ⟨w, Finset.mem_univ _, e⟩))
    rw [Pipeline.unscopedBufs_held, show pdatsD dat0 dat1 0 c = dat0 c from rfl] at hjoin
    rw [show (rdats dat0 dat1 fgt 0 c).arraysAt (Pipeline.pin (pcfgs (F := F)) adm 0).N = ((dat0 c).arrays ((dat0 c).arrAt · cfg0.N) : sProp 𝕄) from harr]
    iintro ⟨Ha, HO, HY, Hrest⟩
    imodintro
    isplitl [Ha Hrest]
    · iapply hjoin
      isplitl [Ha]; · iexact Ha
      iexact Hrest
    isplitl [HY]; · iexact HY
    icases HO with ⟨%W, -, HO⟩; iexists W; iexact HO

-- as for region 0
set_option backward.isDefEq.respectTransparency.types false in
/-- REGION 1 over the thread state: entered from every unscoped buffer at `W2`, left at `W3` of SOME contents its arrays may
    hold after its write-backs (what a forgotten window's array holds is not named before the run). -/
def reg1 : Pipeline.RDat.RegionSeg (pcfgs (F := F)) adm (rdats dat0 dat1 fgt) () defs₀ 𝒱₀ Lz lvz 1 where
  win := launch1.win.to₀
  block_pos := launch1.block_pos
  stage_whole := launch1.stage_whole
  K := PEmpty
  osem k := k.elim
  ho := Pipeline.OwnSemFacts.none _
  hbody c := (hbody1 c).toRForget
  hwaits := Pipeline.RDat.hwaits_of_owed_zero _ _ _ _ Lz lvz 1 fun c t => howed1 c t
  pre c := iprop(StableHlo.held (c : Thread nD τ) (Pipeline.ucRefs τ sig) (W2 m dat0 c) ∗ Rr c)
  post c := iprop(∃ Fs : Arrs1 (F := F) c, ⌜Pfin dat0 dat1 fgt c Fs⌝ ∗ StableHlo.held (c : Thread nD τ) (Pipeline.ucRefs τ sig) (W3 m dat0 c Fs) ∗ Rr c)
  X c := iprop(∃ r, prngReg c r)
  Y c := iprop(∃ r, prngReg c r)
  Z c := Pipeline.unscopedRest (Ix := Unit) (Name := ℕ) (U := UR sig nD τ) (Lvl := ℕ) spec1 c (V2r m dat0 c)
  hentry c := by
    rw [Pipeline.ownSems0_none]
    have hsplit := Pipeline.RDat.arrays_of_unscopedBufs (p := 1) (pcfgs (F := F)) adm (rdats dat0 dat1 fgt) launch1.win launch1.arr_whole c
      ((dat1 c).share_full (hq1 c)) (V2r m dat0 c) (fun w => hA1 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdats dat0 dat1 fgt 1 c).owed 0 = 0 from howed1 c 0]
      icases HO with ⟨%W, HO⟩; iexists W; isplitr
      · ipureintro; exact fun x _ => Or.inl (by rw [show (rdats dat0 dat1 fgt 1 c).recorded 0 = Set.univ from hrec1 c 0]; trivial)
      iexact HO
    isplitl [Hp]; · iexact Hp
    iexact Hrest
  hin c := by
    refine .trans ?_ (hin1 c)
    unfold Pipeline.ΦA
    iintro ⟨Hp, -, Hr⟩
    isplitl [Hr]; · iexact Hr
    iexact Hp
  hout c := by
    rw [Pipeline.ownSems0_none]
    refine (hout1 c).trans ?_
    unfold Pipeline.ΦA
    iintro ⟨Hr, Hp⟩
    isplitl [Hp]; · iexact Hp
    isplitr; · iempintro
    iexact Hr
  hexit c := by
    have ho : (rdats dat0 dat1 fgt 1 c).owed (Fin.last (Pipeline.pin (pcfgs (F := F)) adm 1).N) = 0 := howed1 c _
    unfold Pipeline.RDat.owesAt Pipeline.owesWithin
    rw [ho]
    unfold RDat.arraysAt
    rw [bigSep_W1]
    iintro ⟨⟨⟨%F0, %h0, H0⟩, ⟨%F1, %h1, H1⟩, ⟨%F2, %h2, H2⟩, ⟨%F3, %h3, H3⟩, ⟨%F4, %h4, H4⟩, ⟨%F5, %h5, H5⟩⟩, HO, HY, Hrest⟩
    let Fs : Arrs1 (F := F) c := fun w => match w with
      | ⟨0, _⟩ => F0 | ⟨1, _⟩ => F1 | ⟨2, _⟩ => F2 | ⟨3, _⟩ => F3 | ⟨4, _⟩ => F4 | ⟨5, _⟩ => F5
    have hP : Pfin dat0 dat1 fgt c Fs := fun w => match w with
      | ⟨0, _⟩ => h0 | ⟨1, _⟩ => h1 | ⟨2, _⟩ => h2 | ⟨3, _⟩ => h3 | ⟨4, _⟩ => h4 | ⟨5, _⟩ => h5
    have hjoin := Pipeline.unscopedBufs_of_arrays (p := 1) (pcfgs (F := F)) adm (Ix := Unit) (Name := ℕ) (U := UR sig nD τ) (Lvl := ℕ)
      launch1.win launch1.arr_whole c (pdatsD dat0 dat1) ((dat1 c).share_full (hq1 c))
      (V2r m dat0 c) (fun b => W3 m dat0 c Fs b) Fs (fun w => (W3_arr m dat0 c Fs w).symm)
      (fun b hb => W3_of_ne m dat0 c Fs b fun w e => hb (Finset.mem_image.mpr ⟨w, Finset.mem_univ _, e⟩))
    rw [Pipeline.unscopedBufs_held, show pdatsD dat0 dat1 1 c = dat1 c from rfl] at hjoin
    imodintro
    iexists Fs
    isplitr; · ipureintro; exact hP
    isplitl [H0 H1 H2 H3 H4 H5 Hrest]
    · iapply hjoin
      isplitr [Hrest]
      · unfold Dat.arrays
        rw [bigSep_W1]
        isplitl [H0]; · iexact H0
        isplitl [H1]; · iexact H1
        isplitl [H2]; · iexact H2
        isplitl [H3]; · iexact H3
        isplitl [H4]; · iexact H4
        iexact H5
      iexact Hrest
    isplitl [HY]; · iexact HY
    icases HO with ⟨%W, -, HO⟩; iexists W; iexact HO

/-! ## The last host stretch, at whatever region 1 left -/

-- `iapply` of a StableHLO rule, stated for any thread, at the TensorCore thread unifies only when unification may
-- unfold plain definitions in a metavariable's type
set_option backward.isDefEq.respectTransparency.types false in
/-- The last host stretch (the slice of plane 1 and its reshape) from region 1's exit contents, whatever they are: the
    line of operations run at each admissible contents `Fs` of region 1's arrays. -/
def seg3 : HostSeg (Name := ℕ) (U := UR sig nD τ) (pcfgs (F := F)) defs₀ 𝒱₀ Lz lvz where
  prog := StableHlo.seq hostOps2
  pre c := iprop(∃ Fs : Arrs1 (F := F) c, ⌜Pfin dat0 dat1 fgt c Fs⌝ ∗ StableHlo.held (c : Thread nD τ) (Pipeline.ucRefs τ sig) (W3 m dat0 c Fs) ∗ Rr c)
  post c := iprop(∃ Fs : Arrs1 (F := F) c, ⌜Pfin dat0 dat1 fgt c Fs⌝ ∗ StableHlo.held (c : Thread nD τ) (Pipeline.ucRefs τ sig) (W4 m dat0 c Fs) ∗ Rr c)
  run c {β} k K := by
    iintro ⟨Hk, Hbd, ⟨%Fs, %hFs, Hh, HR⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W3 m dat0 c Fs)
    iapply hseq $$ [Hbd Hh]
    · isplitl [Hbd] <;> iassumption
    iintro ⟨Hbd, Hh⟩
    iapply Hk
    isplitl [Hbd]; · iexact Hbd
    iexists Fs
    isplitr; · ipureintro; exact hFs
    isplitl [Hh] <;> iassumption

/-! ## The launch -/

/-- @main's four segments in order. -/
abbrev segs : List (Pipeline.RDat.Seg (pcfgs (F := F)) adm (rdats dat0 dat1 fgt) () defs₀ 𝒱₀ Lz lvz) :=
  [ .host (seg0 m),
    .region (reg0 m dat0 hA0 hq0 howed0 hrec0 hbody0 hin0 hout0 dat1 fgt),
    .region (reg1 m dat0 dat1 fgt hA1 hq1 howed1 hrec1 hbody1 hin1 hout1),
    .host (seg3 m dat0 dat1 fgt) ]

/-- The last thread state without the `owes`: every unscoped buffer at the last boundary's contents, for some admissible
    contents of region 1's arrays; the generator register at some state. -/
abbrev Tₙ (c : Dev nD) : sProp 𝕄 :=
  iprop(∃ Fs : Arrs1 (F := F) c, ⌜Pfin dat0 dat1 fgt c Fs⌝ ∗ StableHlo.held (c : Thread nD τ) (Pipeline.ucRefs τ sig) (W4 m dat0 c Fs) ∗ ∃ r, prngReg c r)

-- the launch theorem's implicit arguments are found by unifying its conclusion with this one, which takes unfolding
-- plain definitions in a metavariable's type
include hA0 hq0 howed0 hrec0 hbody0 hin0 hout0 hA1 hq1 howed1 hrec1 hbody1 hin1 hout1 in
set_option backward.isDefEq.respectTransparency.types false in
/-- THE RUN. From any memory with zero counters every weakly fair execution of @main terminates, and in every final
    memory each core's unscoped buffers hold the last boundary's contents `W4 c Fs` for SOME contents `Fs` region 1's
    arrays may hold after its write-backs. -/
theorem run_rel : θ_run defs (onTc (τ := τ) (main (F := F))) ⟨m, fun _ => 0, ρ⟩ (fun r => ∀ c : Dev nD,
      ∃ Fs : Arrs1 (F := F) c, Pfin dat0 dat1 fgt c Fs ∧ ∀ b ∈ Pipeline.ucRefs τ sig, r.2.mem (((c : Thread nD τ)).1, b) = W4 m dat0 c Fs b) := by
  refine Pipeline.RDat.θ_run_regions_kit_dev (pcfgs (F := F)) adm (rdats dat0 dat1 fgt) () cellOf_inj emb₁ defs₀ 𝒱₀ Lz lvz m ρ main
    (fun _ => segs m dat0 hA0 hq0 howed0 hrec0 hbody0 hin0 hout0 dat1 fgt hA1 hq1 howed1 hrec1 hbody1 hin1 hout1)
    (fun c Q => by
      rewrite [main_chain c, Pipeline.RDat.Seg.run_eq_chain,
        show (segs m dat0 hA0 hq0 howed0 hrec0 hbody0 hin0 hout0 dat1 fgt hA1 hq1 howed1 hrec1 hbody1 hin1 hout1).map Pipeline.RDat.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m dat0 dat1 fgt)
    (hch := fun c => ⟨.rfl, .rfl, .rfl, .rfl, show (iprop(∃ Fs : Arrs1 (F := F) c, ⌜Pfin dat0 dat1 fgt c Fs⌝ ∗ StableHlo.held (c : Thread nD τ) (Pipeline.ucRefs τ sig) (W4 m dat0 c Fs) ∗ Rr c) : sProp 𝕄) ⊢ iprop(Tₙ m dat0 dat1 fgt c ∗ ∃ W, owes (c : Thread nD τ) (0 : CellTallies nD τ sig Unit) W) from by
      iintro ⟨%Fs, %hFs, Hh, Hp, HO⟩
      isplitr [HO]
      · iexists Fs; isplitr; · ipureintro; exact hFs
        isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ Fs : Arrs1 (F := F) c, Pfin dat0 dat1 fgt c Fs ∧ ∀ b ∈ Pipeline.ucRefs τ sig, s.mem (((c : Thread nD τ)).1, b) = W4 m dat0 c Fs b)
    (hfin := fun c s' => by
      iintro ⟨⟨%Fs, %hFs, Hh, -⟩, HSI⟩
      unfold StableHlo.held
      ihave Hr := (pointsTo_read_all (Pipeline.ucRefs τ sig) (fun b => (((c : Thread nD τ)).1, b)) (W4 m dat0 c Fs) s') $$ [Hh HSI]
      · isplitl [Hh] <;> iassumption
      icases Hr with ⟨%h, HSI⟩
      imodintro
      isplitr
      · ipureintro; exact ⟨Fs, hFs, h⟩
      iexact HSI)
    (hQ := fun _ h => h)

/-! ## The arguments end as launched -/

include hA0 in
/-- `main_arg0` reaches the end as launched: region 0 only reads it (its window 2), nothing else touches it. -/
theorem W4_main_arg0 (c : Dev nD) (Fs : Arrs1 (F := F) c) : W4 m dat0 c Fs (Proc.devRef .tc main_arg0) = m ((c : Thread nD τ).loc main_arg0) :=
  (StableHlo.after_of_writes_sub hostOps2 _ hostOps2_writes (show main_arg0 ∉ hostOps2_W by decide)).trans <|
  (W3_of_ne m dat0 c Fs main_arg0 (by decide)).trans <|
  (W2_arr m dat0 c 2).trans <| ((dat0 c).arrAt_in 2 rfl _).trans <| (hA0 c 2).trans <|
  (V1_of m c main_arg0 (by decide)).trans rfl
include hA0 in
/-- `main_arg1` reaches the end as launched: region 0 only reads it (its window 0), nothing else touches it. -/
theorem W4_main_arg1 (c : Dev nD) (Fs : Arrs1 (F := F) c) : W4 m dat0 c Fs (Proc.devRef .tc main_arg1) = m ((c : Thread nD τ).loc main_arg1) :=
  (StableHlo.after_of_writes_sub hostOps2 _ hostOps2_writes (show main_arg1 ∉ hostOps2_W by decide)).trans <|
  (W3_of_ne m dat0 c Fs main_arg1 (by decide)).trans <|
  (W2_arr m dat0 c 0).trans <| ((dat0 c).arrAt_in 0 rfl _).trans <| (hA0 c 0).trans <|
  (V1_of m c main_arg1 (by decide)).trans rfl
include hA0 in
/-- `main_arg2` reaches the end as launched: no host stretch writes it, no region may change it. -/
theorem W4_main_arg2 (c : Dev nD) (Fs : Arrs1 (F := F) c) : W4 m dat0 c Fs (Proc.devRef .tc main_arg2) = m ((c : Thread nD τ).loc main_arg2) :=
  (StableHlo.after_of_writes_sub hostOps2 _ hostOps2_writes (show main_arg2 ∉ hostOps2_W by decide)).trans <|
  (W3_of_ne m dat0 c Fs main_arg2 (by decide)).trans <|
  (W2_of_ne m dat0 c main_arg2 (by decide)).trans <| (V1_of m c main_arg2 (by decide)).trans rfl
include hA0 in
/-- `main_arg3` reaches the end as launched: no host stretch writes it, no region may change it. -/
theorem W4_main_arg3 (c : Dev nD) (Fs : Arrs1 (F := F) c) : W4 m dat0 c Fs (Proc.devRef .tc main_arg3) = m ((c : Thread nD τ).loc main_arg3) :=
  (StableHlo.after_of_writes_sub hostOps2 _ hostOps2_writes (show main_arg3 ∉ hostOps2_W by decide)).trans <|
  (W3_of_ne m dat0 c Fs main_arg3 (by decide)).trans <|
  (W2_of_ne m dat0 c main_arg3 (by decide)).trans <| (V1_of m c main_arg3 (by decide)).trans rfl
include hA0 in
/-- `main_arg4` reaches the end as launched: no host stretch writes it, no region may change it. -/
theorem W4_main_arg4 (c : Dev nD) (Fs : Arrs1 (F := F) c) : W4 m dat0 c Fs (Proc.devRef .tc main_arg4) = m ((c : Thread nD τ).loc main_arg4) :=
  (StableHlo.after_of_writes_sub hostOps2 _ hostOps2_writes (show main_arg4 ∉ hostOps2_W by decide)).trans <|
  (W3_of_ne m dat0 c Fs main_arg4 (by decide)).trans <|
  (W2_of_ne m dat0 c main_arg4 (by decide)).trans <| (V1_of m c main_arg4 (by decide)).trans rfl
include hA0 in
/-- `main_arg5` reaches the end as launched: no host stretch writes it, no region may change it. -/
theorem W4_main_arg5 (c : Dev nD) (Fs : Arrs1 (F := F) c) : W4 m dat0 c Fs (Proc.devRef .tc main_arg5) = m ((c : Thread nD τ).loc main_arg5) :=
  (StableHlo.after_of_writes_sub hostOps2 _ hostOps2_writes (show main_arg5 ∉ hostOps2_W by decide)).trans <|
  (W3_of_ne m dat0 c Fs main_arg5 (by decide)).trans <|
  (W2_of_ne m dat0 c main_arg5 (by decide)).trans <| (V1_of m c main_arg5 (by decide)).trans rfl
include hA0 in
/-- `main_arg6` reaches the end as launched: no host stretch writes it, no region may change it. -/
theorem W4_main_arg6 (c : Dev nD) (Fs : Arrs1 (F := F) c) : W4 m dat0 c Fs (Proc.devRef .tc main_arg6) = m ((c : Thread nD τ).loc main_arg6) :=
  (StableHlo.after_of_writes_sub hostOps2 _ hostOps2_writes (show main_arg6 ∉ hostOps2_W by decide)).trans <|
  (W3_of_ne m dat0 c Fs main_arg6 (by decide)).trans <|
  (W2_of_ne m dat0 c main_arg6 (by decide)).trans <| (V1_of m c main_arg6 (by decide)).trans rfl
include hA0 in
/-- `main_arg7` reaches the end as launched: no host stretch writes it, no region may change it. -/
theorem W4_main_arg7 (c : Dev nD) (Fs : Arrs1 (F := F) c) : W4 m dat0 c Fs (Proc.devRef .tc main_arg7) = m ((c : Thread nD τ).loc main_arg7) :=
  (StableHlo.after_of_writes_sub hostOps2 _ hostOps2_writes (show main_arg7 ∉ hostOps2_W by decide)).trans <|
  (W3_of_ne m dat0 c Fs main_arg7 (by decide)).trans <|
  (W2_of_ne m dat0 c main_arg7 (by decide)).trans <| (V1_of m c main_arg7 (by decide)).trans rfl

include hA0 hq0 howed0 hrec0 hbody0 hin0 hout0 hA1 hq1 howed1 hrec1 hbody1 hin1 hout1 in
/-- THE FRAME, at any float instance: every weakly fair execution of @main terminates and every final memory holds each
    argument array as launched. -/
theorem frame_rel : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨Fs, -, hb⟩ := h c
    exact ⟨(hb _ (mem_uc main_arg0 (by decide))).trans (W4_main_arg0 m dat0 hA0 c Fs),
      (hb _ (mem_uc main_arg1 (by decide))).trans (W4_main_arg1 m dat0 hA0 c Fs),
      (hb _ (mem_uc main_arg2 (by decide))).trans (W4_main_arg2 m dat0 hA0 c Fs),
      (hb _ (mem_uc main_arg3 (by decide))).trans (W4_main_arg3 m dat0 hA0 c Fs),
      (hb _ (mem_uc main_arg4 (by decide))).trans (W4_main_arg4 m dat0 hA0 c Fs),
      (hb _ (mem_uc main_arg5 (by decide))).trans (W4_main_arg5 m dat0 hA0 c Fs),
      (hb _ (mem_uc main_arg6 (by decide))).trans (W4_main_arg6 m dat0 hA0 c Fs),
      (hb _ (mem_uc main_arg7 (by decide))).trans (W4_main_arg7 m dat0 hA0 c Fs)⟩)
    (run_rel m ρ dat0 hA0 hq0 howed0 hrec0 hbody0 hin0 hout0 dat1 fgt hA1 hq1 howed1 hrec1 hbody1 hin1 hout1)

end Cert.Kernel.Hand

end
-- ==== Proof.FrameK.lean ====
/-
  The frame claim of the two-region program, at any float instance.

  Region 0's proof data name what it computes (the scratch holds the projected features after the first grid point; each
  output block is a closed form of the input blocks), so region 1's entry contents are known.  Region 1's proof data say
  nothing of what it leaves in its output: its cut adjacency blocks carry rows nothing names, and the frame does not need
  them.  With these the run's conclusion gives each argument array as launched.
-/
import proofs.«115004_g2345052143907_cont_sun_c4_577_23_alg».proof.Proof.Region0K
import proofs.«115004_g2345052143907_cont_sun_c4_577_23_alg».proof.Proof.Region1FrameK
import proofs.«115004_g2345052143907_cont_sun_c4_577_23_alg».proof.Proof.LaunchK

noncomputable section

namespace Cert.Kernel.Hand

open Cert.Kernel Cert.Kernel.Gen
open Idealize.ShloMosaic Idealize.ShloMosaic.TcCoe Idealize.SL.Sem
open Idealize.ShloMosaic.Pipeline (Dat BodyObligation BodyObligationLoose)

variable {F : FTy → Type} [FloatOps F]

/-- Every weakly fair execution of @main terminates, nothing faulting, and every final memory holds each argument array as
    launched. -/
theorem frame_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_rel m ρ (dat0 (V1r m)) (A_eq0 (V1r m)) (fun _ _ => rfl) (fun _ _ => rfl) (fun _ _ => rfl)
    (fun c => (body_obligation0 (V1r m) c).loose) (hin0 (V1r m)) (hout0 (V1r m))
    (dat1F (V2r m (dat0 (V1r m)))) fgt1 (A_eq1F (V2r m (dat0 (V1r m)))) (fun _ _ => rfl) (fun _ _ => rfl) (fun _ _ => rfl)
    (body_obligation1F (V2r m (dat0 (V1r m)))) (fun _ => .rfl) (fun _ => .rfl)

end Cert.Kernel.Hand

end
-- ==== Proof.RunsKI.lean ====
import proofs.«115004_g2345052143907_cont_sun_c4_577_23_alg».proof.Proof.Gen.KernelIdeal.Launch
import proofs.«115004_g2345052143907_cont_sun_c4_577_23_alg».proof.Proof.Gen.KernelIdeal.Skeleton
import proofs.«115004_g2345052143907_cont_sun_c4_577_23_alg».proof.Proof.Gen.KernelIdeal.Points
import proofs.«115004_g2345052143907_cont_sun_c4_577_23_alg».proof.Proof.LibWhole
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

/-- The layer-one body computes the projected features into its scratch exactly at grid coordinate 0. -/
abbrev c0first (i : grid0.Coords) : Prop := (Scalar.cmpi .ne (Scalar.extui (Scalar.cmpi .eq (BitVec.ofNat 32 (i 0).val) 0#32)) 0#32) = 1#1

set_option maxHeartbeats 2000000 in
/-- The layer-one body at the first grid point. Whatever its scratch held, it now holds the features `x0` times the
    first weights `x1`; the adjacency block `x2` is stored narrowed into the second output, and the first output receives
    the block's product with that scratch, bias added, clamped at zero, times the next layer's weights. -/
theorem run0_first (c : Dev nD) (E : Set ℕ) (i : grid0.Coords) (hi : c0first i)
    (arg1 : Memref sig .tc .vmem S10000x128 .f32) (harg1 : arg1.IsWhole) (arg2 : Memref sig .tc .vmem S128x128 .bf16) (harg2 : arg2.IsWhole)
    (arg3 : Memref sig .tc .vmem S400x10000 .f32) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S400x128 .bf16) (harg6 : arg6.IsWhole)
    (arg7 : Memref sig .tc .vmem S400x10000 .bf16) (harg7 : arg7.IsWhole) (arg8 : Memref sig .tc .vmem S10000x128 .bf16) (harg8 : arg8.IsWhole)
    (x0 : Vec F S10000x128 .f32) (x1 : Vec F S128x128 .bf16) (x2 : Vec F S400x10000 .f32) (x3 : Vec F S1x128 .f32) (x4 : Vec F S128x128 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k0_pay3 x2 (k0_pay1 x0 x1) x3 x4) ∗ owns (c : Thread nD τ) arg7 fullShare (k0_pay2 x2)
            ∗ owns (c : Thread nD τ) arg8 fullShare (k0_pay1 x0 x1)) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := exact hi)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    -- The first output is stored whole, so it reads the payload. The payload's scratch operand is a load that the one
    -- whole store before it covers: it reads what was stored, the features times the first weights.
    rw [read_store_whole _ _ origin2, readAt_unread_whole _ harg3 origin2,
      readAt_unread_whole _ harg4 origin2, readAt_unread_whole _ harg5 origin2]
    sl_unfold_run_names
    rw [View.readCov_unit_zero _ origin2, readAt_unread_whole _ harg1 origin2, readAt_unread_whole _ harg2 origin2]
  isplitl [H6]
  · iexists _; isplitr
    swap; · iexact H6
    ipureintro
    rw [read_store_whole _ _ origin2, readAt_unread_whole _ harg3 origin2]
  iexists _; isplitr
  swap; · iexact HS
  ipureintro
  -- The scratch was stored whole once: it reads that payload whatever it held before.
  sl_unfold_run_names
  rw [read_store_whole _ _ origin2, readAt_unread_whole _ harg1 origin2, readAt_unread_whole _ harg2 origin2]

set_option maxHeartbeats 2000000 in
/-- The layer-one body at a later grid point. Its scratch holds `xs` and is left alone; the adjacency block `x2` is
    stored narrowed into the second output, and the first output receives the block's product with the scratch,
    bias added, clamped at zero, times the next layer's weights. -/
theorem run0_later (c : Dev nD) (E : Set ℕ) (i : grid0.Coords) (hi : ¬ c0first i)
    (arg1 : Memref sig .tc .vmem S10000x128 .f32) (harg1 : arg1.IsWhole) (arg2 : Memref sig .tc .vmem S128x128 .bf16) (harg2 : arg2.IsWhole)
    (arg3 : Memref sig .tc .vmem S400x10000 .f32) (harg3 : arg3.IsWhole) (arg4 : Memref sig .tc .vmem S1x128 .f32) (harg4 : arg4.IsWhole)
    (arg5 : Memref sig .tc .vmem S128x128 .bf16) (harg5 : arg5.IsWhole) (arg6 : Memref sig .tc .vmem S400x128 .bf16) (harg6 : arg6.IsWhole)
    (arg7 : Memref sig .tc .vmem S400x10000 .bf16) (harg7 : arg7.IsWhole) (arg8 : Memref sig .tc .vmem S10000x128 .bf16) (harg8 : arg8.IsWhole)
    (x0 : Vec F S10000x128 .f32) (x1 : Vec F S128x128 .bf16) (x2 : Vec F S400x10000 .f32) (x3 : Vec F S1x128 .f32) (x4 : Vec F S128x128 .bf16)
    (xs : Vec F S10000x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay3 x2 xs x3 x4) ∗ owns (c : Thread nD τ) arg7 fullShare (k0_pay2 x2)
            ∗ owns (c : Thread nD τ) arg8 fullShare xs) -∗ K ⟨⟩))
      ⊢ wp frame (wpE (defs₀ (F := F)) Variants.none c none) E (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg8.eq_unread hfs
  sl_exec (disch := exact hi)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    rw [read_store_whole _ _ origin2, readAt_unread_whole _ harg3 origin2, readAt_unread_whole _ harg8 origin2,
      readAt_unread_whole _ harg4 origin2, readAt_unread_whole _ harg5 origin2]
  isplitl [H6]
  · iexists _; isplitr
    swap; · iexact H6
    ipureintro
    rw [read_store_whole _ _ origin2, readAt_unread_whole _ harg3 origin2]
  iexists _; isplitr; · ipureintro; exact hfs
  iexact HS

/-- The rows of the tail body's scratch that phase 0 writes at grid point `i`: 1280 rows from row `1280 · i₁`. -/
abbrev scrRect (i : grid1.Coords) (hc1 : k1_cond1 i = 1#1) : Rect S10240x128 :=
  Rect.unit (s := S10240x128) (k1_off1 i) S1280x128.size (k1_off1_inb i hc1)

/-- The first 10000 rows of the tail body's scratch: what phase 1 reads. -/
abbrev scrTop : Rect S10240x128 := Rect.unit (s := S10240x128) ![0, 0] S10000x128.size inb_S10240x128_S10000x128_0_0

set_option maxHeartbeats 2000000 in
/-- The tail body in phase 0 (first grid coordinate 0). The adjacency block `x0` times the projected features `x1`, bias `x2`
    added, clamped at zero, times the last weights `x4`, is stored into the scratch rows of this block (the other rows keep
    `xs`), and the output block is zeroed. -/
theorem run1_phase0 (c : Dev nD) (E : Set ℕ) (i : grid1.Coords) (hc1 : k1_cond1 i = 1#1) (hc2 : ¬ k1_cond2 i = 1#1)
    (arg2 : Memref sig .tc .vmem S1280x10000 .bf16) (harg2 : arg2.IsWhole) (arg3 : Memref sig .tc .vmem S10000x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S128x128 .bf16) (harg6 : arg6.IsWhole) (arg7 : Memref sig .tc .vmem S1x1280x128 .f32) (harg7 : arg7.IsWhole)
    (arg8 : Memref sig .tc .vmem S10240x128 .bf16) (harg8 : arg8.IsWhole)
    (x0 : Vec F S1280x10000 .bf16) (x1 : Vec F S10000x128 .bf16) (x2 : Vec F S1x128 .f32) (x3 : Vec F S1x128 .f32) (x4 : Vec F S128x128 .bf16)
    (xs : Vec F S10240x128 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay2 (F := F))
            ∗ owns (c : Thread nD τ) arg8 fullShare (arg8.view.read (Elt F) (arg8.view.writes (Elt F) (harg8.unread xs)
                [⟨scrRect i hc1, k1_pay1 x0 x1 x2 x4⟩]))) -∗ K ⟨⟩))
      ⊢ wp frame (wpE (defs₀ (F := F)) Variants.none c none) E (cc1__tail_kernel i arg2 harg2 arg3 harg3 arg4 harg4 arg5 harg5 arg6 harg6 arg7 harg7 arg8 harg8) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    -- The output block is stored whole: it reads the zero payload.
    rw [read_store_whole _ _ origin3]
  iexists _; isplitr
  swap; · iexact HS
  ipureintro
  -- The scratch keeps its contents except on this block's rows, which the one store overwrites with the payload; the
  -- payload's operands are whole loads of the inputs, each reading the input's contents.
  rw [readAt_unread_whole _ harg2 origin2, readAt_unread_whole _ harg3 origin2, readAt_unread_whole _ harg4 origin2,
    readAt_unread_whole _ harg6 origin2]

set_option maxHeartbeats 2000000 in
/-- The tail body in phase 1 (first grid coordinate 1). The output block receives the adjacency block `x0` times the first
    10000 rows of the scratch, bias `x3` added, clamped at zero; the scratch is left alone. -/
theorem run1_phase1 (c : Dev nD) (E : Set ℕ) (i : grid1.Coords) (hc1 : ¬ k1_cond1 i = 1#1) (hc2 : k1_cond2 i = 1#1)
    (arg2 : Memref sig .tc .vmem S1280x10000 .bf16) (harg2 : arg2.IsWhole) (arg3 : Memref sig .tc .vmem S10000x128 .bf16) (harg3 : arg3.IsWhole)
    (arg4 : Memref sig .tc .vmem S1x128 .f32) (harg4 : arg4.IsWhole) (arg5 : Memref sig .tc .vmem S1x128 .f32) (harg5 : arg5.IsWhole)
    (arg6 : Memref sig .tc .vmem S128x128 .bf16) (harg6 : arg6.IsWhole) (arg7 : Memref sig .tc .vmem S1x1280x128 .f32) (harg7 : arg7.IsWhole)
    (arg8 : Memref sig .tc .vmem S10240x128 .bf16) (harg8 : arg8.IsWhole)
    (x0 : Vec F S1280x10000 .bf16) (x1 : Vec F S10000x128 .bf16) (x2 : Vec F S1x128 .f32) (x3 : Vec F S1x128 .f32) (x4 : Vec F S128x128 .bf16)
    (xs : Vec F S10240x128 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay3 x0 (View.ld xs scrTop) x3)
            ∗ owns (c : Thread nD τ) arg8 fullShare xs) -∗ K ⟨⟩))
      ⊢ wp frame (wpE (defs₀ (F := F)) Variants.none c none) E (cc1__tail_kernel i arg2 harg2 arg3 harg3 arg4 harg4 arg5 harg5 arg6 harg6 arg7 harg7 arg8 harg8) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc1 | exact hc2)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [H5]
  · iexists _; isplitr
    swap; · iexact H5
    ipureintro
    -- The output block is stored whole, so it reads the payload; the payload's second operand is the load of the
    -- scratch's first 10000 rows, the others are whole loads of the inputs.
    rw [read_store_whole _ _ origin3, readAt_unread_whole _ harg2 origin2, readAt_unread_whole _ harg5 origin2,
      View.readAt_eq_ld, harg8.read_unread]
  iexists _; isplitr; · ipureintro; exact hfs
  iexact HS

end Cert.KernelIdeal.Hand

end
-- ==== Proof.Region0KI.lean ====
import proofs.«115004_g2345052143907_cont_sun_c4_577_23_alg».proof.Proof.Gen.KernelIdeal.Launch
import proofs.«115004_g2345052143907_cont_sun_c4_577_23_alg».proof.Proof.Gen.KernelIdeal.Skeleton
import proofs.«115004_g2345052143907_cont_sun_c4_577_23_alg».proof.Proof.Gen.KernelIdeal.Points
import proofs.«115004_g2345052143907_cont_sun_c4_577_23_alg».proof.Proof.LibWhole
import proofs.«115004_g2345052143907_cont_sun_c4_577_23_alg».proof.Proof.RunsKI
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

/-! # The first layer's region, at the contents `V` its core's buffers hold when it is entered -/

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first of the 25 grid points. -/
def t00 : Fin cfg0.N := ⟨0, lt_of_lt_of_eq (by decide : 0 < 25) N_0.symm⟩

/-- The projected features `x · W₁`, narrowed: what the scratch holds once the first point has run. The features and
    the weights are whole-array windows, so their blocks at the first point are the arrays. -/
def y1 (c : Dev nD) : Vec F S10000x128 .bf16 := k0_pay1 (iblk0 V c 0 t00) (iblk0 V c 1 t00)

/-- The first output's block at point `t`: the adjacency rows of the block times the projected features, bias added,
    clamped at zero, times the next layer's weights. -/
def out0_5 (c : Dev nD) (t : Fin cfg0.N) : Vec F S400x128 .bf16 :=
  k0_pay3 (iblk0 V c 2 t) (y1 V c) (iblk0 V c 3 t) (iblk0 V c 4 t)

/-- The second output's block at point `t`: the adjacency rows of the block, narrowed. -/
def out0_6 (c : Dev nD) (t : Fin cfg0.N) : Vec F S400x10000 .bf16 := k0_pay2 (iblk0 V c 2 t)

/-- The scratch the body carries from point to point, as a memref. -/
abbrev scM0 : Memref sig .tc .vmem S10000x128 .bf16 := Memref.whole cc0_scratch0

/-- The core's scoped buffers that this region neither stages through nor uses as scratch, each whole at some contents. -/
abbrev scOthers0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_scratch0), ((c : Thread nD τ).loc cc1_scratch0) ↦{fullShare} f))

/-- The region's invariant before position `n`: before the first point every scoped buffer that is no staging buffer
    of the region is whole at some contents; from then on the scratch holds the projected features. -/
def Phi0 (c : Dev nD) : ℕ → sProp 𝕄
  | 0 => Pipeline.ΦA spec0 c
  | _ + 1 => iprop((owns (c : Thread nD τ) scM0 fullShare (y1 V c) ∗ scOthers0 (F := F) c) ∗ (∃ r, prngReg c r))

/-- The invariant before the first point, with the scratch as a memref owned at some contents. -/
theorem PhiA0_eq (c : Dev nD) :
    (Pipeline.ΦA spec0 c : sProp 𝕄)
      = iprop(((∃ d, owns (c : Thread nD τ) scM0 fullShare d) ∗ scOthers0 (F := F) c) ∗ (∃ r, prngReg c r)) := by
  unfold Pipeline.ΦA; rw [scopedRest0_eq]; simp only [scM0, owns_whole]; try rfl

theorem Phi0_zero (c : Dev nD) : Phi0 V c 0 = Pipeline.ΦA spec0 c := rfl

theorem Phi0_succ (c : Dev nD) (n : ℕ) :
    Phi0 V c (n + 1) = iprop((owns (c : Thread nD τ) scM0 fullShare (y1 V c) ∗ scOthers0 (F := F) c) ∗ (∃ r, prngReg c r)) := rfl

theorem Phi0_pos (c : Dev nD) (n : ℕ) (hn : n ≠ 0) :
    Phi0 V c n = iprop((owns (c : Thread nD τ) scM0 fullShare (y1 V c) ∗ scOthers0 (F := F) c) ∗ (∃ r, prngReg c r)) := by
  cases n with
  | zero => exact absurd rfl hn
  | succ n => rfl

/-- The region's proof data on core `c`: its arrays as the region finds them; after the body at point `t` every input's
    buffer still at its block, the outputs' at the blocks computed there; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 V c t
    | ⟨6, _⟩ => out0_6 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 V c t := by dsimp only [dat0]
theorem after0_6 (c : Dev nD) (t : Fin cfg0.N) : (dat0 V c).after 6 t = out0_6 V c t := by dsimp only [dat0]

/-- The body computes the projected features exactly at the first grid point. -/
theorem hc0 : ∀ t : Fin cfg0.N, c0first (grid0.coords t) ↔ t.val % 25 = 0 :=
  (by decide +kernel : ∀ t : Fin grid0.N, c0first (grid0.coords t) ↔ t.val % 25 = 0)

/-- The invariant at a point's start, restated at the point's position. -/
theorem Phi0_castSucc (c : Dev nD) (t : Fin cfg0.N) : (dat0 V c).Φ t.castSucc = Phi0 V c t.val := by
  dsimp only [dat0]; simp only [Fin.coe_castSucc]

theorem Phi0_of_zero (c : Dev nD) (n : ℕ) (hn : n = 0) : Phi0 V c n = Pipeline.ΦA spec0 c := by
  subst hn; rfl

/-! ## The inputs' staging buffers hold their blocks

An input window's staging buffer holds the window's block at every point, fetched there or not: where it is not
fetched the block index has not moved since the last fetch, and the body leaves every input's buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation -/

/-- What the body is called with at point `t`: the invariant, what the core owes, and every window's current staging
    buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the invariant at the next position, the same dues, every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1600000 in
/-- The body at any point. Every input's buffer holds its block. At the first point the scratch holds anything and the
    body fills it with the projected features, which the first output's block is computed from at once; at a later point
    the invariant says the scratch still holds them, and the body leaves it alone. What the outputs' buffers held is
    never read. The other scoped buffers, the generator register and the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    show (dat0 V c).Φ t.succ = Phi0 V c (t.val + 1) from rfl, Phi0_succ, Phi0_castSucc,
    after0_0, after0_1, after0_2, after0_3, after0_4, after0_5, after0_6]
  have hN : t.val < 25 := lt_of_lt_of_eq t.isLt N_0
  by_cases hz : t.val = 0
  · rw [Phi0_of_zero V c _ hz, PhiA0_eq]
    have ht : t = t00 := Fin.ext hz
    subst ht
    unfold out0_5 out0_6 y1
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (run0_first c Set.univ (grid0.coords t00) ((hc0 t00).mpr (by rw [hz]))
      (win0_0.stage (cfg0.slots t00 0)) (hstage0_0 ((cfg0.slots t00 0).cast nbuf0_0))
      (win0_1.stage (cfg0.slots t00 1)) (hstage0_1 ((cfg0.slots t00 1).cast nbuf0_1))
      (win0_2.stage (cfg0.slots t00 2)) (hstage0_2 ((cfg0.slots t00 2).cast nbuf0_2))
      (win0_3.stage (cfg0.slots t00 3)) (hstage0_3 ((cfg0.slots t00 3).cast nbuf0_3))
      (win0_4.stage (cfg0.slots t00 4)) (hstage0_4 ((cfg0.slots t00 4).cast nbuf0_4))
      (win0_5.stage (cfg0.slots t00 5)) (hstage0_5 ((cfg0.slots t00 5).cast nbuf0_5))
      (win0_6.stage (cfg0.slots t00 6)) (hstage0_6 ((cfg0.slots t00 6).cast nbuf0_6))
      (Memref.whole cc0_scratch0) (Memref.isWhole_whole _)
      (iblk0 V c 0 t00) (iblk0 V c 1 t00) (iblk0 V c 2 t00) (iblk0 V c 3 t00) (iblk0 V c 4 t00) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c _ hz]
    unfold out0_5 out0_6
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply (run0_later c Set.univ (grid0.coords t) (fun h => hz (by have := (hc0 t).mp h; omega))
      (win0_0.stage (cfg0.slots t 0)) (hstage0_0 ((cfg0.slots t 0).cast nbuf0_0))
      (win0_1.stage (cfg0.slots t 1)) (hstage0_1 ((cfg0.slots t 1).cast nbuf0_1))
      (win0_2.stage (cfg0.slots t 2)) (hstage0_2 ((cfg0.slots t 2).cast nbuf0_2))
      (win0_3.stage (cfg0.slots t 3)) (hstage0_3 ((cfg0.slots t 3).cast nbuf0_3))
      (win0_4.stage (cfg0.slots t 4)) (hstage0_4 ((cfg0.slots t 4).cast nbuf0_4))
      (win0_5.stage (cfg0.slots t 5)) (hstage0_5 ((cfg0.slots t 5).cast nbuf0_5))
      (win0_6.stage (cfg0.slots t 6)) (hstage0_6 ((cfg0.slots t 6).cast nbuf0_6))
      (Memref.whole cc0_scratch0) (Memref.isWhole_whole _)
      (iblk0 V c 0 t) (iblk0 V c 1 t) (iblk0 V c 2 t) (iblk0 V c 3 t) (iblk0 V c 4 t) (y1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, Phi0_zero]

/-- After the last point the invariant gives it back: what the scratch holds is forgotten. -/
theorem hout0 (c : Dev nD) : (dat0 V c).Φ (Fin.last cfg0.N) ⊢ Pipeline.ΦA spec0 c := by
  rw [show (dat0 V c).Φ (Fin.last cfg0.N) = Phi0 V c (Fin.last cfg0.N).val from rfl,
    Phi0_pos V c _ (by rw [Fin.val_last]; have : cfg0.N = 25 := N_0; omega), PhiA0_eq]
  iintro ⟨⟨HS, Hoth⟩, Hg⟩
  isplitl [HS Hoth]
  · isplitl [HS]
    · iexists _; iexact HS
    iexact Hoth
  iexact Hg

end Cert.KernelIdeal.Hand

end
-- ==== Proof.Region1FrameKI.lean ====
import proofs.«115004_g2345052143907_cont_sun_c4_577_23_alg».proof.Proof.Gen.KernelIdeal.Launch
import proofs.«115004_g2345052143907_cont_sun_c4_577_23_alg».proof.Proof.Gen.KernelIdeal.Skeleton
import proofs.«115004_g2345052143907_cont_sun_c4_577_23_alg».proof.Proof.Gen.KernelIdeal.Points
import proofs.«115004_g2345052143907_cont_sun_c4_577_23_alg».proof.Proof.LibWhole
import proofs.«115004_g2345052143907_cont_sun_c4_577_23_alg».proof.Proof.RunsKI
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Cert.LibWhole

/-! # The tail region's proof data for the frame claim

The tail region is entered with the core's buffers at contents `V`. Its adjacency window's last block overhangs the
array, so the rows of the staging buffer past the array's end hold values nothing names, and the products the body
forms from the whole buffer inherit them: neither the scratch nor the output block can be described before the run.
The frame claim needs neither. The output window is forgotten, and the invariant between points is the class's own:
every scoped buffer that is no staging buffer of this region, the scratch among them, at some contents. -/

variable (V : (c : Dev nD) → (b : Ref sig .tc) → Buf (Elt F) ((c : Thread nD τ).loc b))

/-- Window `w`'s block at point `t`, read off its array as the region finds it: the part of the block inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window is the one the certificate says nothing of. -/
def fgt1 : Fin cfg1.W → Bool := fun | 0 => false | 1 => false | 2 => false | 3 => false | 4 => false | 5 => true | ⟨_ + 6, h⟩ => absurd h (Nat.not_lt.2 (Nat.le_add_left _ _))

/-- The proof data of the tail region on core `c`: the arrays as the region finds them; after the body each input's
    staging buffer at its block (the cut adjacency block filled out past the array's end with values nothing reads),
    the forgotten output's at values nothing reads; the class invariant at every point; nothing owed; full shares. -/
def dat1F (c : Dev nD) : Dat τ (Elt F) Unit ℕ (UR sig nD τ) ℕ cfg1 c where
  A w := V c (Pipeline.arrRef spec1 w)
  after w t := match w with
    | ⟨0, _⟩ => win1_0.fill (grid1.coords t) (fun _ => Classical.arbitrary _) (iblk1 V c 0 t)
    | ⟨1, _⟩ => iblk1 V c 1 t
    | ⟨2, _⟩ => iblk1 V c 2 t
    | ⟨3, _⟩ => iblk1 V c 3 t
    | ⟨4, _⟩ => iblk1 V c 4 t
    | ⟨5, _⟩ => fun _ => Classical.arbitrary _
  Φ _ := Pipeline.ΦA spec1 c
  q _ := fullShare
  owed _ := 0

/-- The proof data's arrays are the region-entry contents. -/
theorem A_eq1F (c : Dev nD) (w : Fin cfg1.W) : (dat1F V c).A w = V c (Pipeline.arrRef spec1 w) := by
  dsimp only [dat1F]

/-! ## What the body leaves and finds, window by window -/

/-- What the body leaves: the proof data's `match` reduced, window by window. -/
theorem after1F_0 (c : Dev nD) (t : Fin cfg1.N) :
    (dat1F V c).after 0 t = win1_0.fill (grid1.coords t) (fun _ => Classical.arbitrary _) (iblk1 V c 0 t) := by dsimp only [dat1F]
theorem after1F_1 (c : Dev nD) (t : Fin cfg1.N) : (dat1F V c).after 1 t = iblk1 V c 1 t := by dsimp only [dat1F]
theorem after1F_2 (c : Dev nD) (t : Fin cfg1.N) : (dat1F V c).after 2 t = iblk1 V c 2 t := by dsimp only [dat1F]
theorem after1F_3 (c : Dev nD) (t : Fin cfg1.N) : (dat1F V c).after 3 t = iblk1 V c 3 t := by dsimp only [dat1F]
theorem after1F_4 (c : Dev nD) (t : Fin cfg1.N) : (dat1F V c).after 4 t = iblk1 V c 4 t := by dsimp only [dat1F]

/-- The adjacency window is fetched at every point: its buffer holds the block on the rows inside the array, and on the
    rows past the array's end whatever the buffer held (`d`, any). -/
theorem before1F_0 (c : Dev nD) (t : Fin cfg1.N) (d) :
    (dat1F V c).before 0 t d = win1_0.fill (grid1.coords t) d (iblk1 V c 0 t) := by
  unfold Dat.before; rw [if_pos (fetch1_0 t)]
  unfold Dat.fetched Dat.blockOf iblk1; rw [A_eq1F]

/-- The other four inputs have constant block index: fetched at the first point, and the body leaves each block in
    place, so at every point the buffer holds the (uncut) block. -/
theorem before1F_1 (c : Dev nD) (t : Fin cfg1.N) (d) : (dat1F V c).before 1 t d = iblk1 V c 1 t :=
  ((dat1F V c).before_in_eq_fetched 1 rfl (fun _ => rfl) (fun _ _ _ => rfl)
    (fun t => by rw [after1F_1]; unfold Dat.blockOf iblk1; rw [A_eq1F]) t d).trans
    (by unfold Dat.fetched Dat.blockOf iblk1; rw [A_eq1F]; try rfl)
theorem before1F_2 (c : Dev nD) (t : Fin cfg1.N) (d) : (dat1F V c).before 2 t d = iblk1 V c 2 t :=
  ((dat1F V c).before_in_eq_fetched 2 rfl (fun _ => rfl) (fun _ _ _ => rfl)
    (fun t => by rw [after1F_2]; unfold Dat.blockOf iblk1; rw [A_eq1F]) t d).trans
    (by unfold Dat.fetched Dat.blockOf iblk1; rw [A_eq1F]; try rfl)
theorem before1F_3 (c : Dev nD) (t : Fin cfg1.N) (d) : (dat1F V c).before 3 t d = iblk1 V c 3 t :=
  ((dat1F V c).before_in_eq_fetched 3 rfl (fun _ => rfl) (fun _ _ _ => rfl)
    (fun t => by rw [after1F_3]; unfold Dat.blockOf iblk1; rw [A_eq1F]) t d).trans
    (by unfold Dat.fetched Dat.blockOf iblk1; rw [A_eq1F]; try rfl)
theorem before1F_4 (c : Dev nD) (t : Fin cfg1.N) (d) : (dat1F V c).before 4 t d = iblk1 V c 4 t :=
  ((dat1F V c).before_in_eq_fetched 4 rfl (fun _ => rfl) (fun _ _ _ => rfl)
    (fun t => by rw [after1F_4]; unfold Dat.blockOf iblk1; rw [A_eq1F]) t d).trans
    (by unfold Dat.fetched Dat.blockOf iblk1; rw [A_eq1F]; try rfl)

/-! ## The two phases -/

/-- The grid is 2 × 8, the second coordinate fastest: the first coordinate is 0 at the first eight points and 1 at the
    last eight, so the body's first branch runs exactly at the first eight and its second exactly at the last eight. -/
theorem phase1 : ∀ t : Fin cfg1.N, (k1_cond1 (grid1.coords t) = 1#1 ↔ t.val < 8) ∧ (k1_cond2 (grid1.coords t) = 1#1 ↔ 8 ≤ t.val) :=
  (by decide +kernel : ∀ t : Fin grid1.N, (k1_cond1 (grid1.coords t) = 1#1 ↔ t.val < 8) ∧ (k1_cond2 (grid1.coords t) = 1#1 ↔ 8 ≤ t.val))

/-! ## The invariant, opened at the scratch -/

/-- The class invariant holds the region's scratch at some contents among the core's scoped buffers; taken out, the
    scratch may be put back at any contents and the invariant holds again. -/
theorem PhiA1_open (c : Dev nD) :
    (Pipeline.ΦA spec1 c : sProp 𝕄) ⊢ iprop(∃ xs, owns (c : Thread nD τ) (Memref.whole cc1_scratch0) fullShare xs
      ∗ (∀ ys, owns (c : Thread nD τ) (Memref.whole cc1_scratch0) fullShare ys -∗ Pipeline.ΦA spec1 c)) := by
  unfold Pipeline.ΦA; rw [scopedRest1_eq]; simp only [owns_whole]
  iintro ⟨⟨H0, H1, H2, H3, H4, H5, H6, H7, H8, H9, H10, ⟨%fs, HS⟩⟩, Hg⟩
  iexists fs
  isplitl [HS]; · iexact HS
  iintro %ys HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexists ys; iexact HS
  iexact Hg

/-! ## The body obligation -/

set_option maxHeartbeats 1600000 in
/-- The body obligation of the tail region, the output window forgotten. At every point the five inputs' buffers hold
    their blocks (the cut one filled out with whatever it held), the output's buffer anything, the scratch whatever the
    invariant holds it at; the body runs in the phase the point's first coordinate selects; it leaves the inputs as it
    found them, which on the rows inside the array is all the cut window's obligation asks, the output's buffer at
    something, and the scratch at something, at which the invariant closes again. -/
theorem body_obligation1F (c : Dev nD) : BodyObligationLoose (dat1F (F := F) V c) (defs₀ (F := F)) Variants.none () Set.univ fgt1 := fun t => by
  rw [bigSep_W1, bigSep_W1]
  simp only [fgt1]
  rw [show (dat1F V c).Φ t.succ = Pipeline.ΦA spec1 c from rfl,
    show (dat1F V c).Φ t.castSucc = Pipeline.ΦA spec1 c from rfl,
    show (dat1F V c).owesAt () t.succ = (dat1F V c).owesAt () t.castSucc from rfl]
  iintro ⟨HΦ, Ho, ⟨%d0, H0⟩, ⟨%d1, H1⟩, ⟨%d2, H2⟩, ⟨%d3, H3⟩, ⟨%d4, H4⟩, H5⟩
  rw [before1F_0 V c t d0, before1F_1 V c t d1, before1F_2 V c t d2, before1F_3 V c t d3, before1F_4 V c t d4]
  ihave HΦ' := PhiA1_open (F := F) c $$ HΦ
  icases HΦ' with ⟨%xs, HS, Hclose⟩
  have hph := phase1 t
  by_cases h : t.val < 8
  · have hc1 : k1_cond1 (grid1.coords t) = 1#1 := hph.1.mpr h
    have hc2 : ¬ k1_cond2 (grid1.coords t) = 1#1 := fun e => absurd (hph.2.mp e) (Nat.not_le.mpr h)
    iapply (run1_phase0 (F := F) c Set.univ (grid1.coords t) hc1 hc2
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (win1_0.fill (grid1.coords t) d0 (iblk1 V c 0 t)) (iblk1 V c 1 t) (iblk1 V c 2 t) (iblk1 V c 3 t) (iblk1 V c 4 t) xs _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hclose HS]
    · iapply Hclose; iexact HS
    isplitl [Ho]; · iexact Ho
    isplitl [H0]
    · iexists d0; rw [after1F_0, Window.cut_fill]; iexact H0
    isplitl [H1]; · rw [after1F_1]; iexact H1
    isplitl [H2]; · rw [after1F_2]; iexact H2
    isplitl [H3]; · rw [after1F_3]; iexact H3
    isplitl [H4]; · rw [after1F_4]; iexact H4
    iexists _; iexact H5
  · have hc1 : ¬ k1_cond1 (grid1.coords t) = 1#1 := fun e => h (hph.1.mp e)
    have hc2 : k1_cond2 (grid1.coords t) = 1#1 := hph.2.mpr (Nat.le_of_not_lt h)
    iapply (run1_phase1 (F := F) c Set.univ (grid1.coords t) hc1 hc2
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (win1_0.fill (grid1.coords t) d0 (iblk1 V c 0 t)) (iblk1 V c 1 t) (iblk1 V c 2 t) (iblk1 V c 3 t) (iblk1 V c 4 t) xs _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [Hclose HS]
    · iapply Hclose; iexact HS
    isplitl [Ho]; · iexact Ho
    isplitl [H0]
    · iexists d0; rw [after1F_0, Window.cut_fill]; iexact H0
    isplitl [H1]; · rw [after1F_1]; iexact H1
    isplitl [H2]; · rw [after1F_2]; iexact H2
    isplitl [H3]; · rw [after1F_3]; iexact H3
    isplitl [H4]; · rw [after1F_4]; iexact H4
    iexists _; iexact H5

end Cert.KernelIdeal.Hand

end
-- ==== Proof.LaunchKI.lean ====
/-
  The run of the two-region program, once, for any float instance and any proof data of its two regions.

  @main is four segments: a stretch of host operations (the weights narrowed, the biases reshaped), region 0, region 1, and
  a last host stretch (plane 1 of region 1's output sliced out and reshaped).  Each region is entered from the core's
  unscoped buffers held at the contents the segment before left.  Region 0's outputs are named exactly, so region 1's entry
  contents are known before the run.  What region 1 leaves need not be nameable before the run (its output window may be
  forgotten), so its exit is "the arrays at SOME contents they may hold after the write-backs", and the last host stretch,
  which only slices and reshapes, is run at whatever those are.  The run's conclusion reads every unscoped buffer against
  that last valuation; the frame claim (each argument as launched) follows for any float instance.
-/
import proofs.«115004_g2345052143907_cont_sun_c4_577_23_alg».proof.Proof.Gen.KernelIdeal.Launch
import proofs.«115004_g2345052143907_cont_sun_c4_577_23_alg».proof.Proof.Gen.KernelIdeal.Points
import proofs.«115004_g2345052143907_cont_sun_c4_577_23_alg».proof.Proof.Gen.KernelIdeal.Regions
import Idealize.ShloMosaic.Lib.Pipeline.FrameBody
import Idealize.ShloMosaic.Lib.Pipeline.FrameSuffix
import Idealize.ShloMosaic.Lib.Pipeline.RegionsLoop
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the segment boundaries -/

/-- Core `c`'s buffers at launch. -/
abbrev W0 : Dev nD → Valuation τ sig (Elt F) := fun c b => m (c, b)
/-- After the first host stretch (the weights narrowed, the biases reshaped): what region 0 is entered from. -/
abbrev W1 : Dev nD → Valuation τ sig (Elt F) := fun c => StableHlo.after hostOps0 (W0 m c)
/-- The same read at the TensorCore's references. -/
abbrev V1r : (c : Dev nD) → (b : Ref sig .tc) → Buf (Elt F) ((c : Thread nD τ).loc b) := fun c b => W1 m c b

-- Region 0's proof data: any exact data whose arrays are the entry contents.
variable (dat0 : (c : Dev nD) → Dat τ (Elt F) Unit ℕ (UR sig nD τ) ℕ cfg0 c)

/-- At region 0's exit: its arrays at what its write-backs leave, every other buffer as entered. -/
def W2 (c : Dev nD) : Valuation τ sig (Elt F) :=
  Pipeline.withArrays spec0 c (W1 m c) fun w => (dat0 c).arrAt w cfg0.N
theorem W2_arr (c : Dev nD) (w : Fin cfg0.W) :
    W2 m dat0 c (Proc.devRef .tc (Pipeline.arrRef spec0 w)) = (dat0 c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
/-- The same read at the TensorCore's references: what region 1 is entered from. -/
abbrev V2r : (c : Dev nD) → (b : Ref sig .tc) → Buf (Elt F) ((c : Thread nD τ).loc b) := fun c b => W2 m dat0 c b

/-- What region 1's arrays may hold at its exit: one buffer per window. -/
abbrev Arrs1 (c : Dev nD) : Type := (w : Fin cfg1.W) → Buf (Elt F) ((cfg1.win w).arr.view.loc (c : Thread nD τ))

/-- At region 1's exit, if its arrays hold `Fs`: those, every other buffer as entered. -/
def W3 (c : Dev nD) (Fs : Arrs1 (F := F) c) : Valuation τ sig (Elt F) := Pipeline.withArrays spec1 c (W2 m dat0 c) Fs
theorem W3_arr (c : Dev nD) (Fs : Arrs1 (F := F) c) (w : Fin cfg1.W) :
    W3 m dat0 c Fs (Proc.devRef .tc (Pipeline.arrRef spec1 w)) = Fs w := by
  unfold W3; exact Pipeline.withArrays_arr spec1 launch1.win.arr_inj c _ _ w
theorem W3_of_ne (c : Dev nD) (Fs : Arrs1 (F := F) c) (b : Ref sig .tc) (hb : ∀ w, Pipeline.arrRef spec1 w ≠ b) :
    W3 m dat0 c Fs (Proc.devRef .tc b) = W2 m dat0 c (Proc.devRef .tc b) := by
  unfold W3; exact Pipeline.withArrays_of_ne spec1 c _ _ b hb
/-- After the last host stretch (the slice of plane 1, reshaped): the program's end. -/
abbrev W4 (c : Dev nD) (Fs : Arrs1 (F := F) c) : Valuation τ sig (Elt F) := StableHlo.after hostOps2 (W3 m dat0 c Fs)

/-! ## The proof data family -/

variable (hA0 : ∀ c w, (dat0 c).A w = V1r m c (Pipeline.arrRef spec0 w))
  (hq0 : ∀ c w, (dat0 c).q w = fullShare) (howed0 : ∀ c t, (dat0 c).owed t = 0) (hrec0 : ∀ c t, (dat0 c).recorded t = Set.univ)
  (hbody0 : ∀ c, BodyObligationLoose (dat0 c) (defs₀ (F := F)) Variants.none () Set.univ)
  (hin0 : ∀ c, Pipeline.ΦA spec0 c ⊢ (dat0 c).Φ 0) (hout0 : ∀ c, (dat0 c).Φ (Fin.last cfg0.N) ⊢ Pipeline.ΦA spec0 c)

-- Region 1's proof data, and the windows of it the claim forgets.
variable (dat1 : (c : Dev nD) → Dat τ (Elt F) Unit ℕ (UR sig nD τ) ℕ cfg1 c) (fgt : Fin cfg1.W → Bool)
  (hA1 : ∀ c w, (dat1 c).A w = V2r m dat0 c (Pipeline.arrRef spec1 w))
  (hq1 : ∀ c w, (dat1 c).q w = fullShare) (howed1 : ∀ c t, (dat1 c).owed t = 0) (hrec1 : ∀ c t, (dat1 c).recorded t = Set.univ)
  (hbody1 : ∀ c, BodyObligationLoose (dat1 c) (defs₀ (F := F)) Variants.none () Set.univ fgt)
  (hin1 : ∀ c, Pipeline.ΦA spec1 c ⊢ (dat1 c).Φ 0) (hout1 : ∀ c, (dat1 c).Φ (Fin.last cfg1.N) ⊢ Pipeline.ΦA spec1 c)

/-- No pallas_call has a prefetched table. -/
abbrev adm : (p : Fin 2) → (pcfgs (F := F) p).Adm := fun p => (cfgs p).toPCfg_adm

/-- Both pipelines' proof data read relationally: region 0's exactly, region 1's with the forgotten windows saying nothing. -/
def rdats : (p : Fin 2) → (c : Dev nD) → RDat τ (Elt F) Unit ℕ (UR sig nD τ) ℕ (Pipeline.pin (pcfgs (F := F)) adm p) c
  | ⟨0, _⟩ => fun c => (dat0 c).toR
  | ⟨1, _⟩ => fun c => (dat1 c).toRForget fgt
/-- The same family as exact data (what the arrays' bookkeeping lemmas are stated over). -/
def pdatsD : (p : Fin 2) → (c : Dev nD) → Dat τ (Elt F) Unit ℕ (UR sig nD τ) ℕ (Pipeline.pin (pcfgs (F := F)) adm p) c
  | ⟨0, _⟩ => fun c => dat0 c
  | ⟨1, _⟩ => fun c => dat1 c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)

/-- What region 1's arrays may hold at its exit. -/
def Pfin (c : Dev nD) (Fs : Arrs1 (F := F) c) : Prop := ∀ w, (rdats dat0 dat1 fgt 1 c).ArrAt w cfg1.N (Fs w)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The segments -/

/-- The first host stretch, from the launch contents. -/
abbrev seg0 : HostSeg (Name := ℕ) (U := UR sig nD τ) (pcfgs (F := F)) defs₀ 𝒱₀ Lz lvz :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) Rr

-- `iapply` of a library lemma stated over `pin pcs a p` unifies with the pinned configuration only when unification may
-- unfold plain definitions in a metavariable's type
set_option backward.isDefEq.respectTransparency.types false in
/-- REGION 0 over the thread state: entered from every unscoped buffer at `W1`, left at `W2`. Its arrays are split out of
    the unscoped buffers and put back at what the write-backs leave; the generator register goes into the invariant and
    comes back; nothing is owed; the kernel has no semaphore of its own. -/
def reg0 : Pipeline.RDat.RegionSeg (pcfgs (F := F)) adm (rdats dat0 dat1 fgt) () defs₀ 𝒱₀ Lz lvz 0 where
  win := launch0.win.to₀
  block_pos := launch0.block_pos
  stage_whole := launch0.stage_whole
  K := PEmpty
  osem k := k.elim
  ho := Pipeline.OwnSemFacts.none _
  hbody c := (hbody0 c).toR
  hwaits := Pipeline.RDat.hwaits_of_owed_zero _ _ _ _ Lz lvz 0 fun c t => howed0 c t
  pre c := iprop(StableHlo.held (c : Thread nD τ) (Pipeline.ucRefs τ sig) (W1 m c) ∗ Rr c)
  post c := iprop(StableHlo.held (c : Thread nD τ) (Pipeline.ucRefs τ sig) (W2 m dat0 c) ∗ Rr c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.RDat.arrays_of_unscopedBufs (p := 0) (pcfgs (F := F)) adm (rdats dat0 dat1 fgt) launch0.win launch0.arr_whole c
      ((dat0 c).share_full (hq0 c)) (V1r m c) (fun w => hA0 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdats dat0 dat1 fgt 0 c).owed 0 = 0 from howed0 c 0]
      icases HO with ⟨%W, HO⟩; iexists W; isplitr
      · ipureintro; exact fun x _ => Or.inl (by rw [show (rdats dat0 dat1 fgt 0 c).recorded 0 = Set.univ from hrec0 c 0]; trivial)
      iexact HO
    isplitl [Hp]; · iexact Hp
    iexact Hrest
  hin c := by
    refine .trans ?_ (hin0 c)
    unfold Pipeline.ΦA
    iintro ⟨Hp, -, Hr⟩
    isplitl [Hr]; · iexact Hr
    iexact Hp
  hout c := by
    rw [Pipeline.ownSems0_none]
    refine (hout0 c).trans ?_
    unfold Pipeline.ΦA
    iintro ⟨Hr, Hp⟩
    isplitl [Hp]; · iexact Hp
    isplitr; · iempintro
    iexact Hr
  hexit c := by
    have ho : (rdats dat0 dat1 fgt 0 c).owed (Fin.last (Pipeline.pin (pcfgs (F := F)) adm 0).N) = 0 := howed0 c _
    unfold Pipeline.RDat.owesAt Pipeline.owesWithin
    rw [ho]
    have harr : (rdats dat0 dat1 fgt 0 c).arraysAt cfg0.N = ((dat0 c).arrays ((dat0 c).arrAt · cfg0.N) : sProp 𝕄) :=
      (dat0 c).toR_arraysAt_eq cfg0.N
    have hjoin := Pipeline.unscopedBufs_of_arrays (p := 0) (pcfgs (F := F)) adm (Ix := Unit) (Name := ℕ) (U := UR sig nD τ) (Lvl := ℕ)
      launch0.win launch0.arr_whole c (pdatsD dat0 dat1) ((dat0 c).share_full (hq0 c))
      (V1r m c) (V2r m dat0 c) ((dat0 c).arrAt · cfg0.N) (fun w => (W2_arr m dat0 c w).symm)
      (fun b hb => W2_of_ne m dat0 c b fun w e => hb (Finset.mem_image.mpr ⟨w, Finset.mem_univ _, e⟩))
    rw [Pipeline.unscopedBufs_held, show pdatsD dat0 dat1 0 c = dat0 c from rfl] at hjoin
    rw [show (rdats dat0 dat1 fgt 0 c).arraysAt (Pipeline.pin (pcfgs (F := F)) adm 0).N = ((dat0 c).arrays ((dat0 c).arrAt · cfg0.N) : sProp 𝕄) from harr]
    iintro ⟨Ha, HO, HY, Hrest⟩
    imodintro
    isplitl [Ha Hrest]
    · iapply hjoin
      isplitl [Ha]; · iexact Ha
      iexact Hrest
    isplitl [HY]; · iexact HY
    icases HO with ⟨%W, -, HO⟩; iexists W; iexact HO

-- as for region 0
set_option backward.isDefEq.respectTransparency.types false in
/-- REGION 1 over the thread state: entered from every unscoped buffer at `W2`, left at `W3` of SOME contents its arrays may
    hold after its write-backs (what a forgotten window's array holds is not named before the run). -/
def reg1 : Pipeline.RDat.RegionSeg (pcfgs (F := F)) adm (rdats dat0 dat1 fgt) () defs₀ 𝒱₀ Lz lvz 1 where
  win := launch1.win.to₀
  block_pos := launch1.block_pos
  stage_whole := launch1.stage_whole
  K := PEmpty
  osem k := k.elim
  ho := Pipeline.OwnSemFacts.none _
  hbody c := (hbody1 c).toRForget
  hwaits := Pipeline.RDat.hwaits_of_owed_zero _ _ _ _ Lz lvz 1 fun c t => howed1 c t
  pre c := iprop(StableHlo.held (c : Thread nD τ) (Pipeline.ucRefs τ sig) (W2 m dat0 c) ∗ Rr c)
  post c := iprop(∃ Fs : Arrs1 (F := F) c, ⌜Pfin dat0 dat1 fgt c Fs⌝ ∗ StableHlo.held (c : Thread nD τ) (Pipeline.ucRefs τ sig) (W3 m dat0 c Fs) ∗ Rr c)
  X c := iprop(∃ r, prngReg c r)
  Y c := iprop(∃ r, prngReg c r)
  Z c := Pipeline.unscopedRest (Ix := Unit) (Name := ℕ) (U := UR sig nD τ) (Lvl := ℕ) spec1 c (V2r m dat0 c)
  hentry c := by
    rw [Pipeline.ownSems0_none]
    have hsplit := Pipeline.RDat.arrays_of_unscopedBufs (p := 1) (pcfgs (F := F)) adm (rdats dat0 dat1 fgt) launch1.win launch1.arr_whole c
      ((dat1 c).share_full (hq1 c)) (V2r m dat0 c) (fun w => hA1 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show (rdats dat0 dat1 fgt 1 c).owed 0 = 0 from howed1 c 0]
      icases HO with ⟨%W, HO⟩; iexists W; isplitr
      · ipureintro; exact fun x _ => Or.inl (by rw [show (rdats dat0 dat1 fgt 1 c).recorded 0 = Set.univ from hrec1 c 0]; trivial)
      iexact HO
    isplitl [Hp]; · iexact Hp
    iexact Hrest
  hin c := by
    refine .trans ?_ (hin1 c)
    unfold Pipeline.ΦA
    iintro ⟨Hp, -, Hr⟩
    isplitl [Hr]; · iexact Hr
    iexact Hp
  hout c := by
    rw [Pipeline.ownSems0_none]
    refine (hout1 c).trans ?_
    unfold Pipeline.ΦA
    iintro ⟨Hr, Hp⟩
    isplitl [Hp]; · iexact Hp
    isplitr; · iempintro
    iexact Hr
  hexit c := by
    have ho : (rdats dat0 dat1 fgt 1 c).owed (Fin.last (Pipeline.pin (pcfgs (F := F)) adm 1).N) = 0 := howed1 c _
    unfold Pipeline.RDat.owesAt Pipeline.owesWithin
    rw [ho]
    unfold RDat.arraysAt
    rw [bigSep_W1]
    iintro ⟨⟨⟨%F0, %h0, H0⟩, ⟨%F1, %h1, H1⟩, ⟨%F2, %h2, H2⟩, ⟨%F3, %h3, H3⟩, ⟨%F4, %h4, H4⟩, ⟨%F5, %h5, H5⟩⟩, HO, HY, Hrest⟩
    let Fs : Arrs1 (F := F) c := fun w => match w with
      | ⟨0, _⟩ => F0 | ⟨1, _⟩ => F1 | ⟨2, _⟩ => F2 | ⟨3, _⟩ => F3 | ⟨4, _⟩ => F4 | ⟨5, _⟩ => F5
    have hP : Pfin dat0 dat1 fgt c Fs := fun w => match w with
      | ⟨0, _⟩ => h0 | ⟨1, _⟩ => h1 | ⟨2, _⟩ => h2 | ⟨3, _⟩ => h3 | ⟨4, _⟩ => h4 | ⟨5, _⟩ => h5
    have hjoin := Pipeline.unscopedBufs_of_arrays (p := 1) (pcfgs (F := F)) adm (Ix := Unit) (Name := ℕ) (U := UR sig nD τ) (Lvl := ℕ)
      launch1.win launch1.arr_whole c (pdatsD dat0 dat1) ((dat1 c).share_full (hq1 c))
      (V2r m dat0 c) (fun b => W3 m dat0 c Fs b) Fs (fun w => (W3_arr m dat0 c Fs w).symm)
      (fun b hb => W3_of_ne m dat0 c Fs b fun w e => hb (Finset.mem_image.mpr ⟨w, Finset.mem_univ _, e⟩))
    rw [Pipeline.unscopedBufs_held, show pdatsD dat0 dat1 1 c = dat1 c from rfl] at hjoin
    imodintro
    iexists Fs
    isplitr; · ipureintro; exact hP
    isplitl [H0 H1 H2 H3 H4 H5 Hrest]
    · iapply hjoin
      isplitr [Hrest]
      · unfold Dat.arrays
        rw [bigSep_W1]
        isplitl [H0]; · iexact H0
        isplitl [H1]; · iexact H1
        isplitl [H2]; · iexact H2
        isplitl [H3]; · iexact H3
        isplitl [H4]; · iexact H4
        iexact H5
      iexact Hrest
    isplitl [HY]; · iexact HY
    icases HO with ⟨%W, -, HO⟩; iexists W; iexact HO

/-! ## The last host stretch, at whatever region 1 left -/

-- `iapply` of a StableHLO rule, stated for any thread, at the TensorCore thread unifies only when unification may
-- unfold plain definitions in a metavariable's type
set_option backward.isDefEq.respectTransparency.types false in
/-- The last host stretch (the slice of plane 1 and its reshape) from region 1's exit contents, whatever they are: the
    line of operations run at each admissible contents `Fs` of region 1's arrays. -/
def seg3 : HostSeg (Name := ℕ) (U := UR sig nD τ) (pcfgs (F := F)) defs₀ 𝒱₀ Lz lvz where
  prog := StableHlo.seq hostOps2
  pre c := iprop(∃ Fs : Arrs1 (F := F) c, ⌜Pfin dat0 dat1 fgt c Fs⌝ ∗ StableHlo.held (c : Thread nD τ) (Pipeline.ucRefs τ sig) (W3 m dat0 c Fs) ∗ Rr c)
  post c := iprop(∃ Fs : Arrs1 (F := F) c, ⌜Pfin dat0 dat1 fgt c Fs⌝ ∗ StableHlo.held (c : Thread nD τ) (Pipeline.ucRefs τ sig) (W4 m dat0 c Fs) ∗ Rr c)
  run c {β} k K := by
    iintro ⟨Hk, Hbd, ⟨%Fs, %hFs, Hh, HR⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W3 m dat0 c Fs)
    iapply hseq $$ [Hbd Hh]
    · isplitl [Hbd] <;> iassumption
    iintro ⟨Hbd, Hh⟩
    iapply Hk
    isplitl [Hbd]; · iexact Hbd
    iexists Fs
    isplitr; · ipureintro; exact hFs
    isplitl [Hh] <;> iassumption

/-! ## The launch -/

/-- @main's four segments in order. -/
abbrev segs : List (Pipeline.RDat.Seg (pcfgs (F := F)) adm (rdats dat0 dat1 fgt) () defs₀ 𝒱₀ Lz lvz) :=
  [ .host (seg0 m),
    .region (reg0 m dat0 hA0 hq0 howed0 hrec0 hbody0 hin0 hout0 dat1 fgt),
    .region (reg1 m dat0 dat1 fgt hA1 hq1 howed1 hrec1 hbody1 hin1 hout1),
    .host (seg3 m dat0 dat1 fgt) ]

/-- The last thread state without the `owes`: every unscoped buffer at the last boundary's contents, for some admissible
    contents of region 1's arrays; the generator register at some state. -/
abbrev Tₙ (c : Dev nD) : sProp 𝕄 :=
  iprop(∃ Fs : Arrs1 (F := F) c, ⌜Pfin dat0 dat1 fgt c Fs⌝ ∗ StableHlo.held (c : Thread nD τ) (Pipeline.ucRefs τ sig) (W4 m dat0 c Fs) ∗ ∃ r, prngReg c r)

-- the launch theorem's implicit arguments are found by unifying its conclusion with this one, which takes unfolding
-- plain definitions in a metavariable's type
include hA0 hq0 howed0 hrec0 hbody0 hin0 hout0 hA1 hq1 howed1 hrec1 hbody1 hin1 hout1 in
set_option backward.isDefEq.respectTransparency.types false in
/-- THE RUN. From any memory with zero counters every weakly fair execution of @main terminates, and in every final
    memory each core's unscoped buffers hold the last boundary's contents `W4 c Fs` for SOME contents `Fs` region 1's
    arrays may hold after its write-backs. -/
theorem run_rel : θ_run defs (onTc (τ := τ) (main (F := F))) ⟨m, fun _ => 0, ρ⟩ (fun r => ∀ c : Dev nD,
      ∃ Fs : Arrs1 (F := F) c, Pfin dat0 dat1 fgt c Fs ∧ ∀ b ∈ Pipeline.ucRefs τ sig, r.2.mem (((c : Thread nD τ)).1, b) = W4 m dat0 c Fs b) := by
  refine Pipeline.RDat.θ_run_regions_kit_dev (pcfgs (F := F)) adm (rdats dat0 dat1 fgt) () cellOf_inj emb₁ defs₀ 𝒱₀ Lz lvz m ρ main
    (fun _ => segs m dat0 hA0 hq0 howed0 hrec0 hbody0 hin0 hout0 dat1 fgt hA1 hq1 howed1 hrec1 hbody1 hin1 hout1)
    (fun c Q => by
      rewrite [main_chain c, Pipeline.RDat.Seg.run_eq_chain,
        show (segs m dat0 hA0 hq0 howed0 hrec0 hbody0 hin0 hout0 dat1 fgt hA1 hq1 howed1 hrec1 hbody1 hin1 hout1).map Pipeline.RDat.Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m dat0 dat1 fgt)
    (hch := fun c => ⟨.rfl, .rfl, .rfl, .rfl, show (iprop(∃ Fs : Arrs1 (F := F) c, ⌜Pfin dat0 dat1 fgt c Fs⌝ ∗ StableHlo.held (c : Thread nD τ) (Pipeline.ucRefs τ sig) (W4 m dat0 c Fs) ∗ Rr c) : sProp 𝕄) ⊢ iprop(Tₙ m dat0 dat1 fgt c ∗ ∃ W, owes (c : Thread nD τ) (0 : CellTallies nD τ sig Unit) W) from by
      iintro ⟨%Fs, %hFs, Hh, Hp, HO⟩
      isplitr [HO]
      · iexists Fs; isplitr; · ipureintro; exact hFs
        isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ Fs : Arrs1 (F := F) c, Pfin dat0 dat1 fgt c Fs ∧ ∀ b ∈ Pipeline.ucRefs τ sig, s.mem (((c : Thread nD τ)).1, b) = W4 m dat0 c Fs b)
    (hfin := fun c s' => by
      iintro ⟨⟨%Fs, %hFs, Hh, -⟩, HSI⟩
      unfold StableHlo.held
      ihave Hr := (pointsTo_read_all (Pipeline.ucRefs τ sig) (fun b => (((c : Thread nD τ)).1, b)) (W4 m dat0 c Fs) s') $$ [Hh HSI]
      · isplitl [Hh] <;> iassumption
      icases Hr with ⟨%h, HSI⟩
      imodintro
      isplitr
      · ipureintro; exact ⟨Fs, hFs, h⟩
      iexact HSI)
    (hQ := fun _ h => h)

/-! ## The arguments end as launched -/

include hA0 in
/-- `main_arg0` reaches the end as launched: region 0 only reads it (its window 2), nothing else touches it. -/
theorem W4_main_arg0 (c : Dev nD) (Fs : Arrs1 (F := F) c) : W4 m dat0 c Fs (Proc.devRef .tc main_arg0) = m ((c : Thread nD τ).loc main_arg0) :=
  (StableHlo.after_of_writes_sub hostOps2 _ hostOps2_writes (show main_arg0 ∉ hostOps2_W by decide)).trans <|
  (W3_of_ne m dat0 c Fs main_arg0 (by decide)).trans <|
  (W2_arr m dat0 c 2).trans <| ((dat0 c).arrAt_in 2 rfl _).trans <| (hA0 c 2).trans <|
  (V1_of m c main_arg0 (by decide)).trans rfl
include hA0 in
/-- `main_arg1` reaches the end as launched: region 0 only reads it (its window 0), nothing else touches it. -/
theorem W4_main_arg1 (c : Dev nD) (Fs : Arrs1 (F := F) c) : W4 m dat0 c Fs (Proc.devRef .tc main_arg1) = m ((c : Thread nD τ).loc main_arg1) :=
  (StableHlo.after_of_writes_sub hostOps2 _ hostOps2_writes (show main_arg1 ∉ hostOps2_W by decide)).trans <|
  (W3_of_ne m dat0 c Fs main_arg1 (by decide)).trans <|
  (W2_arr m dat0 c 0).trans <| ((dat0 c).arrAt_in 0 rfl _).trans <| (hA0 c 0).trans <|
  (V1_of m c main_arg1 (by decide)).trans rfl
include hA0 in
/-- `main_arg2` reaches the end as launched: no host stretch writes it, no region may change it. -/
theorem W4_main_arg2 (c : Dev nD) (Fs : Arrs1 (F := F) c) : W4 m dat0 c Fs (Proc.devRef .tc main_arg2) = m ((c : Thread nD τ).loc main_arg2) :=
  (StableHlo.after_of_writes_sub hostOps2 _ hostOps2_writes (show main_arg2 ∉ hostOps2_W by decide)).trans <|
  (W3_of_ne m dat0 c Fs main_arg2 (by decide)).trans <|
  (W2_of_ne m dat0 c main_arg2 (by decide)).trans <| (V1_of m c main_arg2 (by decide)).trans rfl
include hA0 in
/-- `main_arg3` reaches the end as launched: no host stretch writes it, no region may change it. -/
theorem W4_main_arg3 (c : Dev nD) (Fs : Arrs1 (F := F) c) : W4 m dat0 c Fs (Proc.devRef .tc main_arg3) = m ((c : Thread nD τ).loc main_arg3) :=
  (StableHlo.after_of_writes_sub hostOps2 _ hostOps2_writes (show main_arg3 ∉ hostOps2_W by decide)).trans <|
  (W3_of_ne m dat0 c Fs main_arg3 (by decide)).trans <|
  (W2_of_ne m dat0 c main_arg3 (by decide)).trans <| (V1_of m c main_arg3 (by decide)).trans rfl
include hA0 in
/-- `main_arg4` reaches the end as launched: no host stretch writes it, no region may change it. -/
theorem W4_main_arg4 (c : Dev nD) (Fs : Arrs1 (F := F) c) : W4 m dat0 c Fs (Proc.devRef .tc main_arg4) = m ((c : Thread nD τ).loc main_arg4) :=
  (StableHlo.after_of_writes_sub hostOps2 _ hostOps2_writes (show main_arg4 ∉ hostOps2_W by decide)).trans <|
  (W3_of_ne m dat0 c Fs main_arg4 (by decide)).trans <|
  (W2_of_ne m dat0 c main_arg4 (by decide)).trans <| (V1_of m c main_arg4 (by decide)).trans rfl
include hA0 in
/-- `main_arg5` reaches the end as launched: no host stretch writes it, no region may change it. -/
theorem W4_main_arg5 (c : Dev nD) (Fs : Arrs1 (F := F) c) : W4 m dat0 c Fs (Proc.devRef .tc main_arg5) = m ((c : Thread nD τ).loc main_arg5) :=
  (StableHlo.after_of_writes_sub hostOps2 _ hostOps2_writes (show main_arg5 ∉ hostOps2_W by decide)).trans <|
  (W3_of_ne m dat0 c Fs main_arg5 (by decide)).trans <|
  (W2_of_ne m dat0 c main_arg5 (by decide)).trans <| (V1_of m c main_arg5 (by decide)).trans rfl
include hA0 in
/-- `main_arg6` reaches the end as launched: no host stretch writes it, no region may change it. -/
theorem W4_main_arg6 (c : Dev nD) (Fs : Arrs1 (F := F) c) : W4 m dat0 c Fs (Proc.devRef .tc main_arg6) = m ((c : Thread nD τ).loc main_arg6) :=
  (StableHlo.after_of_writes_sub hostOps2 _ hostOps2_writes (show main_arg6 ∉ hostOps2_W by decide)).trans <|
  (W3_of_ne m dat0 c Fs main_arg6 (by decide)).trans <|
  (W2_of_ne m dat0 c main_arg6 (by decide)).trans <| (V1_of m c main_arg6 (by decide)).trans rfl
include hA0 in
/-- `main_arg7` reaches the end as launched: no host stretch writes it, no region may change it. -/
theorem W4_main_arg7 (c : Dev nD) (Fs : Arrs1 (F := F) c) : W4 m dat0 c Fs (Proc.devRef .tc main_arg7) = m ((c : Thread nD τ).loc main_arg7) :=
  (StableHlo.after_of_writes_sub hostOps2 _ hostOps2_writes (show main_arg7 ∉ hostOps2_W by decide)).trans <|
  (W3_of_ne m dat0 c Fs main_arg7 (by decide)).trans <|
  (W2_of_ne m dat0 c main_arg7 (by decide)).trans <| (V1_of m c main_arg7 (by decide)).trans rfl

include hA0 hq0 howed0 hrec0 hbody0 hin0 hout0 hA1 hq1 howed1 hrec1 hbody1 hin1 hout1 in
/-- THE FRAME, at any float instance: every weakly fair execution of @main terminates and every final memory holds each
    argument array as launched. -/
theorem frame_rel : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨Fs, -, hb⟩ := h c
    exact ⟨(hb _ (mem_uc main_arg0 (by decide))).trans (W4_main_arg0 m dat0 hA0 c Fs),
      (hb _ (mem_uc main_arg1 (by decide))).trans (W4_main_arg1 m dat0 hA0 c Fs),
      (hb _ (mem_uc main_arg2 (by decide))).trans (W4_main_arg2 m dat0 hA0 c Fs),
      (hb _ (mem_uc main_arg3 (by decide))).trans (W4_main_arg3 m dat0 hA0 c Fs),
      (hb _ (mem_uc main_arg4 (by decide))).trans (W4_main_arg4 m dat0 hA0 c Fs),
      (hb _ (mem_uc main_arg5 (by decide))).trans (W4_main_arg5 m dat0 hA0 c Fs),
      (hb _ (mem_uc main_arg6 (by decide))).trans (W4_main_arg6 m dat0 hA0 c Fs),
      (hb _ (mem_uc main_arg7 (by decide))).trans (W4_main_arg7 m dat0 hA0 c Fs)⟩)
    (run_rel m ρ dat0 hA0 hq0 howed0 hrec0 hbody0 hin0 hout0 dat1 fgt hA1 hq1 howed1 hrec1 hbody1 hin1 hout1)

end Cert.KernelIdeal.Hand

end
-- ==== Proof.FrameKI.lean ====
/-
  The frame claim of the two-region program, at any float instance.

  Region 0's proof data name what it computes (the scratch holds the projected features after the first grid point; each
  output block is a closed form of the input blocks), so region 1's entry contents are known.  Region 1's proof data say
  nothing of what it leaves in its output: its cut adjacency blocks carry rows nothing names, and the frame does not need
  them.  With these the run's conclusion gives each argument array as launched.
-/
import proofs.«115004_g2345052143907_cont_sun_c4_577_23_alg».proof.Proof.Region0KI
import proofs.«115004_g2345052143907_cont_sun_c4_577_23_alg».proof.Proof.Region1FrameKI
import proofs.«115004_g2345052143907_cont_sun_c4_577_23_alg».proof.Proof.LaunchKI

noncomputable section

namespace Cert.KernelIdeal.Hand

open Cert.KernelIdeal Cert.KernelIdeal.Gen
open Idealize.ShloMosaic Idealize.ShloMosaic.TcCoe Idealize.SL.Sem
open Idealize.ShloMosaic.Pipeline (Dat BodyObligation BodyObligationLoose)

variable {F : FTy → Type} [FloatOps F]

/-- Every weakly fair execution of @main terminates, nothing faulting, and every final memory holds each argument array as
    launched. -/
theorem frame_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_rel m ρ (dat0 (V1r m)) (A_eq0 (V1r m)) (fun _ _ => rfl) (fun _ _ => rfl) (fun _ _ => rfl)
    (fun c => (body_obligation0 (V1r m) c).loose) (hin0 (V1r m)) (hout0 (V1r m))
    (dat1F (V2r m (dat0 (V1r m)))) fgt1 (A_eq1F (V2r m (dat0 (V1r m)))) (fun _ _ => rfl) (fun _ _ => rfl) (fun _ _ => rfl)
    (body_obligation1F (V2r m (dat0 (V1r m)))) (fun _ => .rfl) (fun _ => .rfl)

end Cert.KernelIdeal.Hand

end
-- ==== Proof.RefImports.lean ====
/-
  The reference's run and its read-at-an-index lemmas, brought into the build.
-/
import proofs.«115004_g2345052143907_cont_sun_c4_577_23_alg».proof.Proof.Gen.ReferenceIdeal.Run
import proofs.«115004_g2345052143907_cont_sun_c4_577_23_alg».proof.Proof.Gen.ReferenceIdeal.Read
-- ==== Proof.Spec.lean ====
/-
  The mathematics both programs compute, over the extended reals.

  One graph-convolution layer is `relu (adj · (h · W) + b)`: two matrix products grouped from the right,
  a bias added along each row, and the maximum with zero.  The network is three such layers over one
  adjacency matrix.  Matrices are functions of a two-coordinate index; a product entry is the plain sum
  over the shared coordinate.
-/
import Idealize.ShloMosaic.PureOps.Ideal
import Idealize.ShloMosaic.Lib.ValueIdx

noncomputable section

namespace Cert.Spec

open Idealize.ShloMosaic Idealize.ShloMosaic.ValueIdx

/-- An `m × n` matrix of extended reals. -/
abbrev Mat (m n : Nat) : Type := (⟨2, ![m, n]⟩ : Shape).Idx → EReal
/-- A vector of `n` extended reals. -/
abbrev Vec1 (n : Nat) : Type := (⟨1, ![n]⟩ : Shape).Idx → EReal

/-- The matrix product: entry `(i, j)` is `∑ k, A (i, k) · B (k, j)`. -/
def mm {M K N : Nat} (A : Mat M K) (B : Mat K N) : Mat M N :=
  fun j => ∑ k : Fin K, A (ix2 (j 0) k) * B (ix2 k (j 1))

/-- Add the bias entry of the column to every row, then take the maximum with zero. -/
def biasRelu {M N : Nat} (T : Mat M N) (b : Vec1 N) : Mat M N :=
  fun j => max (T j + b (ix1 (j 1))) 0

/-- One layer: `relu (adj · (h · W) + b)`. -/
def layer {n d d' : Nat} (adj : Mat n n) (h : Mat n d) (W : Mat d d') (b : Vec1 d') : Mat n d' :=
  biasRelu (mm adj (mm h W)) b

/-- The three-layer network. -/
def net {n d0 d1 d2 d3 : Nat} (adj : Mat n n) (x : Mat n d0) (W1 : Mat d0 d1) (b1 : Vec1 d1) (Wa : Mat d1 d2) (ba : Vec1 d2)
    (W2 : Mat d2 d3) (b2 : Vec1 d3) : Mat n d3 :=
  layer adj (layer adj (layer adj x W1 b1) Wa ba) W2 b2

/-- A product entry depends on the left factor only through its row. -/
theorem mm_row_congr {M M' K N : Nat} (A : Mat M K) (A' : Mat M' K) (B : Mat K N) (i : Fin M) (i' : Fin M') (j : Fin N)
    (h : ∀ k : Fin K, A (ix2 i k) = A' (ix2 i' k)) : mm A B (ix2 i j) = mm A' B (ix2 i' j) := by
  unfold mm
  refine Finset.sum_congr rfl fun k _ => ?_
  have e0 : ((ix2 i j : (⟨2, ![M, N]⟩ : Shape).Idx) 0) = i := rfl
  have e0' : ((ix2 i' j : (⟨2, ![M', N]⟩ : Shape).Idx) 0) = i' := rfl
  have e1 : ((ix2 i j : (⟨2, ![M, N]⟩ : Shape).Idx) 1) = j := rfl
  have e1' : ((ix2 i' j : (⟨2, ![M', N]⟩ : Shape).Idx) 1) = j := rfl
  rw [e0, e0', e1, e1', h k]

end Cert.Spec

end
-- ==== Proof.LibPlainDot.lean ====
/-
  A plain matrix product's contraction, read through coordinates.

  For dimension numbers that contract the left operand's second axis with the right operand's first,
  with no batch axes — the product of an [M, K] array with a [K, N] array — the contraction index is a
  single coordinate `k < K`, the left operand is read at (row of the output, k) and the right operand
  at (k, column of the output).  The sum over the contraction shape is therefore the familiar
  `∑ k, l (i, k) · r (k, j)`, whatever the record's name and whatever M, K and N are.
-/
import Idealize.ShloMosaic.PureOps.Ideal.Laws
import Idealize.ShloMosaic.Lib.ValueIdx

noncomputable section

namespace Cert.LibPlainDot

open Idealize.ShloMosaic Idealize.ShloMosaic.ValueIdx

variable {M K N : Nat} (d : DotDims (⟨2, ![M, K]⟩ : Shape) (⟨2, ![K, N]⟩ : Shape) (⟨2, ![M, N]⟩ : Shape))

/-- The left operand's row is the output's row. -/
theorem lhs_row (hb : d.lhsBatch = []) (hn : d.lhsNonContracting = [0]) (j : (⟨2, ![M, N]⟩ : Shape).Idx)
    (k : d.contr.Idx) : (d.lhsIdx j k 0).val = (j 0).val := by
  unfold DotDims.lhsIdx
  have h1 : (0 : Fin (⟨2, ![M, K]⟩ : Shape).rank) ∉ d.lhsBatch := by rw [hb]; exact List.not_mem_nil
  have h2 : (0 : Fin (⟨2, ![M, K]⟩ : Shape).rank) ∈ d.lhsNonContracting := by rw [hn]; exact List.mem_singleton.mpr rfl
  rw [dif_neg h1, dif_pos h2]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  exact key _ _ _ _ (by simp [hb, hn])

/-- The right operand's column is the output's column. -/
theorem rhs_col (hlb : d.lhsBatch = []) (hln : d.lhsNonContracting = [0]) (hb : d.rhsBatch = []) (hn : d.rhsNonContracting = [1])
    (j : (⟨2, ![M, N]⟩ : Shape).Idx) (k : d.contr.Idx) : (d.rhsIdx j k 1).val = (j 1).val := by
  unfold DotDims.rhsIdx
  have h1 : (1 : Fin (⟨2, ![K, N]⟩ : Shape).rank) ∉ d.rhsBatch := by rw [hb]; exact List.not_mem_nil
  have h2 : (1 : Fin (⟨2, ![K, N]⟩ : Shape).rank) ∈ d.rhsNonContracting := by rw [hn]; exact List.mem_singleton.mpr rfl
  rw [dif_neg h1, dif_pos h2]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  exact key _ _ _ _ (by simp [hlb, hln, hn])

/-- The contraction shape has one axis. -/
theorem contr_rank (hc : d.lhsContracting = [1]) : d.contr.rank = 1 := by rw [d.rank_contr, hc]; rfl

/-- Its extent is the shared dimension `K`. -/
theorem contr_size (hc : d.lhsContracting = [1]) :
    d.contr.size ⟨0, by rw [contr_rank d hc]; exact Nat.one_pos⟩ = K := by
  have h := d.size_contr 0 (by rw [hc]; exact Nat.one_pos)
  rw [h]
  simp [hc]

/-- The sum over the contraction shape is the sum over `k < K` of the left operand at (row, k) times the
    right operand at (k, column). -/
theorem sum_eq (hlc : d.lhsContracting = [1]) (hrc : d.rhsContracting = [0]) (hlb : d.lhsBatch = [])
    (hln : d.lhsNonContracting = [0]) (hrb : d.rhsBatch = []) (hrn : d.rhsNonContracting = [1])
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K (contr_rank d hlc) (contr_size d hlc)).symm]
  refine Finset.sum_congr rfl fun k _ => ?_
  have hl : d.lhsIdx j ((contrEquiv1 d K (contr_rank d hlc) (contr_size d hlc)).symm k) = ix2 (j 0) k := by
    funext a
    apply Fin.ext
    match a with
    | ⟨0, _⟩ => exact lhs_row d hlb hln j _
    | ⟨1, _⟩ => exact (d.lhsIdx_val_of_single hlc j _).trans (contrEquiv1_symm_val d K _ _ k)
  have hr : d.rhsIdx j ((contrEquiv1 d K (contr_rank d hlc) (contr_size d hlc)).symm k) = ix2 k (j 1) := by
    funext a
    apply Fin.ext
    match a with
    | ⟨0, _⟩ => exact (d.rhsIdx_val_of_single hrc j _).trans (contrEquiv1_symm_val d K _ _ k)
    | ⟨1, _⟩ => exact rhs_col d hlb hln hrb hrn j _
  exact congrArg₂ (· * ·) (congrArg l hl) (congrArg r hr)

/-- A block product into a zero accumulator, at an output index: `∑ k, l (i, k) · r (k, j)`. -/
theorem matmul_zero_apply (hlc : d.lhsContracting = [1]) (hrc : d.rhsContracting = [0]) (hlb : d.lhsBatch = [])
    (hln : d.lhsNonContracting = [0]) (hrb : d.rhsBatch = []) (hrn : d.rhsNonContracting = [1])
    {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    matmul d prec l r (constant (⟨2, ![M, N]⟩ : Shape) .f32 0x00000000#32) j = ∑ k : Fin K, l (ix2 (j 0) k) * r (ix2 k (j 1)) :=
  (Ideal.matmul_constant_zero_apply d prec l r j).trans (sum_eq d hlc hrc hlb hln hrb hrn l r j)

/-- The host's general dot of the same dimension numbers, at an output index: the same sum. -/
theorem dotGeneral_apply (hlc : d.lhsContracting = [1]) (hrc : d.rhsContracting = [0]) (hlb : d.lhsBatch = [])
    (hln : d.lhsNonContracting = [0]) (hrb : d.rhsBatch = []) (hrn : d.rhsNonContracting = [1])
    {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    Host.dotGeneral d prec l r j = ∑ k : Fin K, l (ix2 (j 0) k) * r (ix2 k (j 1)) :=
  (Ideal.dotGeneral_apply d prec _ l r j).trans (sum_eq d hlc hrc hlb hln hrb hrn l r j)

end Cert.LibPlainDot

end
-- ==== Proof.RefIsSpec.lean ====
/-
  The reference program computes the three-layer network of the specification.

  One layer of the reference is, entry by entry, two plain matrix products grouped from the right, the
  bias of the entry's column added (the bias vector laid as one row and that row repeated down the
  rows), and the maximum with the zero constant.  Over the extended reals each of these is the
  specification's operation, so a layer of the reference is a layer of the specification and the
  composed term of three layers is the network.
-/
import proofs.«115004_g2345052143907_cont_sun_c4_577_23_alg».proof.Proof.RefImports
import proofs.«115004_g2345052143907_cont_sun_c4_577_23_alg».proof.Proof.Spec
import proofs.«115004_g2345052143907_cont_sun_c4_577_23_alg».proof.Proof.LibPlainDot

noncomputable section

namespace Cert.RefIsSpec

open Idealize.ShloMosaic Idealize.ShloMosaic.TcCoe Idealize.SL.Sem Idealize.ShloMosaic.ValueIdx
open Cert.ReferenceIdeal Cert.ReferenceIdeal.Gen

/-- One layer in the reference's own spelling. -/
def refLayer (adj : FVec Ideal S10000x10000 .f32) (h : FVec Ideal S10000x128 .f32) (W : FVec Ideal S128x128 .f32)
    (b : FVec Ideal S128 .f32) : FVec Ideal S10000x128 .f32 :=
  maximumf (addf (Host.dotGeneral dot_S10000x10000_S10000x128_S10000x128_1_0_0_1_n_n none adj
      (Host.dotGeneral dot_S10000x128_S128x128_S10000x128_1_0_0_1_n_n none h W))
    (broadcastInDim S10000x128 ![0, 1] bcast_S1x128_S10000x128_0_1 (broadcastInDim S1x128 ![1] bcast_S128_S1x128_1 b)))
    (broadcastInDim S10000x128 ![] bcast_S_S10000x128 (constant S_ .f32 0x00000000#32))

/-- The bias vector laid as one row reads, at column `t` of that row, the vector's entry `t`. -/
theorem biasRow_apply {n : Nat} (hd : (⟨1, ![n]⟩ : Shape).BroadcastsInDim ⟨2, ![1, n]⟩ ![1])
    (b : (⟨1, ![n]⟩ : Shape).Idx → EReal) (i : (⟨2, ![1, n]⟩ : Shape).Idx) :
    broadcastInDim ⟨2, ![1, n]⟩ ![1] hd b i = b (ix1 (i 1)) := by
  refine broadcastInDim_apply ![1] hd b i (ix1 (i 1 : Fin n)) ?_
  intro a
  match a with
  | ⟨0, _⟩ =>
    show (i 1).val = if n = 1 then 0 else (i 1).val
    split
    · have e : (i 1).val < n := (i 1).isLt
      omega
    · rfl

/-- The one-row matrix repeated down `m` rows reads, at `(r, t)`, the row's entry `t`. -/
theorem rowsOfOne_apply {m n : Nat} (hbc : (⟨2, ![1, n]⟩ : Shape).BroadcastsInDim ⟨2, ![m, n]⟩ ![0, 1])
    (y : (⟨2, ![1, n]⟩ : Shape).Idx → EReal) (j : (⟨2, ![m, n]⟩ : Shape).Idx) :
    broadcastInDim ⟨2, ![m, n]⟩ ![0, 1] hbc y j = y (ix2 (0 : Fin 1) (j 1)) := by
  refine broadcastInDim_apply ![0, 1] hbc y j (ix2 (0 : Fin 1) (j 1 : Fin n)) ?_
  intro a
  match a with
  | ⟨0, _⟩ =>
    show (0 : ℕ) = if (1 : ℕ) = 1 then 0 else (j 0).val
    rw [if_pos rfl]
  | ⟨1, _⟩ =>
    show (j 1).val = if n = 1 then 0 else (j 1).val
    split
    · have e : (j 1).val < n := (j 1).isLt
      omega
    · rfl

/-- The bias as the reference lays it over the whole matrix: entry `(r, t)` is the bias entry `t`. -/
theorem bias_apply (b : FVec Ideal S128 .f32) (j : S10000x128.Idx) :
    broadcastInDim S10000x128 ![0, 1] bcast_S1x128_S10000x128_0_1 (broadcastInDim S1x128 ![1] bcast_S128_S1x128_1 b) j
      = b (ix1 (j 1)) := by
  rw [rowsOfOne_apply bcast_S1x128_S10000x128_0_1, biasRow_apply bcast_S128_S1x128_1]

/-- The zero constant spread over the whole matrix is zero at every entry. -/
theorem zero_apply (j : S10000x128.Idx) :
    broadcastInDim S10000x128 ![] bcast_S_S10000x128 (constant (F := Ideal) S_ .f32 0x00000000#32) j = (0 : EReal) := by
  show Ideal.ofBits .f32 0x00000000#32 = 0
  exact Ideal.ofBits_zero_f32

/-- A layer of the reference is a layer of the specification. -/
theorem refLayer_eq (adj : FVec Ideal S10000x10000 .f32) (h : FVec Ideal S10000x128 .f32) (W : FVec Ideal S128x128 .f32)
    (b : FVec Ideal S128 .f32) : refLayer adj h W b = Cert.Spec.layer adj h W b := by
  funext j
  show max (Host.dotGeneral dot_S10000x10000_S10000x128_S10000x128_1_0_0_1_n_n none adj
      (Host.dotGeneral dot_S10000x128_S128x128_S10000x128_1_0_0_1_n_n none h W) j
      + broadcastInDim S10000x128 ![0, 1] bcast_S1x128_S10000x128_0_1 (broadcastInDim S1x128 ![1] bcast_S128_S1x128_1 b) j)
      (broadcastInDim S10000x128 ![] bcast_S_S10000x128 (constant (F := Ideal) S_ .f32 0x00000000#32) j)
    = max (Cert.Spec.mm adj (Cert.Spec.mm h W) j + b (ix1 (j 1))) 0
  rw [bias_apply, zero_apply,
    Cert.LibPlainDot.dotGeneral_apply dot_S10000x10000_S10000x128_S10000x128_1_0_0_1_n_n rfl rfl rfl rfl rfl rfl]
  have inner : Host.dotGeneral dot_S10000x128_S128x128_S10000x128_1_0_0_1_n_n none h W = Cert.Spec.mm h W := by
    funext i
    exact Cert.LibPlainDot.dotGeneral_apply dot_S10000x128_S128x128_S10000x128_1_0_0_1_n_n rfl rfl rfl rfl rfl rfl none h W i
  rw [inner]
  rfl

/-- The composed term of the reference's run is three layers in the reference's spelling, hence the network. -/
theorem net_eq (adj : FVec Ideal S10000x10000 .f32) (x : FVec Ideal S10000x128 .f32) (W1 : FVec Ideal S128x128 .f32)
    (b1 : FVec Ideal S128 .f32) (Wa : FVec Ideal S128x128 .f32) (ba : FVec Ideal S128 .f32) (W2 : FVec Ideal S128x128 .f32)
    (b2 : FVec Ideal S128 .f32) :
    refLayer adj (refLayer adj (refLayer adj x W1 b1) Wa ba) W2 b2 = Cert.Spec.net adj x W1 b1 Wa ba W2 b2 := by
  rw [refLayer_eq, refLayer_eq, refLayer_eq]
  rfl

/-- Every weakly fair execution of the reference ends with its result holding the network of the arguments'
    launch contents, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (net_eq _ _ _ _ _ _ _ _), (h c).2⟩)
    (Cert.ReferenceIdeal.Value.run (F := Ideal) m ρ)

end Cert.RefIsSpec

end
-- ==== Proof.PayloadsKI.lean ====
/-
  The stored values of the two kernel bodies, read over the extended reals.

  With exact arithmetic a change of float format is the identity and a cast between equal shapes moves
  nothing, so each stored value is what its matrix products, its bias addition and its maximum with zero
  compute: a plain product `x · W`; the adjacency block itself; and one hidden layer
  `relu (A · Y + b)`, either multiplied by the next weight or laid under a leading unit axis.  A product
  into a zero accumulator is the sum `∑ k, l (i, k) · r (k, j)` over the shared coordinate.
-/
import proofs.«115004_g2345052143907_cont_sun_c4_577_23_alg».proof.Proof.Gen.KernelIdeal.Skeleton
import proofs.«115004_g2345052143907_cont_sun_c4_577_23_alg».proof.Proof.Spec
import proofs.«115004_g2345052143907_cont_sun_c4_577_23_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The bias row of a `[1, 128]` block as a vector. -/
def brow (b : Vec Ideal S1x128 .f32) : Cert.Spec.Vec1 128 := fun j => b (ix2 0 (j 0))

/-! ## One hidden layer read at an index

A product into a zero accumulator, plus the one bias row repeated over the rows, then the maximum with a zero
splat: at row `p` and column `q` this is `max (∑ k, a (p, k) · y (k, q) + b (0, q)) 0`, whatever the extents. -/

theorem hidden_apply {M K N : Nat}
    (d : DotDims (⟨2, ![M, K]⟩ : Shape) (⟨2, ![K, N]⟩ : Shape) (⟨2, ![M, N]⟩ : Shape))
    (hlc : d.lhsContracting = [1]) (hrc : d.rhsContracting = [0]) (hlb : d.lhsBatch = [])
    (hln : d.lhsNonContracting = [0]) (hrb : d.rhsBatch = []) (hrn : d.rhsNonContracting = [1])
    {φ₁ φ₂ : FTy} (a : FVec Ideal (⟨2, ![M, K]⟩ : Shape) φ₁) (y : FVec Ideal (⟨2, ![K, N]⟩ : Shape) φ₂)
    (b : FVec Ideal (⟨2, ![1, N]⟩ : Shape) .f32)
    (hb : (⟨2, ![1, N]⟩ : Shape).Broadcasts (⟨2, ![M, N]⟩ : Shape)) (p : Fin M) (q : Fin N) :
    maximumf (addf (matmul d none a y (constant (⟨2, ![M, N]⟩ : Shape) .f32 0x00000000#32))
        (broadcastTo (⟨2, ![M, N]⟩ : Shape) b hb))
      (broadcast (⟨2, ![M, N]⟩ : Shape) (Scalar.ofBits (F := Ideal) .f32 0x00000000#32)) (ix2 p q)
      = Cert.Spec.biasRelu (Cert.Spec.mm a y) (fun j => b (ix2 (0 : Fin 1) (j 0))) (ix2 p q) := by
  rw [maximumf_apply, addf_apply, broadcast_apply, broadcastTo_1b_ab_apply,
    Cert.LibPlainDot.matmul_zero_apply d hlc hrc hlb hln hrb hrn]
  show max (_ + _) (Ideal.ofBits .f32 0x00000000#32) = _
  rw [Ideal.ofBits_zero_f32]
  rfl

/-! ## The payloads -/

/-- The first launch's feature product: the rounded input times the first weight. -/
theorem k0_pay1_eq (x : Vec Ideal S10000x128 .f32) (w : Vec Ideal S128x128 .bf16) :
    k0_pay1 (F := Ideal) x w = Cert.Spec.mm x w := by
  funext j
  unfold k0_pay1
  simp only [shapeCast_self]
  rw [truncf_apply]
  refine (Cert.LibPlainDot.matmul_zero_apply dot_S10000x128_S128x128_S10000x128_1_0_0_1_n_n rfl rfl rfl rfl rfl rfl
    (φ₁ := .bf16) (φ₂ := .bf16) none _ _ j).trans ?_
  rfl

/-- The adjacency block, changed in format only. -/
theorem k0_pay2_eq (a : Vec Ideal S400x10000 .f32) : k0_pay2 (F := Ideal) a = a := rfl

/-- A product entry at an index given by coordinates. -/
theorem mm_apply {M K N : Nat} (A : Cert.Spec.Mat M K) (B : Cert.Spec.Mat K N) (p : Fin M) (q : Fin N) :
    Cert.Spec.mm A B (ix2 p q) = ∑ k : Fin K, A (ix2 p k) * B (ix2 k q) := rfl

/-- The first launch's row block of the first layer, already multiplied by the second weight. -/
theorem k0_pay3_eq (a : Vec Ideal S400x10000 .f32) (y : Vec Ideal S10000x128 .bf16) (b : Vec Ideal S1x128 .f32)
    (w : Vec Ideal S128x128 .bf16) :
    k0_pay3 (F := Ideal) a y b w = Cert.Spec.mm (Cert.Spec.biasRelu (Cert.Spec.mm a y) (brow b)) w := by
  funext j
  obtain ⟨p, q, rfl⟩ : ∃ (p : Fin 400) (q : Fin 128), j = ix2 p q := ⟨j 0, j 1, eq_ix2 j⟩
  unfold k0_pay3
  simp only [shapeCast_self]
  rw [truncf_apply, k0_pay2_eq, mm_apply]
  refine (Cert.LibPlainDot.matmul_zero_apply dot_S400x128_S128x128_S400x128_1_0_0_1_n_n rfl rfl rfl rfl rfl rfl
    (φ₁ := .bf16) (φ₂ := .bf16) none _ _ (ix2 p q)).trans ?_
  refine Finset.sum_congr rfl fun k _ => ?_
  refine congrArg (· * w (ix2 k q)) ?_
  show truncf .bf16 _ _ (ix2 p k) = _
  rw [truncf_apply]
  exact hidden_apply dot_S400x10000_S10000x128_S400x128_1_0_0_1_n_n rfl rfl rfl rfl rfl rfl
    (φ₁ := .bf16) (φ₂ := .bf16) a y b broadcasts_S1x128_S400x128 p k

/-- The second launch's row block of the second layer, already multiplied by the third weight. -/
theorem k1_pay1_eq (a : Vec Ideal S1280x10000 .bf16) (y : Vec Ideal S10000x128 .bf16) (b : Vec Ideal S1x128 .f32)
    (w : Vec Ideal S128x128 .bf16) :
    k1_pay1 (F := Ideal) a y b w = Cert.Spec.mm (Cert.Spec.biasRelu (Cert.Spec.mm a y) (brow b)) w := by
  funext j
  obtain ⟨p, q, rfl⟩ : ∃ (p : Fin 1280) (q : Fin 128), j = ix2 p q := ⟨j 0, j 1, eq_ix2 j⟩
  unfold k1_pay1
  simp only [shapeCast_self]
  rw [truncf_apply, mm_apply]
  refine (Cert.LibPlainDot.matmul_zero_apply dot_S1280x128_S128x128_S1280x128_1_0_0_1_n_n rfl rfl rfl rfl rfl rfl
    (φ₁ := .bf16) (φ₂ := .bf16) none _ _ (ix2 p q)).trans ?_
  refine Finset.sum_congr rfl fun k _ => ?_
  refine congrArg (· * w (ix2 k q)) ?_
  show truncf .bf16 _ _ (ix2 p k) = _
  rw [truncf_apply]
  exact hidden_apply dot_S1280x10000_S10000x128_S1280x128_1_0_0_1_n_n rfl rfl rfl rfl rfl rfl
    (φ₁ := .bf16) (φ₂ := .bf16) a y b broadcasts_S1x128_S1280x128 p k

/-- The zero splat the second launch writes before its last phase. -/
theorem k1_pay2_eq : (k1_pay2 (F := Ideal)) = fun _ => (0 : EReal) := by
  funext j
  unfold k1_pay2
  exact Ideal.ofBits_zero_f32

/-- The second launch's row block of the third layer, under a leading unit axis. -/
theorem k1_pay3_apply (a : Vec Ideal S1280x10000 .bf16) (y : Vec Ideal S10000x128 .bf16) (b : Vec Ideal S1x128 .f32)
    (p : Fin 1280) (q : Fin 128) :
    k1_pay3 (F := Ideal) a y b (ix3 0 p q) = Cert.Spec.biasRelu (Cert.Spec.mm a y) (brow b) (ix2 p q) := by
  unfold k1_pay3
  simp only [shapeCast_self]
  rw [shapeCast_ab_1ab_apply]
  exact hidden_apply dot_S1280x10000_S10000x128_S1280x128_1_0_0_1_n_n rfl rfl rfl rfl rfl rfl
    (φ₁ := .bf16) (φ₂ := .bf16) a y b broadcasts_S1x128_S1280x128 p q

end Cert.KernelIdeal.Hand

end
-- ==== Proof.Region1ValueKI.lean ====
import proofs.«115004_g2345052143907_cont_sun_c4_577_23_alg».proof.Proof.Gen.KernelIdeal.Launch
import proofs.«115004_g2345052143907_cont_sun_c4_577_23_alg».proof.Proof.Gen.KernelIdeal.Skeleton
import proofs.«115004_g2345052143907_cont_sun_c4_577_23_alg».proof.Proof.Gen.KernelIdeal.Points
import proofs.«115004_g2345052143907_cont_sun_c4_577_23_alg».proof.Proof.LibWhole
import proofs.«115004_g2345052143907_cont_sun_c4_577_23_alg».proof.Proof.RunsKI
import proofs.«115004_g2345052143907_cont_sun_c4_577_23_alg».proof.Proof.Region1FrameKI
import proofs.«115004_g2345052143907_cont_sun_c4_577_23_alg».proof.Proof.PayloadsKI
import proofs.«115004_g2345052143907_cont_sun_c4_577_23_alg».proof.Proof.Spec
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

open Cert.LibWhole

/-! # The tail region's exact proof data over the extended reals

The region is entered with the core's buffers at contents `V`. Phase 0 computes, block of rows by block of rows,
the third layer's input `y3 = relu (adj · y2 + ba) · W2` into the scratch; phase 1 computes the rows of
`relu (adj · y3 + b2)` into the output's blocks. A product row depends on its left factor only through that row, so the
rows of the adjacency staging buffer past the array's end, which hold values nothing names, reach only scratch rows
and output rows past the arrays' ends; those are never read, respectively never written back. -/

variable (V : (c : Dev nD) → (b : Ref sig .tc) → Buf (Elt Ideal) ((c : Thread nD τ).loc b))

/-- The third layer's input: the second hidden layer `relu (adj · y2 + ba)` times the last weights. -/
def y3M (c : Dev nD) : Cert.Spec.Mat 10000 128 :=
  Cert.Spec.mm (Cert.Spec.biasRelu (Cert.Spec.mm (V c main_v6_1) (V c main_v6_0)) (brow (V c main_v4))) (V c main_v2)

/-- The network's output: `relu (adj · y3 + b2)`. -/
def outM (c : Dev nD) : Cert.Spec.Mat 10000 128 :=
  Cert.Spec.biasRelu (Cert.Spec.mm (V c main_v6_1) (y3M V c)) (brow (V c main_v5))

/-- What the output window's staging buffer holds after point `t`, on the rows inside the array: zeros in phase 0;
    in phase 1, at block `t - 8`, the output's rows `1280 (t - 8) + p`. Past the array's end, zero (never written back). -/
def out1V (c : Dev nD) (t : Fin cfg1.N) : S1x1280x128.Idx → EReal :=
  if t.val < 8 then fun _ => 0
  else fun j => if h : 1280 * (t.val - 8) + (j 1).val < 10000 then outM V c (ix2 ⟨_, h⟩ (j 2)) else 0

/-- The scratch is right on the rows that the first `n` points have written and that lie inside the array. -/
def ScrOk (c : Dev nD) (n : ℕ) (xs : Vec Ideal S10240x128 .bf16) : Prop :=
  ∀ (r : Fin 10240) (q : Fin 128), r.val < 1280 * min n 8 → ∀ h : r.val < 10000, xs (ix2 r q) = y3M V c (ix2 ⟨r.val, h⟩ q)

/-- The core's scoped buffers that are neither staging buffers of this region nor its scratch, each whole at some
    contents. -/
abbrev scOthers1 (c : Dev nD) (S : sProp 𝕄) : sProp 𝕄 :=
  iprop((∃ f : Buf (Elt Ideal) ((c : Thread nD τ).loc cc0_stg0_0), ((c : Thread nD τ).loc cc0_stg0_0) ↦{fullShare} f)
    ∗ (∃ f : Buf (Elt Ideal) ((c : Thread nD τ).loc cc0_stg1_0), ((c : Thread nD τ).loc cc0_stg1_0) ↦{fullShare} f)
    ∗ (∃ f : Buf (Elt Ideal) ((c : Thread nD τ).loc cc0_stg2_0), ((c : Thread nD τ).loc cc0_stg2_0) ↦{fullShare} f)
    ∗ (∃ f : Buf (Elt Ideal) ((c : Thread nD τ).loc cc0_stg2_1), ((c : Thread nD τ).loc cc0_stg2_1) ↦{fullShare} f)
    ∗ (∃ f : Buf (Elt Ideal) ((c : Thread nD τ).loc cc0_stg3_0), ((c : Thread nD τ).loc cc0_stg3_0) ↦{fullShare} f)
    ∗ (∃ f : Buf (Elt Ideal) ((c : Thread nD τ).loc cc0_stg4_0), ((c : Thread nD τ).loc cc0_stg4_0) ↦{fullShare} f)
    ∗ (∃ f : Buf (Elt Ideal) ((c : Thread nD τ).loc cc0_stg5_0), ((c : Thread nD τ).loc cc0_stg5_0) ↦{fullShare} f)
    ∗ (∃ f : Buf (Elt Ideal) ((c : Thread nD τ).loc cc0_stg5_1), ((c : Thread nD τ).loc cc0_stg5_1) ↦{fullShare} f)
    ∗ (∃ f : Buf (Elt Ideal) ((c : Thread nD τ).loc cc0_stg6_0), ((c : Thread nD τ).loc cc0_stg6_0) ↦{fullShare} f)
    ∗ (∃ f : Buf (Elt Ideal) ((c : Thread nD τ).loc cc0_stg6_1), ((c : Thread nD τ).loc cc0_stg6_1) ↦{fullShare} f)
    ∗ (∃ f : Buf (Elt Ideal) ((c : Thread nD τ).loc cc0_scratch0), ((c : Thread nD τ).loc cc0_scratch0) ↦{fullShare} f)
    ∗ S)

/-- The region's invariant before position `n`: before the first point, every scoped buffer that is no staging buffer
    of the region at some contents; from then on the same, the scratch at contents right on the rows written so far. -/
def Phi1V (c : Dev nD) : ℕ → sProp 𝕄
  | 0 => Pipeline.ΦA spec1 c
  | n + 1 => iprop(scOthers1 c iprop(∃ xs, ⌜ScrOk V c (n + 1) xs⌝ ∗ owns (c : Thread nD τ) (Memref.whole cc1_scratch0) fullShare xs)
      ∗ (∃ r, prngReg c r))

/-- The invariant before the first point, with the scratch as a memref owned at some contents. -/
theorem PhiA1_eq (c : Dev nD) :
    (Pipeline.ΦA spec1 c : sProp 𝕄)
      = iprop(scOthers1 c iprop(∃ xs, owns (c : Thread nD τ) (Memref.whole cc1_scratch0) fullShare xs) ∗ (∃ r, prngReg c r)) := by
  unfold Pipeline.ΦA; rw [scopedRest1_eq]; simp only [owns_whole]; try rfl

theorem Phi1V_zero (c : Dev nD) : Phi1V V c 0 = Pipeline.ΦA spec1 c := rfl

theorem Phi1V_succ (c : Dev nD) (n : ℕ) :
    Phi1V V c (n + 1) = iprop(scOthers1 c iprop(∃ xs, ⌜ScrOk V c (n + 1) xs⌝ ∗ owns (c : Thread nD τ) (Memref.whole cc1_scratch0) fullShare xs)
      ∗ (∃ r, prngReg c r)) := rfl

/-- The proof data of the tail region on core `c`: the arrays as the region finds them; after the body each input's
    staging buffer at its block (the cut adjacency block filled out past the array's end with zeros nothing reads), the
    output's at the block computed there; nothing owed; full shares. -/
def dat1V (c : Dev nD) : Dat τ (Elt Ideal) Unit ℕ (UR sig nD τ) ℕ cfg1 c where
  A w := V c (Pipeline.arrRef spec1 w)
  after w t := match w with
    | ⟨0, _⟩ => win1_0.fill (grid1.coords t) (fun _ => (0 : EReal)) (iblk1 V c 0 t)
    | ⟨1, _⟩ => iblk1 V c 1 t
    | ⟨2, _⟩ => iblk1 V c 2 t
    | ⟨3, _⟩ => iblk1 V c 3 t
    | ⟨4, _⟩ => iblk1 V c 4 t
    | ⟨5, _⟩ => out1V V c t
  Φ t := Phi1V V c t.val
  q _ := fullShare
  owed _ := 0

theorem A_eq1V (c : Dev nD) (w : Fin cfg1.W) : (dat1V V c).A w = V c (Pipeline.arrRef spec1 w) := by
  dsimp only [dat1V]

theorem after1V_0 (c : Dev nD) (t : Fin cfg1.N) :
    (dat1V V c).after 0 t = win1_0.fill (grid1.coords t) (fun _ => (0 : EReal)) (iblk1 V c 0 t) := by dsimp only [dat1V]
theorem after1V_1 (c : Dev nD) (t : Fin cfg1.N) : (dat1V V c).after 1 t = iblk1 V c 1 t := by dsimp only [dat1V]
theorem after1V_2 (c : Dev nD) (t : Fin cfg1.N) : (dat1V V c).after 2 t = iblk1 V c 2 t := by dsimp only [dat1V]
theorem after1V_3 (c : Dev nD) (t : Fin cfg1.N) : (dat1V V c).after 3 t = iblk1 V c 3 t := by dsimp only [dat1V]
theorem after1V_4 (c : Dev nD) (t : Fin cfg1.N) : (dat1V V c).after 4 t = iblk1 V c 4 t := by dsimp only [dat1V]
theorem after1V_5 (c : Dev nD) (t : Fin cfg1.N) : (dat1V V c).after 5 t = out1V V c t := by dsimp only [dat1V]

/-! ## The pure mathematics of a block

A row block of a product is the product of the row block: entry `(p, q)` of `x0 · Y` reads `x0` only along row `p`. So
where row `p` of the staged adjacency block is row `1280 i + p` of the adjacency matrix, the block's hidden-layer rows
are the matrix's. -/

/-- Row `p` of one hidden layer of the staged block is row `1280 i + p` of the layer of the whole matrix. -/
theorem hidden_row_eq (adj : Cert.Spec.Mat 10000 10000) (Y : Cert.Spec.Mat 10000 128) (b : Cert.Spec.Vec1 128)
    (x0 : Cert.Spec.Mat 1280 10000) (i : ℕ) (p : Fin 1280) (q : Fin 128) (h : 1280 * i + p.val < 10000)
    (hrow : ∀ k : Fin 10000, x0 (ix2 p k) = adj (ix2 ⟨1280 * i + p.val, h⟩ k)) :
    Cert.Spec.biasRelu (Cert.Spec.mm x0 Y) b (ix2 p q)
      = Cert.Spec.biasRelu (Cert.Spec.mm adj Y) b (ix2 ⟨1280 * i + p.val, h⟩ q) := by
  unfold Cert.Spec.biasRelu
  show max (Cert.Spec.mm x0 Y (ix2 p q) + b (ix1 q)) 0 = max (Cert.Spec.mm adj Y (ix2 ⟨1280 * i + p.val, h⟩ q) + b (ix1 q)) 0
  rw [Cert.Spec.mm_row_congr x0 adj Y p ⟨1280 * i + p.val, h⟩ q hrow]

/-- Phase 0's payload at row `p` of block `i`: row `1280 i + p` of the third layer's input. -/
theorem scr_block_eq (adj : Cert.Spec.Mat 10000 10000) (y2 : Vec Ideal S10000x128 .bf16) (ba : Vec Ideal S1x128 .f32)
    (w2 : Vec Ideal S128x128 .bf16) (x0 : Vec Ideal S1280x10000 .bf16) (i : ℕ) (p : Fin 1280) (q : Fin 128)
    (h : 1280 * i + p.val < 10000)
    (hrow : ∀ k : Fin 10000, x0 (ix2 p k) = adj (ix2 ⟨1280 * i + p.val, h⟩ k)) :
    k1_pay1 (F := Ideal) x0 y2 ba w2 (ix2 p q)
      = Cert.Spec.mm (Cert.Spec.biasRelu (Cert.Spec.mm adj y2) (brow ba)) w2 (ix2 ⟨1280 * i + p.val, h⟩ q) := by
  rw [k1_pay1_eq]
  exact Cert.Spec.mm_row_congr _ _ w2 p ⟨1280 * i + p.val, h⟩ q fun k =>
    hidden_row_eq adj y2 (brow ba) x0 i p k h hrow

/-- Phase 1's payload at row `p` of block `i`: row `1280 i + p` of the output. -/
theorem out_block_eq (adj : Cert.Spec.Mat 10000 10000) (Y : Cert.Spec.Mat 10000 128) (b : Vec Ideal S1x128 .f32)
    (x0 : Vec Ideal S1280x10000 .bf16) (ys : Vec Ideal S10000x128 .bf16) (hys : ys = Y) (i : ℕ) (p : Fin 1280) (q : Fin 128)
    (h : 1280 * i + p.val < 10000)
    (hrow : ∀ k : Fin 10000, x0 (ix2 p k) = adj (ix2 ⟨1280 * i + p.val, h⟩ k)) :
    k1_pay3 (F := Ideal) x0 ys b (ix3 0 p q)
      = Cert.Spec.biasRelu (Cert.Spec.mm adj Y) (brow b) (ix2 ⟨1280 * i + p.val, h⟩ q) := by
  rw [k1_pay3_apply, hys]
  exact hidden_row_eq adj Y (brow b) x0 i p q h hrow

/-! ## The scratch after a phase-0 point -/

/-- One store of 1280 rows from row `1280 n` into a scratch right on its first `1280 n` rows leaves it right on its first
    `1280 (n + 1)`, where the stored rows that lie inside the array are right. -/
theorem scr_after (arg8 : Memref sig .tc .vmem S10240x128 .bf16) (harg8 : arg8.IsWhole) (xs : Vec Ideal S10240x128 .bf16)
    (off : Fin 2 → ℕ) (inb : ∀ a, off a + S1280x128.size a ≤ S10240x128.size a) (P : Vec Ideal S1280x128 .bf16)
    (n : ℕ) (h0 : off 0 = 1280 * n) (h1 : off 1 = 0) (Y : Cert.Spec.Mat 10000 128)
    (hxs : ∀ (r : Fin 10240) (q : Fin 128), r.val < 1280 * n → ∀ h : r.val < 10000, xs (ix2 r q) = Y (ix2 ⟨r.val, h⟩ q))
    (hP : ∀ (p : Fin 1280) (q : Fin 128), ∀ h : 1280 * n + p.val < 10000, P (ix2 p q) = Y (ix2 ⟨1280 * n + p.val, h⟩ q))
    (r : Fin 10240) (q : Fin 128) (hr : r.val < 1280 * (n + 1)) (h : r.val < 10000) :
    arg8.view.read (Elt Ideal) (arg8.view.writes (Elt Ideal) (harg8.unread xs)
        [⟨Rect.unit (s := S10240x128) off S1280x128.size inb, P⟩]) (ix2 r q) = Y (ix2 ⟨r.val, h⟩ q) := by
  by_cases hlt : r.val < 1280 * n
  · rw [View.read_writes_apply_of_forall_not_mem, harg8.read_unread]
    · exact hxs r q hlt h
    · intro p hp
      rw [List.mem_singleton] at hp; subst hp
      rw [Rect.mem_set_unit]
      intro hall
      have := (hall 0).1
      rw [h0] at this
      exact absurd (show 1280 * n ≤ r.val from this) (Nat.not_le.mpr hlt)
  · have hp : r.val - 1280 * n < 1280 := by omega
    have e : (ix2 r q : S10240x128.Idx) = (Rect.unit (s := S10240x128) off S1280x128.size inb).emb (ix2 ⟨r.val - 1280 * n, hp⟩ q) := by
      funext a; apply Fin.ext
      match a with
      | ⟨0, _⟩ => show r.val = off 0 + 1 * (r.val - 1280 * n); rw [h0]; omega
      | ⟨1, _⟩ => show q.val = off 1 + 1 * q.val; rw [h1]; omega
    rw [e, View.read_writes_cons_emb]
    have h' : 1280 * n + (r.val - 1280 * n) < 10000 := by omega
    rw [hP ⟨r.val - 1280 * n, hp⟩ q h']
    congr 1
    funext a; apply Fin.ext
    match a with
    | ⟨0, _⟩ => show 1280 * n + (r.val - 1280 * n) = r.val; omega
    | ⟨1, _⟩ => rfl

/-! ## The grid, decided point by point

The grid is 2 × 8, the second coordinate fastest. The adjacency window's block index is the second coordinate, and so
is the output's on its row axis; both are cut at the last block (rows 8960 … 9999: 1040 rows), nowhere else. The other
inputs' blocks are the whole arrays. Phase 0's store starts at row 1280 times the second coordinate. Some branch of
the body runs at every point, so the output's staging buffer is written at every point. -/

theorem grid1_facts : ∀ t : Fin cfg1.N,
    win1_0.index t (0 : Fin 2) = t.val % 8 ∧ win1_0.index t (1 : Fin 2) = 0
    ∧ win1_0.xsize (grid1.coords t) (0 : Fin 2) = (if t.val % 8 = 7 then 1040 else 1280)
    ∧ win1_0.xsize (grid1.coords t) (1 : Fin 2) = 10000
    ∧ win1_5.xsize (grid1.coords t) (0 : Fin 3) = 1
    ∧ win1_5.xsize (grid1.coords t) (1 : Fin 3) = (if t.val % 8 = 7 then 1040 else 1280)
    ∧ win1_5.xsize (grid1.coords t) (2 : Fin 3) = 128
    ∧ k1_off1 (grid1.coords t) 0 = 1280 * (t.val % 8) ∧ k1_off1 (grid1.coords t) 1 = 0
    ∧ idle1 5 (grid1.coords t) = false :=
  (by decide +kernel : ∀ t : Fin grid1.N, _)

theorem grid1_whole : ∀ t : Fin cfg1.N,
    win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-! ## The blocks read off the arrays -/

/-- The projected features' window is the whole array. -/
theorem iblk1_1_eq (c : Dev nD) (t : Fin cfg1.N) : (iblk1 V c 1 t : S10000x128.Idx → EReal) = V c main_v6_0 := by
  obtain ⟨e0, e1, -⟩ := grid1_whole t
  funext j
  show V c main_v6_0 (((cfg1.win 1).blk t).view.emb j) = V c main_v6_0 j
  refine congrArg _ ?_
  funext a; apply Fin.ext
  match a with
  | ⟨0, _⟩ => show win1_1.index t (0 : Fin 2) * 10000 + 1 * (j 0).val = (j 0).val; rw [e0]; omega
  | ⟨1, _⟩ => show win1_1.index t (1 : Fin 2) * 128 + 1 * (j 1).val = (j 1).val; rw [e1]; omega

/-- The two bias rows' windows and the weights' window are the whole arrays. -/
theorem iblk1_2_eq (c : Dev nD) (t : Fin cfg1.N) : (iblk1 V c 2 t : S1x128.Idx → EReal) = V c main_v4 := by
  obtain ⟨-, -, e0, e1, -⟩ := grid1_whole t
  funext j
  show V c main_v4 (((cfg1.win 2).blk t).view.emb j) = V c main_v4 j
  refine congrArg _ ?_
  funext a; apply Fin.ext
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

theorem iblk1_3_eq (c : Dev nD) (t : Fin cfg1.N) : (iblk1 V c 3 t : S1x128.Idx → EReal) = V c main_v5 := by
  obtain ⟨-, -, -, -, e0, e1, -⟩ := grid1_whole t
  funext j
  show V c main_v5 (((cfg1.win 3).blk t).view.emb j) = V c main_v5 j
  refine congrArg _ ?_
  funext a; apply Fin.ext
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega

theorem iblk1_4_eq (c : Dev nD) (t : Fin cfg1.N) : (iblk1 V c 4 t : S128x128.Idx → EReal) = V c main_v2 := by
  obtain ⟨-, -, -, -, -, -, e0, e1⟩ := grid1_whole t
  funext j
  show V c main_v2 (((cfg1.win 4).blk t).view.emb j) = V c main_v2 j
  refine congrArg _ ?_
  funext a; apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- The staged adjacency block, on its rows inside the array, is the array's rows: row `p` of the block at a point whose
    second grid coordinate is `i` is row `1280 i + p` of the adjacency matrix, whatever fills the rows past the end. -/
theorem fill0_row (c : Dev nD) (t : Fin cfg1.N) (d : S1280x10000.Idx → EReal) (p : Fin 1280) (k : Fin 10000)
    (h : 1280 * (t.val % 8) + p.val < 10000) :
    win1_0.fill (grid1.coords t) d (iblk1 V c 0 t) (ix2 p k) = V c main_v6_1 (ix2 ⟨1280 * (t.val % 8) + p.val, h⟩ k) := by
  obtain ⟨e0, e1, x0, x1, -⟩ := grid1_facts t
  have hN : t.val < 16 := lt_of_lt_of_eq t.isLt N_1
  have hm : win1_0.moved (grid1.coords t) (ix2 p k) = true := by
    rw [Window.moved_iff]
    intro a
    match a with
    | ⟨0, _⟩ => show p.val < win1_0.xsize (grid1.coords t) (0 : Fin 2); rw [x0]; split <;> omega
    | ⟨1, _⟩ => show k.val < win1_0.xsize (grid1.coords t) (1 : Fin 2); rw [x1]; exact k.isLt
  unfold Window.fill
  rw [dif_pos hm]
  show V c main_v6_1 (((cfg1.win 0).blk t).view.emb _) = V c main_v6_1 _
  refine congrArg _ ?_
  funext a; apply Fin.ext
  match a with
  | ⟨0, _⟩ => show win1_0.index t (0 : Fin 2) * 1280 + 1 * p.val = 1280 * (t.val % 8) + p.val; rw [e0]; omega
  | ⟨1, _⟩ => show win1_0.index t (1 : Fin 2) * 10000 + 1 * k.val = k.val; rw [e1]; omega

/-! ## What the body finds, window by window -/

/-- The adjacency window is fetched at every point: its buffer holds the block on the rows inside the array, and on the
    rows past the array's end whatever the buffer held (`d`, any). -/
theorem before1V_0 (c : Dev nD) (t : Fin cfg1.N) (d) :
    (dat1V V c).before 0 t d = win1_0.fill (grid1.coords t) d (iblk1 V c 0 t) := by
  unfold Dat.before; rw [if_pos (fetch1_0 t)]
  unfold Dat.fetched Dat.blockOf iblk1; rw [A_eq1V]

/-- The other four inputs have constant block index: fetched at the first point, and the body leaves each block in
    place, so at every point the buffer holds the block. -/
theorem before1V_1 (c : Dev nD) (t : Fin cfg1.N) (d) : (dat1V V c).before 1 t d = iblk1 V c 1 t :=
  ((dat1V V c).before_in_eq_fetched 1 rfl (fun _ => rfl) (fun _ _ _ => rfl)
    (fun t => by rw [after1V_1]; unfold Dat.blockOf iblk1; rw [A_eq1V]) t d).trans
    (by unfold Dat.fetched Dat.blockOf iblk1; rw [A_eq1V]; try rfl)
theorem before1V_2 (c : Dev nD) (t : Fin cfg1.N) (d) : (dat1V V c).before 2 t d = iblk1 V c 2 t :=
  ((dat1V V c).before_in_eq_fetched 2 rfl (fun _ => rfl) (fun _ _ _ => rfl)
    (fun t => by rw [after1V_2]; unfold Dat.blockOf iblk1; rw [A_eq1V]) t d).trans
    (by unfold Dat.fetched Dat.blockOf iblk1; rw [A_eq1V]; try rfl)
theorem before1V_3 (c : Dev nD) (t : Fin cfg1.N) (d) : (dat1V V c).before 3 t d = iblk1 V c 3 t :=
  ((dat1V V c).before_in_eq_fetched 3 rfl (fun _ => rfl) (fun _ _ _ => rfl)
    (fun t => by rw [after1V_3]; unfold Dat.blockOf iblk1; rw [A_eq1V]) t d).trans
    (by unfold Dat.fetched Dat.blockOf iblk1; rw [A_eq1V]; try rfl)
theorem before1V_4 (c : Dev nD) (t : Fin cfg1.N) (d) : (dat1V V c).before 4 t d = iblk1 V c 4 t :=
  ((dat1V V c).before_in_eq_fetched 4 rfl (fun _ => rfl) (fun _ _ _ => rfl)
    (fun t => by rw [after1V_4]; unfold Dat.blockOf iblk1; rw [A_eq1V]) t d).trans
    (by unfold Dat.fetched Dat.blockOf iblk1; rw [A_eq1V]; try rfl)

/-! ## The invariant, opened at the scratch -/

/-- The scratch's factor is taken out of the chain of scoped buffers, and any other may be put in its place. -/
theorem scOthers1_open (c : Dev nD) (S S' G : sProp 𝕄) :
    iprop(scOthers1 c S ∗ G) ⊢ iprop(S ∗ (S' -∗ (scOthers1 c S' ∗ G))) := by
  iintro ⟨⟨H0, H1, H2, H3, H4, H5, H6, H7, H8, H9, H10, HS⟩, Hg⟩
  isplitl [HS]; · iexact HS
  iintro HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-- Before the first point nothing is asked of the scratch. -/
theorem ScrOk_zero (c : Dev nD) (xs : Vec Ideal S10240x128 .bf16) : ScrOk V c 0 xs := fun r q hr _ => by
  rw [Nat.zero_min, Nat.mul_zero] at hr; exact absurd hr (Nat.not_lt_zero _)

/-- The invariant before position `n` holds the scratch at contents right on the rows written so far; taken out, it may
    be put back at contents right on the rows written one point later, and the invariant before position `n + 1` holds. -/
theorem Phi1V_open (c : Dev nD) (n : ℕ) :
    Phi1V V c n ⊢ iprop((∃ xs, ⌜ScrOk V c n xs⌝ ∗ owns (c : Thread nD τ) (Memref.whole cc1_scratch0) fullShare xs)
      ∗ ((∃ ys, ⌜ScrOk V c (n + 1) ys⌝ ∗ owns (c : Thread nD τ) (Memref.whole cc1_scratch0) fullShare ys) -∗ Phi1V V c (n + 1))) := by
  cases n with
  | zero =>
    rw [Phi1V_zero, PhiA1_eq, Phi1V_succ]
    refine (scOthers1_open c _ iprop(∃ ys, ⌜ScrOk V c (0 + 1) ys⌝ ∗ owns (c : Thread nD τ) (Memref.whole cc1_scratch0) fullShare ys) _).trans ?_
    iintro ⟨⟨%xs, HS⟩, HK⟩
    isplitl [HS]
    · iexists xs; isplitr; · ipureintro; exact ScrOk_zero V c xs
      iexact HS
    iexact HK
  | succ n =>
    rw [Phi1V_succ, Phi1V_succ]
    exact scOthers1_open c _ _ _

/-! ## The scratch and the output block, point by point -/

/-- Phase 1 reads the scratch's first 10000 rows: once all eight blocks are written, the third layer's input. -/
theorem ld_scrTop_eq (c : Dev nD) (n : ℕ) (hn : 8 ≤ n) (xs : Vec Ideal S10240x128 .bf16) (hxs : ScrOk V c n xs) :
    (View.ld xs scrTop : Vec Ideal S10000x128 .bf16) = y3M V c := by
  funext (j : S10000x128.Idx)
  obtain ⟨p, q, rfl⟩ : ∃ (p : Fin 10000) (q : Fin 128), j = ix2 p q := ⟨j 0, j 1, eq_ix2 j⟩
  have hp : p.val < 10000 := p.isLt
  have hr : p.val < 10240 := by omega
  have key := hxs ⟨p.val, hr⟩ q (by show p.val < 1280 * min n 8; rw [Nat.min_eq_right hn]; omega) hp
  have e : (scrTop.toLoadRect.idx (ix2 p q : S10000x128.Idx) : S10240x128.Idx) = ix2 ⟨p.val, hr⟩ q := by
    funext a; apply Fin.ext
    match a with
    | ⟨0, _⟩ => show 0 + 1 * p.val = p.val; omega
    | ⟨1, _⟩ => show 0 + 1 * q.val = q.val; omega
  show xs (scrTop.toLoadRect.idx (ix2 p q : S10000x128.Idx)) = y3M V c (ix2 p q)
  rw [e, key]

/-- An index of the part of the output block that the write-back at point `t` moves: leading coordinate 0, a row inside
    the array, any column. -/
theorem xinj5 (t : Fin cfg1.N) (j : (win1_5.xblock (grid1.coords t)).Idx) :
    ∃ (p : Fin 1280) (q : Fin 128), 1280 * (t.val % 8) + p.val < 10000 ∧ win1_5.xinj (grid1.coords t) j = ix3 0 p q := by
  obtain ⟨-, -, -, -, y0, y1, y2, -⟩ := grid1_facts t
  have h0 : (j 0).val < win1_5.xsize (grid1.coords t) (0 : Fin 3) := (j 0).isLt
  have h1 : (j 1).val < win1_5.xsize (grid1.coords t) (1 : Fin 3) := (j 1).isLt
  have h2 : (j 2).val < win1_5.xsize (grid1.coords t) (2 : Fin 3) := (j 2).isLt
  rw [y0] at h0; rw [y1] at h1; rw [y2] at h2
  have hp : (j 1).val < 1280 ∧ 1280 * (t.val % 8) + (j 1).val < 10000 := by split at h1 <;> omega
  refine ⟨⟨(j 1).val, hp.1⟩, ⟨(j 2).val, h2⟩, hp.2, ?_⟩
  funext a; apply Fin.ext
  match a with
  | ⟨0, _⟩ => show (j 0).val = 0; omega
  | ⟨1, _⟩ => rfl
  | ⟨2, _⟩ => rfl

/-- Phase 1 at point `t`: on the part of the output block that is written back, the body's stored value is the
    output's rows of block `t - 8`. -/
theorem cut5_phase1 (c : Dev nD) (t : Fin cfg1.N) (ht : 8 ≤ t.val) (d0 : S1280x10000.Idx → EReal)
    (xs : Vec Ideal S10240x128 .bf16) (hxs : ScrOk V c t.val xs) :
    win1_5.cut (grid1.coords t) (k1_pay3 (F := Ideal) (win1_0.fill (grid1.coords t) d0 (iblk1 V c 0 t)) (View.ld xs scrTop) (iblk1 V c 3 t))
      = win1_5.cut (grid1.coords t) (out1V V c t) := by
  funext j
  obtain ⟨p, q, hp, e⟩ := xinj5 t j
  have hN : t.val < 16 := lt_of_lt_of_eq t.isLt N_1
  show k1_pay3 (F := Ideal) _ _ _ (win1_5.xinj (grid1.coords t) j) = out1V V c t (win1_5.xinj (grid1.coords t) j)
  rw [e, out_block_eq (V c main_v6_1) (y3M V c) (iblk1 V c 3 t) _ _ (ld_scrTop_eq V c t.val ht xs hxs) (t.val % 8) p q hp
    (fun k => fill0_row V c t d0 p k hp)]
  unfold out1V
  rw [if_neg (Nat.not_lt.mpr ht)]
  have hp' : 1280 * (t.val - 8) + p.val < 10000 := by omega
  show _ = if h : 1280 * (t.val - 8) + p.val < 10000 then outM V c (ix2 ⟨_, h⟩ q) else 0
  rw [dif_pos hp']
  unfold outM
  rw [iblk1_3_eq]
  refine congrArg _ ?_
  funext a; apply Fin.ext
  match a with
  | ⟨0, _⟩ => show 1280 * (t.val % 8) + p.val = 1280 * (t.val - 8) + p.val; omega
  | ⟨1, _⟩ => rfl

/-- Phase 0 at point `t`: the scratch after the body's store is right on the rows of the first `t + 1` blocks. -/
theorem scr_phase0 (c : Dev nD) (t : Fin cfg1.N) (ht : t.val < 8) (hc1 : k1_cond1 (grid1.coords t) = 1#1)
    (d0 : S1280x10000.Idx → EReal) (xs : Vec Ideal S10240x128 .bf16) (hxs : ScrOk V c t.val xs) :
    ScrOk V c (t.val + 1) ((Memref.whole cc1_scratch0 : Memref sig .tc .vmem S10240x128 .bf16).view.read (Elt Ideal)
      ((Memref.whole cc1_scratch0 : Memref sig .tc .vmem S10240x128 .bf16).view.writes (Elt Ideal) ((Memref.isWhole_whole _).unread xs)
        [⟨scrRect (grid1.coords t) hc1, k1_pay1 (F := Ideal) (win1_0.fill (grid1.coords t) d0 (iblk1 V c 0 t)) (iblk1 V c 1 t) (iblk1 V c 2 t) (iblk1 V c 4 t)⟩])) := by
  obtain ⟨-, -, -, -, -, -, -, o0, o1, -⟩ := grid1_facts t
  have hm : t.val % 8 = t.val := Nat.mod_eq_of_lt ht
  rw [hm] at o0
  intro r q hr h
  rw [Nat.min_eq_left (by omega)] at hr
  refine scr_after (Memref.whole cc1_scratch0) (Memref.isWhole_whole _) xs (k1_off1 (grid1.coords t)) (k1_off1_inb (grid1.coords t) hc1)
    _ t.val o0 o1 (y3M V c) (fun r q hr h => hxs r q (by rw [Nat.min_eq_left (by omega)]; exact hr) h) (fun p q h => ?_) r q hr h
  have h' : 1280 * (t.val % 8) + p.val < 10000 := by rw [hm]; exact h
  have key := scr_block_eq (V c main_v6_1) (iblk1 V c 1 t) (iblk1 V c 2 t) (iblk1 V c 4 t)
    (win1_0.fill (grid1.coords t) d0 (iblk1 V c 0 t)) (t.val % 8) p q h' (fun k => fill0_row V c t d0 p k h')
  rw [key]
  unfold y3M
  rw [iblk1_1_eq, iblk1_2_eq, iblk1_4_eq]
  refine congrArg _ ?_
  funext a; apply Fin.ext
  match a with
  | ⟨0, _⟩ => show 1280 * (t.val % 8) + p.val = 1280 * t.val + p.val; rw [hm]
  | ⟨1, _⟩ => rfl

/-- Phase 1 leaves the scratch alone, and all eight blocks are written. -/
theorem scr_phase1 (c : Dev nD) (n : ℕ) (hn : 8 ≤ n) (xs : Vec Ideal S10240x128 .bf16) (hxs : ScrOk V c n xs) :
    ScrOk V c (n + 1) xs := fun r q hr h => by
  rw [Nat.min_eq_right (by omega)] at hr
  exact hxs r q (by rw [Nat.min_eq_right hn]; exact hr) h

/-! ## The body obligation -/

/-- The body obligation of the tail region. At every point the five inputs' buffers hold their blocks (the cut one filled
    out with whatever it held), the output's buffer anything, the scratch contents right on the rows written so far.
    In phase 0 the body stores this block's rows of the third layer's input into the scratch and zeros into the output
    block; in phase 1 it reads the scratch, now right on all its rows inside the array, and stores this block's rows of
    the output. It leaves the inputs as it found them; of the two cut windows only the rows inside the array are asked. -/
theorem body_obligation1V (c : Dev nD) : BodyObligationLoose (dat1V V c) (defs₀ (F := Ideal)) Variants.none () Set.univ := fun t => by
  rw [bigSep_W1, bigSep_W1]
  simp only
  rw [(grid1_facts t).2.2.2.2.2.2.2.2.2]
  simp only
  rw [show (dat1V V c).Φ t.succ = Phi1V V c (t.val + 1) from rfl,
    show (dat1V V c).Φ t.castSucc = Phi1V V c t.val from (by dsimp only [dat1V]; simp only [Fin.coe_castSucc]),
    show (dat1V V c).owesAt () t.succ = (dat1V V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before1V_0 V c t d0, before1V_1 V c t d1, before1V_2 V c t d2, before1V_3 V c t d3, before1V_4 V c t d4]
  ihave HΦ' := Phi1V_open V c t.val $$ HΦ
  icases HΦ' with ⟨⟨%xs, %hxs, HS⟩, Hclose⟩
  have hph := phase1 t
  by_cases h : t.val < 8
  · have hc1 : k1_cond1 (grid1.coords t) = 1#1 := hph.1.mpr h
    have hc2 : ¬ k1_cond2 (grid1.coords t) = 1#1 := fun e => absurd (hph.2.mp e) (Nat.not_le.mpr h)
    iapply (run1_phase0 (F := Ideal) c Set.univ (grid1.coords t) hc1 hc2
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (win1_0.fill (grid1.coords t) d0 (iblk1 V c 0 t)) (iblk1 V c 1 t) (iblk1 V c 2 t) (iblk1 V c 3 t) (iblk1 V c 4 t) xs _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hclose HS]
    · iapply Hclose
      iexists _; isplitr; · ipureintro; exact scr_phase0 V c t h hc1 d0 xs hxs
      iexact HS
    isplitl [Ho]; · iexact Ho
    isplitl [H0]
    · iexists d0; rw [after1V_0, Window.cut_fill]; iexact H0
    isplitl [H1]; · rw [after1V_1]; iexact H1
    isplitl [H2]; · rw [after1V_2]; iexact H2
    isplitl [H3]; · rw [after1V_3]; iexact H3
    isplitl [H4]; · rw [after1V_4]; iexact H4
    -- the output block holds zeros, which is what the proof data names in phase 0
    iexists (k1_pay2 (F := Ideal))
    rw [after1V_5, show out1V V c t = k1_pay2 (F := Ideal) from (by unfold out1V; rw [if_pos h, k1_pay2_eq]), Window.fill_cut]
    iexact H5
  · have hc1 : ¬ k1_cond1 (grid1.coords t) = 1#1 := fun e => h (hph.1.mp e)
    have hc2 : k1_cond2 (grid1.coords t) = 1#1 := hph.2.mpr (Nat.le_of_not_lt h)
    iapply (run1_phase1 (F := Ideal) c Set.univ (grid1.coords t) hc1 hc2
      (win1_0.stage (cfg1.slots t 0)) (hstage1_0 ((cfg1.slots t 0).cast nbuf1_0))
      (win1_1.stage (cfg1.slots t 1)) (hstage1_1 ((cfg1.slots t 1).cast nbuf1_1))
      (win1_2.stage (cfg1.slots t 2)) (hstage1_2 ((cfg1.slots t 2).cast nbuf1_2))
      (win1_3.stage (cfg1.slots t 3)) (hstage1_3 ((cfg1.slots t 3).cast nbuf1_3))
      (win1_4.stage (cfg1.slots t 4)) (hstage1_4 ((cfg1.slots t 4).cast nbuf1_4))
      (win1_5.stage (cfg1.slots t 5)) (hstage1_5 ((cfg1.slots t 5).cast nbuf1_5))
      (Memref.whole cc1_scratch0) (Memref.isWhole_whole _)
      (win1_0.fill (grid1.coords t) d0 (iblk1 V c 0 t)) (iblk1 V c 1 t) (iblk1 V c 2 t) (iblk1 V c 3 t) (iblk1 V c 4 t) xs _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [Hclose HS]
    · iapply Hclose
      iexists _; isplitr; · ipureintro; exact scr_phase1 V c t.val (Nat.le_of_not_lt h) xs hxs
      iexact HS
    isplitl [Ho]; · iexact Ho
    isplitl [H0]
    · iexists d0; rw [after1V_0, Window.cut_fill]; iexact H0
    isplitl [H1]; · rw [after1V_1]; iexact H1
    isplitl [H2]; · rw [after1V_2]; iexact H2
    isplitl [H3]; · rw [after1V_3]; iexact H3
    isplitl [H4]; · rw [after1V_4]; iexact H4
    -- on the rows that are written back the stored block is the output's rows
    iexists (k1_pay3 (F := Ideal) (win1_0.fill (grid1.coords t) d0 (iblk1 V c 0 t)) (View.ld xs scrTop) (iblk1 V c 3 t))
    rw [after1V_5]
    change _ ⊢ owns (Val := Elt Ideal) (c : Thread nD τ) (stage1_5 (cfg1.slots t 5)) fullShare
      (win1_5.fill (grid1.coords t) (k1_pay3 (F := Ideal) (win1_0.fill (grid1.coords t) d0 (iblk1 V c 0 t)) (View.ld xs scrTop) (iblk1 V c 3 t))
        (win1_5.cut (grid1.coords t) (out1V V c t)))
    rw [win1_5.fill_congr_cut (grid1.coords t) (cut5_phase1 V c t (Nat.le_of_not_lt h) d0 xs hxs)]
    try iexact H5

/-- What the launch hands the region is the invariant before the first point. -/
theorem hin1V (c : Dev nD) : Pipeline.ΦA spec1 c ⊢ (dat1V V c).Φ 0 := by
  rw [show (dat1V V c).Φ 0 = Phi1V V c 0 from rfl, Phi1V_zero]

/-- After the last point the invariant gives it back: what the scratch holds is forgotten. -/
theorem hout1V (c : Dev nD) : (dat1V V c).Φ (Fin.last cfg1.N) ⊢ Pipeline.ΦA spec1 c := by
  have hN : (Fin.last cfg1.N).val = 15 + 1 := by rw [Fin.val_last]; exact N_1
  rw [show (dat1V V c).Φ (Fin.last cfg1.N) = Phi1V V c (Fin.last cfg1.N).val from rfl, hN, Phi1V_succ, PhiA1_eq]
  refine (scOthers1_open c _ iprop(∃ xs, owns (c : Thread nD τ) (Memref.whole cc1_scratch0) fullShare xs) _).trans ?_
  iintro ⟨⟨%xs, -, HS⟩, HK⟩
  iapply HK
  iexists xs; iexact HS

end Cert.KernelIdeal.Hand

end
-- ==== Proof.Values0KI.lean ====
/-
  What the first layer's region leaves in its two output arrays, over the extended reals.

  The region walks the adjacency matrix in 25 blocks of 400 rows.  At block `t` it stores the block itself
  into the second output, and into the first output the block's rows of
  `relu (adj · (x · W₁) + b₁) · Wₐ`.  A row of a matrix product depends on the left factor only through
  that row, so each stored block is the same rows of ONE whole-array function; 25 · 400 = 10000, so the
  blocks tile both arrays and after the last point the arrays hold those functions.
-/
import proofs.«115004_g2345052143907_cont_sun_c4_577_23_alg».proof.Proof.Gen.KernelIdeal.Launch
import proofs.«115004_g2345052143907_cont_sun_c4_577_23_alg».proof.Proof.Gen.KernelIdeal.Skeleton
import proofs.«115004_g2345052143907_cont_sun_c4_577_23_alg».proof.Proof.Gen.KernelIdeal.Points
import proofs.«115004_g2345052143907_cont_sun_c4_577_23_alg».proof.Proof.LibWhole
import proofs.«115004_g2345052143907_cont_sun_c4_577_23_alg».proof.Proof.Region0KI
import proofs.«115004_g2345052143907_cont_sun_c4_577_23_alg».proof.Proof.PayloadsKI
import proofs.«115004_g2345052143907_cont_sun_c4_577_23_alg».proof.Proof.Spec
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- The first output array after the region: `relu (adj · (x · W₁) + b₁) · Wₐ`, all 10000 rows. -/
def y2M (c : Dev nD) : Cert.Spec.Mat 10000 128 :=
  Cert.Spec.mm (Cert.Spec.biasRelu (Cert.Spec.mm (V c main_arg0) (Cert.Spec.mm (V c main_arg1) (V c main_v0))) (brow (V c main_v3))) (V c main_v1)

/-! ## The block indices over the grid -/

/-- The adjacency window and the two output windows sit at block row `t` at point `t`; every other window's block is
    its whole array, at block index zero. -/
theorem blockIdx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## One hidden layer, row by row -/

/-- A row of `relu (A · Y + b) · W` depends on `A` only through that row. -/
theorem hidden_row_congr {M M' K N N' : Nat} (A : Cert.Spec.Mat M K) (A' : Cert.Spec.Mat M' K) (Y : Cert.Spec.Mat K N)
    (bb : Cert.Spec.Vec1 N) (W : Cert.Spec.Mat N N') (p : Fin M) (p' : Fin M') (q : Fin N')
    (h : ∀ k : Fin K, A (ix2 p k) = A' (ix2 p' k)) :
    Cert.Spec.mm (Cert.Spec.biasRelu (Cert.Spec.mm A Y) bb) W (ix2 p q)
      = Cert.Spec.mm (Cert.Spec.biasRelu (Cert.Spec.mm A' Y) bb) W (ix2 p' q) := by
  refine Cert.Spec.mm_row_congr _ _ W p p' q fun k => ?_
  show max (Cert.Spec.mm A Y (ix2 p k) + bb (ix1 k)) 0 = max (Cert.Spec.mm A' Y (ix2 p' k) + bb (ix1 k)) 0
  rw [Cert.Spec.mm_row_congr A A' Y p p' k h]

/-! ## The input blocks, read off their arrays -/

/-- The adjacency window's block at point `t` is rows `400 t … 400 t + 399` of the adjacency matrix. -/
theorem adjBlock_apply (c : Dev nD) (t : Fin cfg0.N) (y : S400x10000.Idx) (i : S10000x10000.Idx)
    (h0 : (i 0).val = t.val * 400 + (y 0).val) (h1 : (i 1).val = (y 1).val) :
    (iblk0 V c 2 t : S400x10000.Idx → EReal) y = (V c main_arg0 : S10000x10000.Idx → EReal) i := by
  obtain ⟨-, -, -, -, e0, e1, -⟩ := blockIdx0 t
  unfold iblk0
  rw [View.read_apply]
  show V c main_arg0 _ = V c main_arg0 i
  congr 1
  funext a
  apply Fin.ext
  match a with
  | ⟨0, _⟩ => show win0_2.index t (0 : Fin 2) * 400 + 1 * (y 0).val = (i 0).val; omega
  | ⟨1, _⟩ => show win0_2.index t (1 : Fin 2) * 10000 + 1 * (y 1).val = (i 1).val; omega

/-- The features' window holds the whole feature matrix at every point. -/
theorem featBlock_eq (c : Dev nD) (t : Fin cfg0.N) :
    (iblk0 V c 0 t : S10000x128.Idx → EReal) = (V c main_arg1 : S10000x128.Idx → EReal) := by
  obtain ⟨e0, e1, -⟩ := blockIdx0 t
  funext y
  unfold iblk0
  rw [View.read_apply]
  show V c main_arg1 _ = V c main_arg1 y
  congr 1
  funext a
  apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The first weights' window holds the whole weight matrix at every point. -/
theorem w1Block_eq (c : Dev nD) (t : Fin cfg0.N) :
    (iblk0 V c 1 t : S128x128.Idx → EReal) = (V c main_v0 : S128x128.Idx → EReal) := by
  obtain ⟨-, -, e0, e1, -⟩ := blockIdx0 t
  funext y
  unfold iblk0
  rw [View.read_apply]
  show V c main_v0 _ = V c main_v0 y
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias window holds the whole bias row at every point. -/
theorem biasBlock_eq (c : Dev nD) (t : Fin cfg0.N) :
    (iblk0 V c 3 t : S1x128.Idx → EReal) = (V c main_v3 : S1x128.Idx → EReal) := by
  obtain ⟨-, -, -, -, -, -, e0, e1, -⟩ := blockIdx0 t
  funext y
  unfold iblk0
  rw [View.read_apply]
  show V c main_v3 _ = V c main_v3 y
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The next weights' window holds the whole weight matrix at every point. -/
theorem waBlock_eq (c : Dev nD) (t : Fin cfg0.N) :
    (iblk0 V c 4 t : S128x128.Idx → EReal) = (V c main_v1 : S128x128.Idx → EReal) := by
  obtain ⟨-, -, -, -, -, -, -, -, e0, e1, -⟩ := blockIdx0 t
  funext y
  unfold iblk0
  rw [View.read_apply]
  show V c main_v1 _ = V c main_v1 y
  congr 1
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-! ## What one point stores, as rows of the whole arrays -/

/-- The first output's block at a point whose adjacency block is rows `r …` of the adjacency matrix: row `p` of the block
    is row `r + p` of `relu (adj · (x · W₁) + b₁) · Wₐ`. -/
theorem hiddenBlock_apply (adj : Vec Ideal S10000x10000 .f32) (x : Vec Ideal S10000x128 .f32) (w1 : Vec Ideal S128x128 .bf16)
    (b : Vec Ideal S1x128 .f32) (wa : Vec Ideal S128x128 .bf16) (a : Vec Ideal S400x10000 .f32) (r : Nat)
    (ha : ∀ (y : S400x10000.Idx) (i : S10000x10000.Idx), (i 0).val = r + (y 0).val → (i 1).val = (y 1).val → a y = adj i)
    (j : S400x128.Idx) (i : S10000x128.Idx) (h0 : (i 0).val = r + (j 0).val) (h1 : (i 1).val = (j 1).val) :
    k0_pay3 (F := Ideal) a (k0_pay1 (F := Ideal) x w1) b wa j
      = Cert.Spec.mm (Cert.Spec.biasRelu (Cert.Spec.mm adj (Cert.Spec.mm x w1)) (brow b)) wa i := by
  rw [k0_pay3_eq, k0_pay1_eq]
  obtain ⟨p, q, rfl⟩ : ∃ (p : Fin 400) (q : Fin 128), j = ix2 p q := ⟨j 0, j 1, eq_ix2 j⟩
  obtain ⟨p', q', rfl⟩ : ∃ (p' : Fin 10000) (q' : Fin 128), i = ix2 p' q' := ⟨i 0, i 1, eq_ix2 i⟩
  have hq : q' = q := Fin.ext h1
  subst hq
  exact hidden_row_congr a adj _ _ wa p p' q' fun k => ha (ix2 p k) (ix2 p' k) h0 rfl

/-- What point `t` writes back into the first output is block `t` of the whole-array function. -/
theorem flushed0_5_eq (c : Dev nD) (t : Fin cfg0.N) :
    (dat0 (F := Ideal) V c).flushed 5 t = ((cfg0.win 5).blk t).view.read (Elt Ideal) (y2M V c) := by
  show (cfg0.win 5).cut (grid0.coords t) ((dat0 V c).after 5 t) = _
  rw [after0_5]
  obtain ⟨-, -, -, -, -, -, -, -, -, -, e0, e1, -⟩ := blockIdx0 t
  funext j
  rw [View.read_apply]
  show (out0_5 V c t : S400x128.Idx → EReal) j = y2M V c (((cfg0.win 5).blk t).view.emb j)
  unfold out0_5 y1 y2M
  rw [featBlock_eq, w1Block_eq, biasBlock_eq, waBlock_eq]
  refine hiddenBlock_apply (V c main_arg0) (V c main_arg1) (V c main_v0) (V c main_v3) (V c main_v1) (iblk0 V c 2 t) (t.val * 400)
    (fun y i h0 h1 => adjBlock_apply V c t y i h0 h1) j _ ?_ ?_
  · show win0_5.index t (0 : Fin 2) * 400 + 1 * (j 0).val = t.val * 400 + (j 0).val; omega
  · show win0_5.index t (1 : Fin 2) * 128 + 1 * (j 1).val = (j 1).val; omega

/-- What point `t` writes back into the second output is block `t` of the adjacency matrix. -/
theorem flushed0_6_eq (c : Dev nD) (t : Fin cfg0.N) :
    (dat0 (F := Ideal) V c).flushed 6 t = ((cfg0.win 6).blk t).view.read (Elt Ideal) (V c main_arg0 : S10000x10000.Idx → EReal) := by
  show (cfg0.win 6).cut (grid0.coords t) ((dat0 V c).after 6 t) = _
  rw [after0_6]
  obtain ⟨-, -, -, -, -, -, -, -, -, -, -, -, e0, e1⟩ := blockIdx0 t
  funext j
  rw [View.read_apply]
  show (out0_6 V c t : S400x10000.Idx → EReal) j = (V c main_arg0 : S10000x10000.Idx → EReal) (((cfg0.win 6).blk t).view.emb j)
  unfold out0_6
  rw [k0_pay2_eq]
  refine adjBlock_apply V c t j _ ?_ ?_
  · show win0_6.index t (0 : Fin 2) * 400 + 1 * (j 0).val = t.val * 400 + (j 0).val; omega
  · show win0_6.index t (1 : Fin 2) * 10000 + 1 * (j 1).val = (j 1).val; omega

/-! ## The blocks tile the arrays -/

/-- An index of the first output is in point `t`'s block iff each coordinate is in the block's range on its axis. -/
theorem mem_blk0_5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v6_0).slice (win0_5.rect t)).set ↔ _
  rw [View.set_slice_whole, Rect.mem_set_unit]
  exact Iff.rfl

/-- The same for the second output. -/
theorem mem_blk0_6 (t : Fin cfg0.N) (i : S10000x10000.Idx) :
    i ∈ ((cfg0.win 6).blk t).view.set ↔ ∀ a : Fin 2, win0_6.index t a * S400x10000.size a ≤ (i a).val ∧ (i a).val < win0_6.index t a * S400x10000.size a + S400x10000.size a := by
  show i ∈ ((View.whole main_v6_1).slice (win0_6.rect t)).set ↔ _
  rw [View.set_slice_whole, Rect.mem_set_unit]
  exact Iff.rfl

/-- Row `r` of the first output lies in the block of point `r / 400`: 25 blocks of 400 rows are all 10000 rows. -/
theorem cover0_5 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  refine ⟨t, flush0_5 t, ?_⟩
  rw [mem_blk0_5]
  obtain ⟨-, -, -, -, -, -, -, -, -, -, e0, e1, -⟩ := blockIdx0 t
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- The same for the second output. -/
theorem cover0_6 (i : S10000x10000.Idx) :
    ∃ t : Fin cfg0.N, (cfg0.win 6).flush t = true ∧ i ∈ ((cfg0.win 6).blk t).view.set := by
  have hi0 : (i 0).val < 10000 := (i 0).isLt
  have hi1 : (i 1).val < 10000 := (i 1).isLt
  have hN : cfg0.N = 25 := N_0
  obtain ⟨t, ht⟩ : ∃ t : Fin cfg0.N, t.val = (i 0).val / 400 := ⟨⟨(i 0).val / 400, by rw [hN]; omega⟩, rfl⟩
  refine ⟨t, flush0_6 t, ?_⟩
  rw [mem_blk0_6]
  obtain ⟨-, -, -, -, -, -, -, -, -, -, -, -, e0, e1⟩ := blockIdx0 t
  intro a
  match a with
  | ⟨0, _⟩ => show win0_6.index t (0 : Fin 2) * 400 ≤ (i 0).val ∧ (i 0).val < win0_6.index t (0 : Fin 2) * 400 + 400; omega
  | ⟨1, _⟩ => show win0_6.index t (1 : Fin 2) * 10000 ≤ (i 1).val ∧ (i 1).val < win0_6.index t (1 : Fin 2) * 10000 + 10000; omega

/-! ## The arrays after the region -/

/-- The first output after the region: `relu (adj · (x · W₁) + b₁) · Wₐ`. -/
theorem arrAt0_5 (c : Dev nD) : (dat0 (F := Ideal) V c).arrAt 5 cfg0.N = y2M V c :=
  (dat0 (F := Ideal) V c).arrAt_eq_of_cover 5 (y2M V c) (fun t _ => flushed0_5_eq V c t) cover0_5

/-- The second output after the region: the adjacency matrix. -/
theorem arrAt0_6 (c : Dev nD) : (dat0 (F := Ideal) V c).arrAt 6 cfg0.N = V c main_arg0 :=
  (dat0 (F := Ideal) V c).arrAt_eq_of_cover 6 (V c main_arg0 : S10000x10000.Idx → EReal) (fun t _ => flushed0_6_eq V c t) cover0_6

end Cert.KernelIdeal.Hand

end
-- ==== Proof.Values1KI.lean ====
/-
  What the tail region leaves in its output array, over the extended reals.

  The region's grid is 2 × 8, the second coordinate fastest: point `t` is in phase `t / 8` and works on row block
  `t % 8`.  Its output window carries the block of 1280 rows at rows `1280 · (t % 8)` of plane `t / 8` of a
  `2 × 10000 × 128` array; 8 · 1280 = 10240 > 10000, so the last block of each plane overhangs the array by 240 rows and
  only its first 1040 rows are written back.  In phase 0 every row written is zero; in phase 1 the rows written are the
  same rows of `relu (adj · y3 + b2)`.  Every row of either plane lies in exactly one block's written part, so after the
  last point plane 0 is zero and plane 1 holds `relu (adj · y3 + b2)`.
-/
import proofs.«115004_g2345052143907_cont_sun_c4_577_23_alg».proof.Proof.Gen.KernelIdeal.Launch
import proofs.«115004_g2345052143907_cont_sun_c4_577_23_alg».proof.Proof.Gen.KernelIdeal.Skeleton
import proofs.«115004_g2345052143907_cont_sun_c4_577_23_alg».proof.Proof.Gen.KernelIdeal.Points
import proofs.«115004_g2345052143907_cont_sun_c4_577_23_alg».proof.Proof.LibWhole
import proofs.«115004_g2345052143907_cont_sun_c4_577_23_alg».proof.Proof.Region1ValueKI
import proofs.«115004_g2345052143907_cont_sun_c4_577_23_alg».proof.Proof.Spec
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Ideal) ((c : Thread nD τ).loc b))

/-- What the array ends holding: plane 0 all zero, plane 1 the network's output. -/
def arrOut1 (c : Dev nD) : S2x10000x128.Idx → EReal :=
  fun j => if (j 0).val = 0 then (0 : EReal) else outM V c (ix2 (j 1) (j 2))

theorem N1_16 : cfg1.N = 16 := N_1

/-- What point `t` leaves at block coordinate `j` is the array function at the index with plane `t / 8`, row
    `1280 · (t % 8) + j₁` and lane `j₂`: in phase 0 both are zero; in phase 1 the row is inside the array because
    the index is one of the array's. -/
theorem out1V_eq_arrOut1 (c : Dev nD) (t : Fin cfg1.N) (j : S1x1280x128.Idx) (i : S2x10000x128.Idx)
    (h0 : (i 0).val = t.val / 8) (h1 : (i 1).val = 1280 * (t.val % 8) + (j 1).val) (h2 : (i 2).val = (j 2).val) :
    out1V V c t j = arrOut1 V c i := by
  have ht : t.val < 16 := lt_of_lt_of_eq t.isLt N1_16
  have hi1 : (i 1).val < 10000 := (i 1).isLt
  unfold out1V arrOut1
  by_cases h : t.val < 8
  · rw [if_pos h, if_pos (by rw [h0]; omega)]
  · rw [if_neg h, if_neg (by rw [h0]; omega)]
    have hb : 1280 * (t.val - 8) + (j 1).val < 10000 := by omega
    show (if h : 1280 * (t.val - 8) + (j 1).val < 10000 then outM V c (ix2 ⟨_, h⟩ (j 2)) else 0) = _
    rw [dif_pos hb]
    refine congrArg (outM V c) (Shape.idx_ext₂ ?_ ?_)
    · show 1280 * (t.val - 8) + (j 1).val = (i 1).val
      omega
    · exact h2.symm

/-- The output window's block index at point `t`: plane `t / 8`, row block `t % 8`, lane block 0. -/
theorem idx1_5 : ∀ t : Fin cfg1.N, win1_5.index t 0 = t.val / 8 ∧ win1_5.index t 1 = t.val % 8 ∧ win1_5.index t 2 = 0 :=
  (by decide +kernel : ∀ t : Fin grid1.N, win1_5.index t 0 = t.val / 8 ∧ win1_5.index t 1 = t.val % 8 ∧ win1_5.index t 2 = 0)

/-- How much of the block the write-back at point `t` moves: the one plane, all 128 lanes, and 1280 rows except at the
    last row block, where the array ends after 1040. -/
theorem xsize1_5 : ∀ t : Fin cfg1.N, win1_5.xsize (grid1.coords t) 0 = 1
    ∧ win1_5.xsize (grid1.coords t) 1 = (if t.val % 8 = 7 then 1040 else 1280) ∧ win1_5.xsize (grid1.coords t) 2 = 128 :=
  (by decide +kernel : ∀ t : Fin grid1.N, win1_5.xsize (grid1.coords t) 0 = 1
    ∧ win1_5.xsize (grid1.coords t) 1 = (if t.val % 8 = 7 then 1040 else 1280) ∧ win1_5.xsize (grid1.coords t) 2 = 128)

/-- What point `t` writes back is its block of `arrOut1`. -/
theorem flushed1_5 (c : Dev nD) (t : Fin cfg1.N) :
    (dat1V V c).flushed 5 t = ((cfg1.win 5).blk t).view.read (Elt Ideal) (arrOut1 V c) := by
  show (cfg1.win 5).cut (grid1.coords t) ((dat1V V c).after 5 t) = _
  rw [after1V_5]
  funext y
  obtain ⟨e0, e1, e2⟩ := idx1_5 t
  obtain ⟨s0, s1, s2⟩ := xsize1_5 t
  have y0 : (y 0).val < win1_5.xsize (grid1.coords t) 0 := (y 0).isLt
  show out1V V c t (win1_5.xinj (grid1.coords t) y) = arrOut1 V c (((cfg1.win 5).blk t).view.emb y)
  refine out1V_eq_arrOut1 V c t _ _ ?_ ?_ ?_
  · show win1_5.index t 0 * 1 + 1 * (y 0).val = t.val / 8
    omega
  · show win1_5.index t 1 * 1280 + 1 * (y 1).val = 1280 * (t.val % 8) + (y 1).val
    omega
  · show win1_5.index t 2 * 128 + 1 * (y 2).val = (y 2).val
    omega

/-- An index of the array is in point `t`'s block iff each coordinate is in the written part's range on its axis. -/
theorem mem_blk1_5 (t : Fin cfg1.N) (i : S2x10000x128.Idx) :
    i ∈ ((cfg1.win 5).blk t).view.set ↔ ∀ a : Fin 3, win1_5.index t a * S1x1280x128.size a ≤ (i a).val
      ∧ (i a).val < win1_5.index t a * S1x1280x128.size a + win1_5.xsize (grid1.coords t) a := by
  show i ∈ ((View.whole main_v7).slice (win1_5.rect t)).set ↔ _
  rw [View.set_slice_whole, Rect.mem_set_unit]
  exact Iff.rfl

/-- An index whose plane is `t / 8` and whose row lies in row block `t % 8` is in the written part of point `t`'s
    block: the last row block's written part ends where the array does. -/
theorem mem_blk1_5_of (t : Fin cfg1.N) (i : S2x10000x128.Idx) (hp : t.val / 8 = (i 0).val) (hr : t.val % 8 = (i 1).val / 1280) :
    i ∈ ((cfg1.win 5).blk t).view.set := by
  have hi1 : (i 1).val < 10000 := (i 1).isLt
  have hi2 : (i 2).val < 128 := (i 2).isLt
  obtain ⟨e0, e1, e2⟩ := idx1_5 t
  obtain ⟨s0, s1, s2⟩ := xsize1_5 t
  rw [mem_blk1_5]
  intro a
  match a with
  | ⟨0, _⟩ =>
    show win1_5.index t 0 * 1 ≤ (i 0).val ∧ (i 0).val < win1_5.index t 0 * 1 + win1_5.xsize (grid1.coords t) 0
    omega
  | ⟨1, _⟩ =>
    show win1_5.index t 1 * 1280 ≤ (i 1).val ∧ (i 1).val < win1_5.index t 1 * 1280 + win1_5.xsize (grid1.coords t) 1
    by_cases h7 : t.val % 8 = 7
    · rw [if_pos h7] at s1; omega
    · rw [if_neg h7] at s1; omega
  | ⟨2, _⟩ =>
    show win1_5.index t 2 * 128 ≤ (i 2).val ∧ (i 2).val < win1_5.index t 2 * 128 + win1_5.xsize (grid1.coords t) 2
    omega

/-- Every index `(p, r, q)` of the array is in the written part of the block of point `8 p + r / 1280`. -/
theorem cover1_5 (i : S2x10000x128.Idx) :
    ∃ t : Fin cfg1.N, (cfg1.win 5).flush t = true ∧ i ∈ ((cfg1.win 5).blk t).view.set := by
  have hi0 : (i 0).val < 2 := (i 0).isLt
  have hi1 : (i 1).val < 10000 := (i 1).isLt
  have hN : 8 * (i 0).val + (i 1).val / 1280 < cfg1.N := by rw [N1_16]; omega
  refine ⟨⟨8 * (i 0).val + (i 1).val / 1280, hN⟩, flush1_5 _, mem_blk1_5_of _ i ?_ ?_⟩
  · show (8 * (i 0).val + (i 1).val / 1280) / 8 = (i 0).val
    omega
  · show (8 * (i 0).val + (i 1).val / 1280) % 8 = (i 1).val / 1280
    omega

/-- The output array after the region: plane 0 all zero, plane 1 the network's output. -/
theorem arrAt1_5 (c : Dev nD) : (dat1V V c).arrAt 5 cfg1.N
    = fun j : S2x10000x128.Idx => if (j 0).val = 0 then (0 : EReal) else outM V c (ix2 (j 1) (j 2)) :=
  (dat1V V c).arrAt_eq_of_cover 5 (arrOut1 V c) (fun t _ => flushed1_5 V c t) cover1_5

end Cert.KernelIdeal.Hand

end
-- ==== Proof.ValueKI.lean ====
/-
  The value run of the two-region program over the extended reals.

  The run of @main ends with every unscoped buffer at the last host stretch's results over what the two regions left.
  Region 1's output array holds, on plane 1, `relu (adj · y₃ + b₂)` with `y₃ = relu (adj · y₂ + bₐ) · W₂`, read off the
  contents region 1 was entered from; of those, the two arrays region 0 wrote hold the adjacency matrix itself and
  `y₂ = relu (adj · (x · W₁) + b₁) · Wₐ`, and the rest are the first host stretch's results: each weight narrowed, which
  over the extended reals changes nothing, and each bias vector laid as one row, whose row is the vector.  Substituting,
  plane 1 is three layers `relu (adj · (h · W) + b)` composed, the network.  The last host stretch slices plane 1 out and
  drops its leading unit axis, so the result array at `(r, q)` is plane 1 at `(r, q)`.
-/
import proofs.«115004_g2345052143907_cont_sun_c4_577_23_alg».proof.Proof.LaunchKI
import proofs.«115004_g2345052143907_cont_sun_c4_577_23_alg».proof.Proof.Region0KI
import proofs.«115004_g2345052143907_cont_sun_c4_577_23_alg».proof.Proof.Region1ValueKI
import proofs.«115004_g2345052143907_cont_sun_c4_577_23_alg».proof.Proof.Values0KI
import proofs.«115004_g2345052143907_cont_sun_c4_577_23_alg».proof.Proof.Values1KI
import proofs.«115004_g2345052143907_cont_sun_c4_577_23_alg».proof.Proof.PayloadsKI
import proofs.«115004_g2345052143907_cont_sun_c4_577_23_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation BodyObligationLoose cellOf)

variable (m : (ℓ : Loc nD τ sig) → Buf (Elt Ideal) ℓ)

/-! ## The first host stretch, read over the extended reals -/

/-- The first weight narrowed: over the extended reals, the weight itself. -/
theorem V1r_v0 (c : Dev nD) : (V1r m c main_v0 : Cert.Spec.Mat 128 128) = m ((c : Thread nD τ).loc main_arg2) := by
  show StableHlo.after hostOps0 (W0 m c) (Proc.devRef .tc main_v0) = _
  after_results
  rfl

/-- The second weight narrowed is the weight itself. -/
theorem V1r_v1 (c : Dev nD) : (V1r m c main_v1 : Cert.Spec.Mat 128 128) = m ((c : Thread nD τ).loc main_arg4) := by
  show StableHlo.after hostOps0 (W0 m c) (Proc.devRef .tc main_v1) = _
  after_results
  rfl

/-- The third weight narrowed is the weight itself. -/
theorem V1r_v2 (c : Dev nD) : (V1r m c main_v2 : Cert.Spec.Mat 128 128) = m ((c : Thread nD τ).loc main_arg6) := by
  show StableHlo.after hostOps0 (W0 m c) (Proc.devRef .tc main_v2) = _
  after_results
  rfl

/-- The row of a bias vector laid as a one-row matrix is the vector. -/
theorem brow_shapeCast (b : Vec Ideal S128 .f32) (h : S128.ShapeCasts S1x128) : brow (shapeCast S1x128 b h) = b := by
  funext j
  unfold brow
  rw [shapeCast_a_1a_apply b h 0 (j 0)]
  exact congrArg b (eq_ix1 j).symm

/-- The first bias laid as one row: its row is the bias. -/
theorem V1r_v3 (c : Dev nD) : brow (V1r m c main_v3) = m ((c : Thread nD τ).loc main_arg3) := by
  show brow (StableHlo.after hostOps0 (W0 m c) (Proc.devRef .tc main_v3)) = _
  after_results
  exact brow_shapeCast _ _

/-- The second bias laid as one row: its row is the bias. -/
theorem V1r_v4 (c : Dev nD) : brow (V1r m c main_v4) = m ((c : Thread nD τ).loc main_arg5) := by
  show brow (StableHlo.after hostOps0 (W0 m c) (Proc.devRef .tc main_v4)) = _
  after_results
  exact brow_shapeCast _ _

/-- The third bias laid as one row: its row is the bias. -/
theorem V1r_v5 (c : Dev nD) : brow (V1r m c main_v5) = m ((c : Thread nD τ).loc main_arg7) := by
  show brow (StableHlo.after hostOps0 (W0 m c) (Proc.devRef .tc main_v5)) = _
  after_results
  exact brow_shapeCast _ _

/-- The first host stretch leaves the adjacency matrix as launched. -/
theorem V1r_arg0 (c : Dev nD) : (V1r m c main_arg0 : Cert.Spec.Mat 10000 10000) = m ((c : Thread nD τ).loc main_arg0) :=
  V1_of m c main_arg0 (by decide)

/-- The first host stretch leaves the input features as launched. -/
theorem V1r_arg1 (c : Dev nD) : (V1r m c main_arg1 : Cert.Spec.Mat 10000 128) = m ((c : Thread nD τ).loc main_arg1) :=
  V1_of m c main_arg1 (by decide)

/-! ## The last host stretch -/

section Tail

variable (dat0 : (c : Dev nD) → Dat τ (Elt Ideal) Unit ℕ (UR sig nD τ) ℕ cfg0 c)

/-- The result array is plane 1 of region 1's output array, its leading unit axis dropped. -/
theorem W4_v9 (c : Dev nD) (Fs : Arrs1 (F := Ideal) c) (r : Fin 10000) (q : Fin 128) :
    (W4 m dat0 c Fs (Proc.devRef .tc main_v9) : Cert.Spec.Mat 10000 128) (ix2 r q)
      = (Fs 5 : Vec Ideal S2x10000x128 .f32) (ix3 (1 : Fin 2) r q) := by
  show StableHlo.after hostOps2 (W3 m dat0 c Fs) (Proc.devRef .tc main_v9) (ix2 r q) = _
  after_results
  show shapeCast S10000x128 (extractStridedSlice S1x10000x128 ![1, 0, 0] (W3 m dat0 c Fs (Proc.devRef .tc main_v7))
      slices_S2x10000x128_S1x10000x128_1_0_0) shapeCasts_S1x10000x128_S10000x128 (ix2 r q) = _
  rw [shapeCast_1ab_ab_apply]
  refine (extractStridedSlice_apply _ _ _ _ (ix3 (1 : Fin 2) r q) fun a => ?_).trans ?_
  · match a with
    | ⟨0, _⟩ => rfl
    | ⟨1, _⟩ => show r.val = 0 + r.val; omega
    | ⟨2, _⟩ => show q.val = 0 + q.val; omega
  · exact congrFun (W3_arr m dat0 c Fs 5) _

end Tail

/-! ## Region 1's entry contents -/

/-- Region 0's proof data, entered from the first host stretch's results. -/
abbrev D0 : (c : Dev nD) → Dat τ (Elt Ideal) Unit ℕ (UR sig nD τ) ℕ cfg0 c := Hand.dat0 (F := Ideal) (V1r m)
/-- What region 1 is entered from. -/
abbrev Vin1 : (c : Dev nD) → (b : Ref sig .tc) → Buf (Elt Ideal) ((c : Thread nD τ).loc b) := V2r m (D0 m)

/-- Region 0's second output array is the adjacency matrix. -/
theorem Vin1_v6_1 (c : Dev nD) : (Vin1 m c main_v6_1 : Cert.Spec.Mat 10000 10000) = m ((c : Thread nD τ).loc main_arg0) :=
  (W2_arr m (D0 m) c 6).trans <| (arrAt0_6 (V1r m) c).trans (V1r_arg0 m c)

/-- Region 0's first output array is `relu (adj · (x · W₁) + b₁) · Wₐ` of the first host stretch's results. -/
theorem Vin1_v6_0 (c : Dev nD) : (Vin1 m c main_v6_0 : Cert.Spec.Mat 10000 128) = y2M (V1r m) c :=
  (W2_arr m (D0 m) c 5).trans (arrAt0_5 (V1r m) c)

/-- Region 0 leaves the third weight alone. -/
theorem Vin1_v2 (c : Dev nD) : (Vin1 m c main_v2 : Cert.Spec.Mat 128 128) = m ((c : Thread nD τ).loc main_arg6) :=
  (W2_of_ne m (D0 m) c main_v2 (by decide)).trans (V1r_v2 m c)

/-- Region 0 leaves the second bias row alone. -/
theorem Vin1_v4 (c : Dev nD) : brow (Vin1 m c main_v4) = m ((c : Thread nD τ).loc main_arg5) :=
  (congrArg brow (W2_of_ne m (D0 m) c main_v4 (by decide))).trans (V1r_v4 m c)

/-- Region 0 leaves the third bias row alone. -/
theorem Vin1_v5 (c : Dev nD) : brow (Vin1 m c main_v5) = m ((c : Thread nD τ).loc main_arg7) :=
  (congrArg brow (W2_of_ne m (D0 m) c main_v5 (by decide))).trans (V1r_v5 m c)

/-! ## The composition -/

/-- Region 0's first output over the launch contents: the first layer times the second weight. -/
theorem y2M_eq (c : Dev nD) :
    y2M (V1r m) c = Cert.Spec.mm (Cert.Spec.layer (m ((c : Thread nD τ).loc main_arg0)) (m ((c : Thread nD τ).loc main_arg1))
      (m ((c : Thread nD τ).loc main_arg2)) (m ((c : Thread nD τ).loc main_arg3))) (m ((c : Thread nD τ).loc main_arg4)) := by
  unfold y2M Cert.Spec.layer
  rw [V1r_arg0, V1r_arg1, V1r_v0, V1r_v3, V1r_v1]

/-- Plane 1 of region 1's output over the launch contents: the three layers composed. -/
theorem outM_eq (c : Dev nD) :
    outM (Vin1 m) c = Cert.Spec.net (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  unfold outM y3M Cert.Spec.net
  rw [Vin1_v6_1, Vin1_v6_0, Vin1_v4, Vin1_v2, Vin1_v5, y2M_eq]
  rfl

/-! ## The run -/

/-- Region 1's proof data, entered from region 0's exit contents. -/
abbrev D1 : (c : Dev nD) → Dat τ (Elt Ideal) Unit ℕ (UR sig nD τ) ℕ cfg1 c := dat1V (Vin1 m)

/-- THE VALUE RUN. Every weakly fair execution of @main terminates, and in every final memory the result array holds
    the three-layer network of the argument arrays' launch contents, each argument array as launched. -/
theorem value_run (ρ : Dev nD → PrngReg) :
    θ_run defs (onTc (τ := τ) (main (F := Ideal))) ⟨m, fun _ => 0, ρ⟩ (fun r => ∀ c : Dev nD,
      r.2.mem ((c.tc : Thread nD τ).loc main_v9) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    obtain ⟨Fs, hP, hb⟩ := h c
    have h5 : Fs 5 = (D1 m c).arrAt 5 cfg1.N := (D1 m c).toR_arrAt 5 cfg1.N (Fs 5) (hP 5)
    refine ⟨?_, (hb _ (mem_uc main_arg0 (by decide))).trans (W4_main_arg0 m (D0 m) (A_eq0 (V1r m)) c Fs),
      (hb _ (mem_uc main_arg1 (by decide))).trans (W4_main_arg1 m (D0 m) (A_eq0 (V1r m)) c Fs),
      (hb _ (mem_uc main_arg2 (by decide))).trans (W4_main_arg2 m (D0 m) (A_eq0 (V1r m)) c Fs),
      (hb _ (mem_uc main_arg3 (by decide))).trans (W4_main_arg3 m (D0 m) (A_eq0 (V1r m)) c Fs),
      (hb _ (mem_uc main_arg4 (by decide))).trans (W4_main_arg4 m (D0 m) (A_eq0 (V1r m)) c Fs),
      (hb _ (mem_uc main_arg5 (by decide))).trans (W4_main_arg5 m (D0 m) (A_eq0 (V1r m)) c Fs),
      (hb _ (mem_uc main_arg6 (by decide))).trans (W4_main_arg6 m (D0 m) (A_eq0 (V1r m)) c Fs),
      (hb _ (mem_uc main_arg7 (by decide))).trans (W4_main_arg7 m (D0 m) (A_eq0 (V1r m)) c Fs)⟩
    funext j
    rw [eq_ix2 j]
    refine (congrFun (hb _ (mem_uc main_v9 (by decide))) _).trans ?_
    refine (W4_v9 m (D0 m) c Fs (j 0) (j 1)).trans ?_
    rw [h5, arrAt1_5]
    show (if ((1 : Fin 2) : ℕ) = 0 then (0 : EReal) else outM (Vin1 m) c (ix2 (j 0) (j 1))) = _
    rw [if_neg (by decide)]
    exact congrFun (outM_eq m c) _)
    (run_rel m ρ (D0 m) (A_eq0 (V1r m)) (fun _ _ => rfl) (fun _ _ => rfl) (fun _ _ => rfl)
      (fun c => (body_obligation0 (V1r m) c).loose) (hin0 (V1r m)) (hout0 (V1r m))
      (D1 m) (fun _ => false) (A_eq1V (Vin1 m)) (fun _ _ => rfl) (fun _ _ => rfl) (fun _ _ => rfl)
      (body_obligation1V (Vin1 m)) (hin1V (Vin1 m)) (hout1V (Vin1 m)))

end Cert.KernelIdeal.Hand
end
-- ==== Proof.lean ====
/-
  A three-layer graph convolution, kernel against reference: each layer is `relu (adj · (h · W) + b)` over one dense
  adjacency matrix `adj` (10000 × 10000), features 10000 × 128, weights 128 × 128.

  The kernel program runs two pipelined regions.  The first walks `adj` in 25 row blocks of 400: at its first grid point
  it keeps `x · W1` in a scratch buffer, and at every point it stores the block's layer-one rows times `Wa` (so the
  first layer's activations never leave the core) beside a narrowed copy of the block.  The second walks the copy twice in
  8 row blocks of 1280 (the last block overhangs the array by 240 rows, which its transfers cut off): the first pass fills a
  scratch with the second layer's rows times `W2`, the second pass stores the third layer's rows.  A last host step slices
  that pass's plane out and reshapes it.

  Over the extended reals a change of float format is the identity and a block product into a zero accumulator is the plain
  sum over the shared coordinate, so each stored row is a row of the corresponding matrix of the network: a product's row
  depends on its left factor only through that row, which is why the rows past the array's end never reach a kept result.
  Both programs therefore compute `Cert.Spec.net`, the same three-fold composition with the products grouped from the
  right; no algebraic law beyond that regrouping-free reading is used, and the finiteness precondition is not needed.

  The three frames: the reference is a line of host operations; for the two kernel programs each region's body is run
  symbolically once per control case, region 0's results are named exactly (so region 1's entry contents are known), and
  region 1's output is left unnamed for the frame, which asks only that the argument arrays end as launched.  The
  idealization rewrote nothing, so `preserves` is trivial.
-/
import proofs.«115004_g2345052143907_cont_sun_c4_577_23_alg».proof.Defs
import proofs.«115004_g2345052143907_cont_sun_c4_577_23_alg».proof.Proof.Gen.Kernel
import proofs.«115004_g2345052143907_cont_sun_c4_577_23_alg».proof.Proof.Gen.KernelIdeal
import proofs.«115004_g2345052143907_cont_sun_c4_577_23_alg».proof.Proof.Gen.ReferenceIdeal
import proofs.«115004_g2345052143907_cont_sun_c4_577_23_alg».proof.Proof.Gen.Pre_finite_inputs
import proofs.«115004_g2345052143907_cont_sun_c4_577_23_alg».proof.Proof.FrameK
import proofs.«115004_g2345052143907_cont_sun_c4_577_23_alg».proof.Proof.FrameKI
import proofs.«115004_g2345052143907_cont_sun_c4_577_23_alg».proof.Proof.RefIsSpec
import proofs.«115004_g2345052143907_cont_sun_c4_577_23_alg».proof.Proof.ValueKI
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Hand.frame_all (F := Bits) m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- The reference is a line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefIsSpec.ref_run m ρ)

/-- Both idealized programs end holding the network of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.value_run m ρ, ?_⟩
  refine (θ_run Cert.ReferenceIdeal.defs _ _).mono (fun _ h c => ⟨(h c).1.trans ?_, (h c).2⟩) (Cert.RefIsSpec.ref_run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
